-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x14x14 : Shape := ⟨4, ![64, 2048, 14, 14]⟩
abbrev S1x1000x300 : Shape := ⟨3, ![1, 1000, 300]⟩
abbrev S2x40000 : Shape := ⟨2, ![2, 40000]⟩
abbrev S300x1024 : Shape := ⟨2, ![300, 1024]⟩
abbrev S1024 : Shape := ⟨1, ![1024]⟩
abbrev S1024x2048 : Shape := ⟨2, ![1024, 2048]⟩
abbrev S2048 : Shape := ⟨1, ![2048]⟩
abbrev S_ : Shape := ⟨0, ![]⟩

class Facts : Prop where
  bcast_S_S64x2048x14x14 : S_.BroadcastsInDim S64x2048x14x14 (![] : Fin 0 → Fin S64x2048x14x14.rank)
  reducesTo_S64x2048x14x14_S_d0_1_2_3 : S64x2048x14x14.ReducesTo [0, 1, 2, 3] S_
  h_S_ : 0 < S_.numel
  bcast_S_S1x1000x300 : S_.BroadcastsInDim S1x1000x300 (![] : Fin 0 → Fin S1x1000x300.rank)
  reducesTo_S1x1000x300_S_d0_1_2 : S1x1000x300.ReducesTo [0, 1, 2] S_
  bcast_S_S300x1024 : S_.BroadcastsInDim S300x1024 (![] : Fin 0 → Fin S300x1024.rank)
  reducesTo_S300x1024_S_d0_1 : S300x1024.ReducesTo [0, 1] S_
  bcast_S_S1024 : S_.BroadcastsInDim S1024 (![] : Fin 0 → Fin S1024.rank)
  reducesTo_S1024_S_d0 : S1024.ReducesTo [0] S_
  bcast_S_S1024x2048 : S_.BroadcastsInDim S1024x2048 (![] : Fin 0 → Fin S1024x2048.rank)
  reducesTo_S1024x2048_S_d0_1 : S1024x2048.ReducesTo [0, 1] S_
  bcast_S_S2048 : S_.BroadcastsInDim S2048 (![] : Fin 0 → Fin S2048.rank)
  reducesTo_S2048_S_d0 : S2048.ReducesTo [0] S_
  bcast_S_S2x40000 : S_.BroadcastsInDim S2x40000 (![] : Fin 0 → Fin S2x40000.rank)
  reducesTo_S2x40000_S_d0_1 : S2x40000.ReducesTo [0, 1] S_

variable [Facts]

def fn_part2 {F : FTy → Type} [FloatOps F] (main_arg2 : IVec S2x40000 32) (main_arg8 : FVec F S1024x2048 .f32) (main_v33 : IVec S_ 1) : IVec S_ 1 :=
  let main_v34 : FVec F S1024x2048 .f32 := Host.absf main_arg8
  let main_cst_12 : FVec F S_ .f32 := constant S_ .f32 0x7F800000#32
  let main_v35 : FVec F S1024x2048 .f32 := broadcastInDim S1024x2048 ![] bcast_S_S1024x2048 main_cst_12
  let main_v36 : IVec S1024x2048 1 := cmpf .olt main_v34 main_v35
  let main_c_13 : IVec S_ 1 := constantI S_ 1 1#1
  let main_v37 : IVec S_ 1 := (fun x v => Host.reduce IntOp.andi x v reducesTo_S1024x2048_S_d0_1 h_S_) main_v36 main_c_13
  let main_v38 : IVec S_ 1 := andi main_v33 main_v37
  let main_c_14 : IVec S_ 32 := constantI S_ 32 0#32
  let main_v39 : IVec S2x40000 32 := broadcastInDim S2x40000 ![] bcast_S_S2x40000 main_c_14
  let main_v40 : IVec S2x40000 1 := cmpi .sge main_arg2 main_v39
  let main_c_15 : IVec S_ 1 := constantI S_ 1 1#1
  let main_v41 : IVec S_ 1 := (fun x v => Host.reduce IntOp.andi x v reducesTo_S2x40000_S_d0_1 h_S_) main_v40 main_c_15
  let main_v42 : IVec S_ 1 := andi main_v38 main_v41
  let main_c_16 : IVec S_ 32 := constantI S_ 32 1000#32
  let main_v43 : IVec S2x40000 32 := broadcastInDim S2x40000 ![] bcast_S_S2x40000 main_c_16
  let main_v44 : IVec S2x40000 1 := cmpi .slt main_arg2 main_v43
  let main_c_17 : IVec S_ 1 := constantI S_ 1 1#1
  let main_v45 : IVec S_ 1 := (fun x v => Host.reduce IntOp.andi x v reducesTo_S2x40000_S_d0_1 h_S_) main_v44 main_c_17
  let main_v46 : IVec S_ 1 := andi main_v42 main_v45
  main_v46

def fn_part1 {F : FTy → Type} [FloatOps F] (main_arg2 : IVec S2x40000 32) (main_arg5 : FVec F S300x1024 .f32) (main_arg6 : FVec F S1024x2048 .f32) (main_arg7 : FVec F S2048 .f32) (main_arg8 : FVec F S1024x2048 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S300x1024 .f32 := Host.absf main_arg5
  let main_cst_6 : FVec F S_ .f32 := constant S_ .f32 0x7F800000#32
  let main_v20 : FVec F S300x1024 .f32 := broadcastInDim S300x1024 ![] bcast_S_S300x1024 main_cst_6
  let main_v21 : IVec S300x1024 1 := cmpf .olt main_v19 main_v20
  let main_c_7 : IVec S_ 1 := constantI S_ 1 1#1
  let main_v22 : IVec S_ 1 := (fun x v => Host.reduce IntOp.andi x v reducesTo_S300x1024_S_d0_1 h_S_) main_v21 main_c_7
  let main_v23 : IVec S_ 1 := andi main_v18 main_v22
  let main_v24 : FVec F S1024x2048 .f32 := Host.absf main_arg6
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S2048 .f32 := Host.absf main_arg7
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg2 main_arg8 main_v33

def fn {F : FTy → Type} [FloatOps F] (main_arg0 : FVec F S64x2048x14x14 .f32) (main_arg1 : FVec F S1x1000x300 .f32) (main_arg2 : IVec S2x40000 32) (main_arg3 : FVec F S300x1024 .f32) (main_arg4 : FVec F S1024 .f32) (main_arg5 : FVec F S300x1024 .f32) (main_arg6 : FVec F S1024x2048 .f32) (main_arg7 : FVec F S2048 .f32) (main_arg8 : FVec F S1024x2048 .f32) : IVec S_ 1 :=
  let main_v0 : FVec F S64x2048x14x14 .f32 := Host.absf main_arg0
  let main_cst : FVec F S_ .f32 := constant S_ .f32 0x7F800000#32
  let main_v1 : FVec F S64x2048x14x14 .f32 := broadcastInDim S64x2048x14x14 ![] bcast_S_S64x2048x14x14 main_cst
  let main_v2 : IVec S64x2048x14x14 1 := cmpf .olt main_v0 main_v1
  let main_c : IVec S_ 1 := constantI S_ 1 1#1
  let main_v3 : IVec S_ 1 := (fun x v => Host.reduce IntOp.andi x v reducesTo_S64x2048x14x14_S_d0_1_2_3 h_S_) main_v2 main_c
  let main_v4 : FVec F S1x1000x300 .f32 := Host.absf main_arg1
  let main_cst_0 : FVec F S_ .f32 := constant S_ .f32 0x7F800000#32
  let main_v5 : FVec F S1x1000x300 .f32 := broadcastInDim S1x1000x300 ![] bcast_S_S1x1000x300 main_cst_0
  let main_v6 : IVec S1x1000x300 1 := cmpf .olt main_v4 main_v5
  let main_c_1 : IVec S_ 1 := constantI S_ 1 1#1
  let main_v7 : IVec S_ 1 := (fun x v => Host.reduce IntOp.andi x v reducesTo_S1x1000x300_S_d0_1_2 h_S_) main_v6 main_c_1
  let main_v8 : IVec S_ 1 := andi main_v3 main_v7
  let main_v9 : FVec F S300x1024 .f32 := Host.absf main_arg3
  let main_cst_2 : FVec F S_ .f32 := constant S_ .f32 0x7F800000#32
  let main_v10 : FVec F S300x1024 .f32 := broadcastInDim S300x1024 ![] bcast_S_S300x1024 main_cst_2
  let main_v11 : IVec S300x1024 1 := cmpf .olt main_v9 main_v10
  let main_c_3 : IVec S_ 1 := constantI S_ 1 1#1
  let main_v12 : IVec S_ 1 := (fun x v => Host.reduce IntOp.andi x v reducesTo_S300x1024_S_d0_1 h_S_) main_v11 main_c_3
  let main_v13 : IVec S_ 1 := andi main_v8 main_v12
  let main_v14 : FVec F S1024 .f32 := Host.absf main_arg4
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg2 main_arg5 main_arg6 main_arg7 main_arg8 main_v13 main_v16
-- ==== Kernel.lean ====
abbrev S64x2048x14x14 : Shape := ⟨4, ![64, 2048, 14, 14]⟩
abbrev S1x1000x300 : Shape := ⟨3, ![1, 1000, 300]⟩
abbrev S2x40000 : Shape := ⟨2, ![2, 40000]⟩
abbrev S300x1024 : Shape := ⟨2, ![300, 1024]⟩
abbrev S1024 : Shape := ⟨1, ![1024]⟩
abbrev S1024x2048 : Shape := ⟨2, ![1024, 2048]⟩
abbrev S2048 : Shape := ⟨1, ![2048]⟩
abbrev S64x2048x196 : Shape := ⟨3, ![64, 2048, 196]⟩
abbrev S64x2048 : Shape := ⟨2, ![64, 2048]⟩
abbrev S8x2048x196 : Shape := ⟨3, ![8, 2048, 196]⟩
abbrev S8x2048 : Shape := ⟨2, ![8, 2048]⟩
abbrev S1000x300 : Shape := ⟨2, ![1000, 300]⟩
abbrev S1x40000 : Shape := ⟨2, ![1, 40000]⟩
abbrev S40000 : Shape := ⟨1, ![40000]⟩
abbrev S_ : Shape := ⟨0, ![]⟩
abbrev S1000x1000 : Shape := ⟨2, ![1000, 1000]⟩
abbrev S40000x1 : Shape := ⟨2, ![40000, 1]⟩
abbrev S40000x2 : Shape := ⟨2, ![40000, 2]⟩
abbrev S1000 : Shape := ⟨1, ![1000]⟩
abbrev S1000x1 : Shape := ⟨2, ![1000, 1]⟩
abbrev S1000x1024 : Shape := ⟨2, ![1000, 1024]⟩
abbrev S1x1024 : Shape := ⟨2, ![1, 1024]⟩
abbrev S1000x2048 : Shape := ⟨2, ![1000, 2048]⟩
abbrev S1x2048 : Shape := ⟨2, ![1, 2048]⟩
abbrev S64x1000 : Shape := ⟨2, ![64, 1000]⟩

abbrev nBuf : Space → Nat
  | .hbm => 56
  | .vmem => 19
  | .smem => 0
  | _ => 0

abbrev bufTy : (tb : Table) → Fin (tcTables nBuf tb) → BufTy
  | .hbm, ⟨0, _⟩ => ⟨S64x2048x14x14, .f32⟩
  | .hbm, ⟨1, _⟩ => ⟨S1x1000x300, .f32⟩
  | .hbm, ⟨2, _⟩ => ⟨S2x40000, .i32⟩
  | .hbm, ⟨3, _⟩ => ⟨S300x1024, .f32⟩
  | .hbm, ⟨4, _⟩ => ⟨S1024, .f32⟩
  | .hbm, ⟨5, _⟩ => ⟨S300x1024, .f32⟩
  | .hbm, ⟨6, _⟩ => ⟨S1024x2048, .f32⟩
  | .hbm, ⟨7, _⟩ => ⟨S2048, .f32⟩
  | .hbm, ⟨8, _⟩ => ⟨S1024x2048, .f32⟩
  | .hbm, ⟨9, _⟩ => ⟨S64x2048x196, .f32⟩
  | .hbm, ⟨10, _⟩ => ⟨S64x2048, .f32⟩
  | .hbm, ⟨11, _⟩ => ⟨S1000x300, .f32⟩
  | .hbm, ⟨12, _⟩ => ⟨S1x40000, .i32⟩
  | .hbm, ⟨13, _⟩ => ⟨S40000, .i32⟩
  | .hbm, ⟨14, _⟩ => ⟨S1x40000, .i32⟩
  | .hbm, ⟨15, _⟩ => ⟨S40000, .i32⟩
  | .hbm, ⟨16, _⟩ => ⟨S_, .f32⟩
  | .hbm, ⟨17, _⟩ => ⟨S1000x1000, .f32⟩
  | .hbm, ⟨18, _⟩ => ⟨S_, .i32⟩
  | .hbm, ⟨19, _⟩ => ⟨S40000, .i32⟩
  | .hbm, ⟨20, _⟩ => ⟨S40000, .i1⟩
  | .hbm, ⟨21, _⟩ => ⟨S_, .i32⟩
  | .hbm, ⟨22, _⟩ => ⟨S40000, .i32⟩
  | .hbm, ⟨23, _⟩ => ⟨S40000, .i32⟩
  | .hbm, ⟨24, _⟩ => ⟨S40000, .i32⟩
  | .hbm, ⟨25, _⟩ => ⟨S_, .i32⟩
  | .hbm, ⟨26, _⟩ => ⟨S40000, .i32⟩
  | .hbm, ⟨27, _⟩ => ⟨S40000, .i1⟩
  | .hbm, ⟨28, _⟩ => ⟨S_, .i32⟩
  | .hbm, ⟨29, _⟩ => ⟨S40000, .i32⟩
  | .hbm, ⟨30, _⟩ => ⟨S40000, .i32⟩
  | .hbm, ⟨31, _⟩ => ⟨S40000, .i32⟩
  | .hbm, ⟨32, _⟩ => ⟨S40000x1, .i32⟩
  | .hbm, ⟨33, _⟩ => ⟨S40000x1, .i32⟩
  | .hbm, ⟨34, _⟩ => ⟨S40000x2, .i32⟩
  | .hbm, ⟨35, _⟩ => ⟨S_, .f32⟩
  | .hbm, ⟨36, _⟩ => ⟨S40000, .f32⟩
  | .hbm, ⟨37, _⟩ => ⟨S1000x1000, .f32⟩
  | .hbm, ⟨38, _⟩ => ⟨S_, .f32⟩
  | .hbm, ⟨39, _⟩ => ⟨S1000, .f32⟩
  | .hbm, ⟨40, _⟩ => ⟨S1000x1, .f32⟩
  | .hbm, ⟨41, _⟩ => ⟨S_, .f32⟩
  | .hbm, ⟨42, _⟩ => ⟨S1000x1, .f32⟩
  | .hbm, ⟨43, _⟩ => ⟨S1000x1, .f32⟩
  | .hbm, ⟨44, _⟩ => ⟨S1000x1000, .f32⟩
  | .hbm, ⟨45, _⟩ => ⟨S1000x1000, .f32⟩
  | .hbm, ⟨46, _⟩ => ⟨S1000x1000, .bf16⟩
  | .hbm, ⟨47, _⟩ => ⟨S1000x300, .bf16⟩
  | .hbm, ⟨48, _⟩ => ⟨S300x1024, .bf16⟩
  | .hbm, ⟨49, _⟩ => ⟨S300x1024, .bf16⟩
  | .hbm, ⟨50, _⟩ => ⟨S1000x1024, .f32⟩
  | .hbm, ⟨51, _⟩ => ⟨S1000x1024, .bf16⟩
  | .hbm, ⟨52, _⟩ => ⟨S1024x2048, .bf16⟩
  | .hbm, ⟨53, _⟩ => ⟨S1024x2048, .bf16⟩
  | .hbm, ⟨54, _⟩ => ⟨S1000x2048, .f32⟩
  | .hbm, ⟨55, _⟩ => ⟨S64x1000, .f32⟩
  | .local _ .vmem, ⟨0, _⟩ => ⟨S8x2048x196, .f32⟩
  | .local _ .vmem, ⟨1, _⟩ => ⟨S8x2048x196, .f32⟩
  | .local _ .vmem, ⟨2, _⟩ => ⟨S8x2048, .f32⟩
  | .local _ .vmem, ⟨3, _⟩ => ⟨S8x2048, .f32⟩
  | .local _ .vmem, ⟨4, _⟩ => ⟨S1000x1000, .bf16⟩
  | .local _ .vmem, ⟨5, _⟩ => ⟨S1000x300, .bf16⟩
  | .local _ .vmem, ⟨6, _⟩ => ⟨S300x1024, .bf16⟩
  | .local _ .vmem, ⟨7, _⟩ => ⟨S1024, .f32⟩
  | .local _ .vmem, ⟨8, _⟩ => ⟨S300x1024, .bf16⟩
  | .local _ .vmem, ⟨9, _⟩ => ⟨S1000x1024, .f32⟩
  | .local _ .vmem, ⟨10, _⟩ => ⟨S1000x1000, .bf16⟩
  | .local _ .vmem, ⟨11, _⟩ => ⟨S1000x1024, .bf16⟩
  | .local _ .vmem, ⟨12, _⟩ => ⟨S1024x2048, .bf16⟩
  | .local _ .vmem, ⟨13, _⟩ => ⟨S2048, .f32⟩
  | .local _ .vmem, ⟨14, _⟩ => ⟨S1024x2048, .bf16⟩
  | .local _ .vmem, ⟨15, _⟩ => ⟨S1000x2048, .f32⟩
  | .local _ .vmem, ⟨16, _⟩ => ⟨S64x2048, .f32⟩
  | .local _ .vmem, ⟨17, _⟩ => ⟨S1000x2048, .f32⟩
  | .local _ .vmem, ⟨18, _⟩ => ⟨S64x1000, .f32⟩
  | _, _ => ⟨S64x2048x14x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc3_stg0_0 : Ref sig .tc := ⟨.vmem, 16, rfl⟩
abbrev cc3_stg1_0 : Ref sig .tc := ⟨.vmem, 17, rfl⟩
abbrev cc3_stg2_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc2_sem0_0 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc3_sem0_0 : DmaSem sig := 16
abbrev cc3_sem1_0 : DmaSem sig := 17
abbrev cc3_sem2_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x2048x196 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := .none

abbrev stage1_0 : Fin 1 → Memref sig .tc .vmem S1000x1000 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1000x300 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S300x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S300x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1000x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev grid2 : Pipeline.Grid := .none

abbrev stage2_0 : Fin 1 → Memref sig .tc .vmem S1000x1000 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1000x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1024x2048 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S2048 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S1024x2048 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S1000x2048 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev grid3 : Pipeline.Grid := .none

abbrev stage3_0 : Fin 1 → Memref sig .tc .vmem S64x2048 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S1000x2048 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S64x1000 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

class Facts₀ : Prop where
  shapeCasts_S64x2048x14x14_S64x2048x196 : S64x2048x14x14.ShapeCasts S64x2048x196
  inb_S8x2048x196_S8x2048x196_0_0_0 : ∀ a, (![0, 0, 0] : Fin 3 → Nat) a + S8x2048x196.size a ≤ S8x2048x196.size a
  h_S8x2048x196 : 0 < S8x2048x196.numel
  shapeCasts_S8x2048x196_S8x2048x196 : S8x2048x196.ShapeCasts S8x2048x196
  reduces_S8x2048x196_S8x2048 : S8x2048x196.Reduces [2] S8x2048
  inb_S8x2048_S8x2048_0_0 : ∀ a, (![0, 0] : Fin 2 → Nat) a + S8x2048.size a ≤ S8x2048.size a
  h_S8x2048 : 0 < S8x2048.numel
  shapeCasts_S1x1000x300_S1000x300 : S1x1000x300.ShapeCasts S1000x300
  slices_S2x40000_S1x40000_0_0 : S2x40000.Slices ![0, 0] S1x40000
  shapeCasts_S1x40000_S40000 : S1x40000.ShapeCasts S40000
  slices_S2x40000_S1x40000_1_0 : S2x40000.Slices ![1, 0] S1x40000
  bcast_S_S1000x1000 : S_.BroadcastsInDim S1000x1000 (![] : Fin 0 → Fin S1000x1000.rank)
  bcast_S_S40000 : S_.BroadcastsInDim S40000 (![] : Fin 0 → Fin S40000.rank)
  bcast_S40000_S40000x1_0 : S40000.BroadcastsInDim S40000x1 (![0] : Fin 1 → Fin S40000x1.rank)
  concatenates_S40000x1_S40000x1_S40000x2_d1 : Shape.Concatenates [S40000x1, S40000x1] S40000x2 1
  reducesTo_S1000x1000_S1000_d1 : S1000x1000.ReducesTo [1] S1000
  h_S_ : 0 < S_.numel
  bcast_S1000_S1000x1_0 : S1000.BroadcastsInDim S1000x1 (![0] : Fin 1 → Fin S1000x1.rank)
  bcast_S_S1000x1 : S_.BroadcastsInDim S1000x1 (![] : Fin 0 → Fin S1000x1.rank)
  bcast_S1000x1_S1000x1000_0_1 : S1000x1.BroadcastsInDim S1000x1000 (![0, 1] : Fin 2 → Fin S1000x1000.rank)
  bitsLt_bf16_f32 : FTy.bits .bf16 < FTy.bits .f32
  inb_S1000x1000_S1000x1000_0_0 : ∀ a, (![0, 0] : Fin 2 → Nat) a + S1000x1000.size a ≤ S1000x1000.size a
  h_S1000x1000 : 0 < S1000x1000.numel
  shapeCasts_S1000x1000_S1000x1000 : S1000x1000.ShapeCasts S1000x1000
  inb_S1000x300_S1000x300_0_0 : ∀ a, (![0, 0] : Fin 2 → Nat) a + S1000x300.size a ≤ S1000x300.size a
  h_S1000x300 : 0 < S1000x300.numel
  shapeCasts_S1000x300_S1000x300 : S1000x300.ShapeCasts S1000x300
  inb_S300x1024_S300x1024_0_0 : ∀ a, (![0, 0] : Fin 2 → Nat) a + S300x1024.size a ≤ S300x1024.size a
  h_S300x1024 : 0 < S300x1024.numel
  shapeCasts_S300x1024_S300x1024 : S300x1024.ShapeCasts S300x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1000x1024 : S1x1024.Broadcasts S1000x1024
  inb_S1000x1024_S1000x1024_0_0 : ∀ a, (![0, 0] : Fin 2 → Nat) a + S1000x1024.size a ≤ S1000x1024.size a
  h_S1000x1024 : 0 < S1000x1024.numel
  shapeCasts_S1000x1024_S1000x1024 : S1000x1024.ShapeCasts S1000x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S1000x2048 : S1x2048.Broadcasts S1000x2048
  inb_S1000x2048_S1000x2048_0_0 : ∀ a, (![0, 0] : Fin 2 → Nat) a + S1000x2048.size a ≤ S1000x2048.size a
  h_S1000x2048 : 0 < S1000x2048.numel
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  shapeCasts_S1000x2048_S1000x2048 : S1000x2048.ShapeCasts S1000x2048
  inb_S64x1000_S64x1000_0_0 : ∀ a, (![0, 0] : Fin 2 → Nat) a + S64x1000.size a ≤ S64x1000.size a
  h_S64x1000 : 0 < S64x1000.numel
  scatter_S1000x1000_S40000x2_S40000_n_01_01_1_wf : ScatterDims.WF S1000x1000 S40000x2 S40000 [] [0, 1] [0, 1] 1
  dot_S1000x1000_S1000x300_S1000x300_1_0_0_1_n_n_wf : DotDims.WF S1000x1000 S1000x300 S1000x300 [1] [0] [0] [1] [] []
  dot_S1000x300_S300x1024_S1000x1024_1_0_0_1_n_n_wf : DotDims.WF S1000x300 S300x1024 S1000x1024 [1] [0] [0] [1] [] []
  dot_S1000x1000_S1000x1024_S1000x1024_1_0_0_1_n_n_wf : DotDims.WF S1000x1000 S1000x1024 S1000x1024 [1] [0] [0] [1] [] []
  dot_S1000x1024_S1024x2048_S1000x2048_1_0_0_1_n_n_wf : DotDims.WF S1000x1024 S1024x2048 S1000x2048 [1] [0] [0] [1] [] []
  dot_S64x2048_S1000x2048_S64x1000_1_1_0_0_n_n_wf : DotDims.WF S64x2048 S1000x2048 S64x1000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x2048x196.size a ≤ S64x2048x196.size a
  hwx0_0 : ∀ i : grid0.Coords, EltTy.bits .f32 = 32 ∨ (Rect.block (s := S64x2048x196) S8x2048x196.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x2048.size a ≤ S64x2048.size a
  hwx0_1 : ∀ i : grid0.Coords, EltTy.bits .f32 = 32 ∨ (Rect.block (s := S64x2048) S8x2048.size (cc0_transform_1 i) (hinb0_1 i)).WholeWords (EltTy.packing .f32)
  hstage1_0 : ∀ j, (stage1_0 j).IsWhole
  hstage1_1 : ∀ j, (stage1_1 j).IsWhole
  hstage1_2 : ∀ j, (stage1_2 j).IsWhole
  hstage1_3 : ∀ j, (stage1_3 j).IsWhole
  hstage1_4 : ∀ j, (stage1_4 j).IsWhole
  hstage1_5 : ∀ j, (stage1_5 j).IsWhole
  hstage2_0 : ∀ j, (stage2_0 j).IsWhole
  hstage2_1 : ∀ j, (stage2_1 j).IsWhole
  hstage2_2 : ∀ j, (stage2_2 j).IsWhole
  hstage2_3 : ∀ j, (stage2_3 j).IsWhole
  hstage2_4 : ∀ j, (stage2_4 j).IsWhole
  hstage2_5 : ∀ j, (stage2_5 j).IsWhole
  hstage3_0 : ∀ j, (stage3_0 j).IsWhole
  hstage3_1 : ∀ j, (stage3_1 j).IsWhole
  hstage3_2 : ∀ j, (stage3_2 j).IsWhole

variable [Facts₀]

def scatter_S1000x1000_S40000x2_S40000_n_01_01_1 : ScatterDims S1000x1000 S40000x2 S40000 where
  updateWindowDims := []
  insertedWindowDims := [0, 1]
  scatterDimsToOperandDims := [0, 1]
  indexVectorDim := 1
  wf := scatter_S1000x1000_S40000x2_S40000_n_01_01_1_wf
def dot_S1000x1000_S1000x300_S1000x300_1_0_0_1_n_n : DotDims S1000x1000 S1000x300 S1000x300 where
  lhsContracting := [1]
  rhsContracting := [0]
  lhsNonContracting := [0]
  rhsNonContracting := [1]
  lhsBatch := []
  rhsBatch := []
  wf := dot_S1000x1000_S1000x300_S1000x300_1_0_0_1_n_n_wf
def dot_S1000x300_S300x1024_S1000x1024_1_0_0_1_n_n : DotDims S1000x300 S300x1024 S1000x1024 where
  lhsContracting := [1]
  rhsContracting := [0]
  lhsNonContracting := [0]
  rhsNonContracting := [1]
  lhsBatch := []
  rhsBatch := []
  wf := dot_S1000x300_S300x1024_S1000x1024_1_0_0_1_n_n_wf
def dot_S1000x1000_S1000x1024_S1000x1024_1_0_0_1_n_n : DotDims S1000x1000 S1000x1024 S1000x1024 where
  lhsContracting := [1]
  rhsContracting := [0]
  lhsNonContracting := [0]
  rhsNonContracting := [1]
  lhsBatch := []
  rhsBatch := []
  wf := dot_S1000x1000_S1000x1024_S1000x1024_1_0_0_1_n_n_wf
def dot_S1000x1024_S1024x2048_S1000x2048_1_0_0_1_n_n : DotDims S1000x1024 S1024x2048 S1000x2048 where
  lhsContracting := [1]
  rhsContracting := [0]
  lhsNonContracting := [0]
  rhsNonContracting := [1]
  lhsBatch := []
  rhsBatch := []
  wf := dot_S1000x1024_S1024x2048_S1000x2048_1_0_0_1_n_n_wf
def dot_S64x2048_S1000x2048_S64x1000_1_1_0_0_n_n : DotDims S64x2048 S1000x2048 S64x1000 where
  lhsContracting := [1]
  rhsContracting := [1]
  lhsNonContracting := [0]
  rhsNonContracting := [0]
  lhsBatch := []
  rhsBatch := []
  wf := dot_S64x2048_S1000x2048_S64x1000_1_1_0_0_n_n_wf

abbrev win0_0 : Pipeline.Window sig grid0 :=
  Pipeline.Window.ofSpec (Memref.whole main_v0) S8x2048x196.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.whole (Memref.whole main_v29) false false (stage1_0 0) (sem1_0 0) (Memref.isWhole_whole _) (hstage1_0 0)

abbrev win1_1 : Pipeline.Window sig grid1 :=
  Pipeline.Window.whole (Memref.whole main_v30) false false (stage1_1 0) (sem1_1 0) (Memref.isWhole_whole _) (hstage1_1 0)

abbrev win1_2 : Pipeline.Window sig grid1 :=
  Pipeline.Window.whole (Memref.whole main_v31) false false (stage1_2 0) (sem1_2 0) (Memref.isWhole_whole _) (hstage1_2 0)

abbrev win1_3 : Pipeline.Window sig grid1 :=
  Pipeline.Window.whole (Memref.whole main_arg4) false false (stage1_3 0) (sem1_3 0) (Memref.isWhole_whole _) (hstage1_3 0)

abbrev win1_4 : Pipeline.Window sig grid1 :=
  Pipeline.Window.whole (Memref.whole main_v32) false false (stage1_4 0) (sem1_4 0) (Memref.isWhole_whole _) (hstage1_4 0)

abbrev win1_5 : Pipeline.Window sig grid1 :=
  Pipeline.Window.whole (Memref.whole main_v33) true false (stage1_5 0) (sem1_5 0) (Memref.isWhole_whole _) (hstage1_5 0)

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.whole (Memref.whole main_v29) false false (stage2_0 0) (sem2_0 0) (Memref.isWhole_whole _) (hstage2_0 0)

abbrev win2_1 : Pipeline.Window sig grid2 :=
  Pipeline.Window.whole (Memref.whole main_v34) false false (stage2_1 0) (sem2_1 0) (Memref.isWhole_whole _) (hstage2_1 0)

abbrev win2_2 : Pipeline.Window sig grid2 :=
  Pipeline.Window.whole (Memref.whole main_v35) false false (stage2_2 0) (sem2_2 0) (Memref.isWhole_whole _) (hstage2_2 0)

abbrev win2_3 : Pipeline.Window sig grid2 :=
  Pipeline.Window.whole (Memref.whole main_arg7) false false (stage2_3 0) (sem2_3 0) (Memref.isWhole_whole _) (hstage2_3 0)

abbrev win2_4 : Pipeline.Window sig grid2 :=
  Pipeline.Window.whole (Memref.whole main_v36) false false (stage2_4 0) (sem2_4 0) (Memref.isWhole_whole _) (hstage2_4 0)

abbrev win2_5 : Pipeline.Window sig grid2 :=
  Pipeline.Window.whole (Memref.whole main_v37) true false (stage2_5 0) (sem2_5 0) (Memref.isWhole_whole _) (hstage2_5 0)

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.whole (Memref.whole main_v1) false false (stage3_0 0) (sem3_0 0) (Memref.isWhole_whole _) (hstage3_0 0)

abbrev win3_1 : Pipeline.Window sig grid3 :=
  Pipeline.Window.whole (Memref.whole main_v37) false false (stage3_1 0) (sem3_1 0) (Memref.isWhole_whole _) (hstage3_1 0)

abbrev win3_2 : Pipeline.Window sig grid3 :=
  Pipeline.Window.whole (Memref.whole main_v38) true false (stage3_2 0) (sem3_2 0) (Memref.isWhole_whole _) (hstage3_2 0)

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S64x2048x14x14 : Shape := ⟨4, ![64, 2048, 14, 14]⟩
abbrev S1x1000x300 : Shape := ⟨3, ![1, 1000, 300]⟩
abbrev S2x40000 : Shape := ⟨2, ![2, 40000]⟩
abbrev S300x1024 : Shape := ⟨2, ![300, 1024]⟩
abbrev S1024 : Shape := ⟨1, ![1024]⟩
abbrev S1024x2048 : Shape := ⟨2, ![1024, 2048]⟩
abbrev S2048 : Shape := ⟨1, ![2048]⟩
abbrev S_ : Shape := ⟨0, ![]⟩
abbrev S64x2048 : Shape := ⟨2, ![64, 2048]⟩
abbrev S1000x300 : Shape := ⟨2, ![1000, 300]⟩
abbrev S1x40000 : Shape := ⟨2, ![1, 40000]⟩
abbrev S40000 : Shape := ⟨1, ![40000]⟩
abbrev S40000x1 : Shape := ⟨2, ![40000, 1]⟩
abbrev S40000x300 : Shape := ⟨2, ![40000, 300]⟩
abbrev S1000 : Shape := ⟨1, ![1000]⟩
abbrev S1000x1 : Shape := ⟨2, ![1000, 1]⟩
abbrev S1000x1024 : Shape := ⟨2, ![1000, 1024]⟩
abbrev S1x1024 : Shape := ⟨2, ![1, 1024]⟩
abbrev S40000x1024 : Shape := ⟨2, ![40000, 1024]⟩
abbrev S1000x2048 : Shape := ⟨2, ![1000, 2048]⟩
abbrev S1x2048 : Shape := ⟨2, ![1, 2048]⟩
abbrev S2048x1000 : Shape := ⟨2, ![2048, 1000]⟩
abbrev S64x1000 : Shape := ⟨2, ![64, 1000]⟩

abbrev nBuf : Space → Nat
  | .hbm => 88
  | .vmem => 0
  | .smem => 0
  | _ => 0

abbrev bufTy : (tb : Table) → Fin (tcTables nBuf tb) → BufTy
  | .hbm, ⟨0, _⟩ => ⟨S64x2048x14x14, .f32⟩
  | .hbm, ⟨1, _⟩ => ⟨S1x1000x300, .f32⟩
  | .hbm, ⟨2, _⟩ => ⟨S2x40000, .i32⟩
  | .hbm, ⟨3, _⟩ => ⟨S300x1024, .f32⟩
  | .hbm, ⟨4, _⟩ => ⟨S1024, .f32⟩
  | .hbm, ⟨5, _⟩ => ⟨S300x1024, .f32⟩
  | .hbm, ⟨6, _⟩ => ⟨S1024x2048, .f32⟩
  | .hbm, ⟨7, _⟩ => ⟨S2048, .f32⟩
  | .hbm, ⟨8, _⟩ => ⟨S1024x2048, .f32⟩
  | .hbm, ⟨9, _⟩ => ⟨S_, .f32⟩
  | .hbm, ⟨10, _⟩ => ⟨S64x2048, .f32⟩
  | .hbm, ⟨11, _⟩ => ⟨S1000x300, .f32⟩
  | .hbm, ⟨12, _⟩ => ⟨S1x40000, .i32⟩
  | .hbm, ⟨13, _⟩ => ⟨S40000, .i32⟩
  | .hbm, ⟨14, _⟩ => ⟨S1x40000, .i32⟩
  | .hbm, ⟨15, _⟩ => ⟨S40000, .i32⟩
  | .hbm, ⟨16, _⟩ => ⟨S_, .i32⟩
  | .hbm, ⟨17, _⟩ => ⟨S40000, .i32⟩
  | .hbm, ⟨18, _⟩ => ⟨S40000, .i1⟩
  | .hbm, ⟨19, _⟩ => ⟨S_, .i32⟩
  | .hbm, ⟨20, _⟩ => ⟨S40000, .i32⟩
  | .hbm, ⟨21, _⟩ => ⟨S40000, .i32⟩
  | .hbm, ⟨22, _⟩ => ⟨S40000, .i32⟩
  | .hbm, ⟨23, _⟩ => ⟨S40000x1, .i32⟩
  | .hbm, ⟨24, _⟩ => ⟨S40000x300, .f32⟩
  | .hbm, ⟨25, _⟩ => ⟨S_, .f32⟩
  | .hbm, ⟨26, _⟩ => ⟨S1000x300, .f32⟩
  | .hbm, ⟨27, _⟩ => ⟨S40000x1, .i32⟩
  | .hbm, ⟨28, _⟩ => ⟨S1000x300, .f32⟩
  | .hbm, ⟨29, _⟩ => ⟨S_, .f32⟩
  | .hbm, ⟨30, _⟩ => ⟨S40000, .f32⟩
  | .hbm, ⟨31, _⟩ => ⟨S_, .f32⟩
  | .hbm, ⟨32, _⟩ => ⟨S1000, .f32⟩
  | .hbm, ⟨33, _⟩ => ⟨S40000x1, .i32⟩
  | .hbm, ⟨34, _⟩ => ⟨S1000, .f32⟩
  | .hbm, ⟨35, _⟩ => ⟨S_, .f32⟩
  | .hbm, ⟨36, _⟩ => ⟨S1000, .f32⟩
  | .hbm, ⟨37, _⟩ => ⟨S1000, .f32⟩
  | .hbm, ⟨38, _⟩ => ⟨S1000x1, .f32⟩
  | .hbm, ⟨39, _⟩ => ⟨S1000x300, .f32⟩
  | .hbm, ⟨40, _⟩ => ⟨S1000x300, .f32⟩
  | .hbm, ⟨41, _⟩ => ⟨S1000x1024, .f32⟩
  | .hbm, ⟨42, _⟩ => ⟨S1x1024, .f32⟩
  | .hbm, ⟨43, _⟩ => ⟨S1000x1024, .f32⟩
  | .hbm, ⟨44, _⟩ => ⟨S1000x1024, .f32⟩
  | .hbm, ⟨45, _⟩ => ⟨S1000x1024, .f32⟩
  | .hbm, ⟨46, _⟩ => ⟨S1000x1024, .f32⟩
  | .hbm, ⟨47, _⟩ => ⟨S_, .f32⟩
  | .hbm, ⟨48, _⟩ => ⟨S_, .f32⟩
  | .hbm, ⟨49, _⟩ => ⟨S1000x1024, .f32⟩
  | .hbm, ⟨50, _⟩ => ⟨S1000x1024, .i1⟩
  | .hbm, ⟨51, _⟩ => ⟨S_, .f32⟩
  | .hbm, ⟨52, _⟩ => ⟨S1000x1024, .f32⟩
  | .hbm, ⟨53, _⟩ => ⟨S1000x1024, .f32⟩
  | .hbm, ⟨54, _⟩ => ⟨S1000x1024, .f32⟩
  | .hbm, ⟨55, _⟩ => ⟨S_, .i32⟩
  | .hbm, ⟨56, _⟩ => ⟨S40000, .i32⟩
  | .hbm, ⟨57, _⟩ => ⟨S40000, .i1⟩
  | .hbm, ⟨58, _⟩ => ⟨S_, .i32⟩
  | .hbm, ⟨59, _⟩ => ⟨S40000, .i32⟩
  | .hbm, ⟨60, _⟩ => ⟨S40000, .i32⟩
  | .hbm, ⟨61, _⟩ => ⟨S40000, .i32⟩
  | .hbm, ⟨62, _⟩ => ⟨S40000x1, .i32⟩
  | .hbm, ⟨63, _⟩ => ⟨S40000x1024, .f32⟩
  | .hbm, ⟨64, _⟩ => ⟨S_, .f32⟩
  | .hbm, ⟨65, _⟩ => ⟨S1000x1024, .f32⟩
  | .hbm, ⟨66, _⟩ => ⟨S40000x1, .i32⟩
  | .hbm, ⟨67, _⟩ => ⟨S1000x1024, .f32⟩
  | .hbm, ⟨68, _⟩ => ⟨S_, .f32⟩
  | .hbm, ⟨69, _⟩ => ⟨S40000, .f32⟩
  | .hbm, ⟨70, _⟩ => ⟨S_, .f32⟩
  | .hbm, ⟨71, _⟩ => ⟨S1000, .f32⟩
  | .hbm, ⟨72, _⟩ => ⟨S40000x1, .i32⟩
  | .hbm, ⟨73, _⟩ => ⟨S1000, .f32⟩
  | .hbm, ⟨74, _⟩ => ⟨S_, .f32⟩
  | .hbm, ⟨75, _⟩ => ⟨S1000, .f32⟩
  | .hbm, ⟨76, _⟩ => ⟨S1000, .f32⟩
  | .hbm, ⟨77, _⟩ => ⟨S1000x1, .f32⟩
  | .hbm, ⟨78, _⟩ => ⟨S1000x1024, .f32⟩
  | .hbm, ⟨79, _⟩ => ⟨S1000x1024, .f32⟩
  | .hbm, ⟨80, _⟩ => ⟨S1000x2048, .f32⟩
  | .hbm, ⟨81, _⟩ => ⟨S1x2048, .f32⟩
  | .hbm, ⟨82, _⟩ => ⟨S1000x2048, .f32⟩
  | .hbm, ⟨83, _⟩ => ⟨S1000x2048, .f32⟩
  | .hbm, ⟨84, _⟩ => ⟨S1000x2048, .f32⟩
  | .hbm, ⟨85, _⟩ => ⟨S1000x2048, .f32⟩
  | .hbm, ⟨86, _⟩ => ⟨S2048x1000, .f32⟩
  | .hbm, ⟨87, _⟩ => ⟨S64x1000, .f32⟩
  | _, _ => ⟨S64x2048x14x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_call0_cst : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_v31 : Ref sig .tc := ⟨.hbm, 54, rfl⟩
abbrev main_c_6 : Ref sig .tc := ⟨.hbm, 55, rfl⟩
abbrev main_v32 : Ref sig .tc := ⟨.hbm, 56, rfl⟩
abbrev main_v33 : Ref sig .tc := ⟨.hbm, 57, rfl⟩
abbrev main_c_7 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_8 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_9 : Ref sig .tc := ⟨.hbm, 68, rfl⟩
abbrev main_v42 : Ref sig .tc := ⟨.hbm, 69, rfl⟩
abbrev main_cst_10 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_11 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩

abbrev nD : Nat := 1
abbrev τ : Topo := Topo.v7x

variable {F : FTy → Type} [FloatOps F]

class Facts₀ : Prop where
  reducesTo_S64x2048x14x14_S64x2048_d2_3 : S64x2048x14x14.ReducesTo [2, 3] S64x2048
  h_S_ : 0 < S_.numel
  shapeCasts_S1x1000x300_S1000x300 : S1x1000x300.ShapeCasts S1000x300
  slices_S2x40000_S1x40000_0_0 : S2x40000.Slices ![0, 0] S1x40000
  shapeCasts_S1x40000_S40000 : S1x40000.ShapeCasts S40000
  slices_S2x40000_S1x40000_1_0 : S2x40000.Slices ![1, 0] S1x40000
  bcast_S_S40000 : S_.BroadcastsInDim S40000 (![] : Fin 0 → Fin S40000.rank)
  bcast_S40000_S40000x1_0 : S40000.BroadcastsInDim S40000x1 (![0] : Fin 1 → Fin S40000x1.rank)
  bcast_S_S1000x300 : S_.BroadcastsInDim S1000x300 (![] : Fin 0 → Fin S1000x300.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x300_0_1 : S1000x1.BroadcastsInDim S1000x300 (![0, 1] : Fin 2 → Fin S1000x300.rank)
  bcast_S1024_S1x1024_1 : S1024.BroadcastsInDim S1x1024 (![1] : Fin 1 → Fin S1x1024.rank)
  bcast_S1x1024_S1000x1024_0_1 : S1x1024.BroadcastsInDim S1000x1024 (![0, 1] : Fin 2 → Fin S1000x1024.rank)
  bcast_S_S1000x1024 : S_.BroadcastsInDim S1000x1024 (![] : Fin 0 → Fin S1000x1024.rank)
  bcast_S1000x1_S1000x1024_0_1 : S1000x1.BroadcastsInDim S1000x1024 (![0, 1] : Fin 2 → Fin S1000x1024.rank)
  bcast_S2048_S1x2048_1 : S2048.BroadcastsInDim S1x2048 (![1] : Fin 1 → Fin S1x2048.rank)
  bcast_S1x2048_S1000x2048_0_1 : S1x2048.BroadcastsInDim S1000x2048 (![0, 1] : Fin 2 → Fin S1000x2048.rank)
  transposes_S1000x2048_S2048x1000_1_0 : S1000x2048.Transposes [1, 0] S2048x1000
  gather_S1000x300_S40000x1_S40000x300_1_0_n_n_0_1_1300_wf : GatherDims.WF S1000x300 S40000x1 S40000x300 [1] [0] [] [0] [] 1 ![1, 300]
  scatter_S1000x300_S40000x1_S40000x300_1_0_0_1_wf : ScatterDims.WF S1000x300 S40000x1 S40000x300 [1] [0] [0] 1
  scatter_S1000_S40000x1_S40000_n_0_0_1_wf : ScatterDims.WF S1000 S40000x1 S40000 [] [0] [0] 1
  dot_S1000x300_S300x1024_S1000x1024_1_0_0_1_n_n_wf : DotDims.WF S1000x300 S300x1024 S1000x1024 [1] [0] [0] [1] [] []
  gather_S1000x1024_S40000x1_S40000x1024_1_0_n_n_0_1_11024_wf : GatherDims.WF S1000x1024 S40000x1 S40000x1024 [1] [0] [] [0] [] 1 ![1, 1024]
  scatter_S1000x1024_S40000x1_S40000x1024_1_0_0_1_wf : ScatterDims.WF S1000x1024 S40000x1 S40000x1024 [1] [0] [0] 1
  dot_S1000x1024_S1024x2048_S1000x2048_1_0_0_1_n_n_wf : DotDims.WF S1000x1024 S1024x2048 S1000x2048 [1] [0] [0] [1] [] []
  dot_S64x2048_S2048x1000_S64x1000_1_0_0_1_n_n_wf : DotDims.WF S64x2048 S2048x1000 S64x1000 [1] [0] [0] [1] [] []

variable [Facts₀]

def gather_S1000x300_S40000x1_S40000x300_1_0_n_n_0_1_1300 : GatherDims S1000x300 S40000x1 S40000x300 where
  offsetDims := [1]
  collapsedSliceDims := [0]
  operandBatchingDims := []
  startIndicesBatchingDims := []
  startIndexMap := [0]
  indexVectorDim := 1
  sliceSizes := ![1, 300]
  wf := gather_S1000x300_S40000x1_S40000x300_1_0_n_n_0_1_1300_wf
def scatter_S1000x300_S40000x1_S40000x300_1_0_0_1 : ScatterDims S1000x300 S40000x1 S40000x300 where
  updateWindowDims := [1]
  insertedWindowDims := [0]
  scatterDimsToOperandDims := [0]
  indexVectorDim := 1
  wf := scatter_S1000x300_S40000x1_S40000x300_1_0_0_1_wf
def scatter_S1000_S40000x1_S40000_n_0_0_1 : ScatterDims S1000 S40000x1 S40000 where
  updateWindowDims := []
  insertedWindowDims := [0]
  scatterDimsToOperandDims := [0]
  indexVectorDim := 1
  wf := scatter_S1000_S40000x1_S40000_n_0_0_1_wf
def dot_S1000x300_S300x1024_S1000x1024_1_0_0_1_n_n : DotDims S1000x300 S300x1024 S1000x1024 where
  lhsContracting := [1]
  rhsContracting := [0]
  lhsNonContracting := [0]
  rhsNonContracting := [1]
  lhsBatch := []
  rhsBatch := []
  wf := dot_S1000x300_S300x1024_S1000x1024_1_0_0_1_n_n_wf
def gather_S1000x1024_S40000x1_S40000x1024_1_0_n_n_0_1_11024 : GatherDims S1000x1024 S40000x1 S40000x1024 where
  offsetDims := [1]
  collapsedSliceDims := [0]
  operandBatchingDims := []
  startIndicesBatchingDims := []
  startIndexMap := [0]
  indexVectorDim := 1
  sliceSizes := ![1, 1024]
  wf := gather_S1000x1024_S40000x1_S40000x1024_1_0_n_n_0_1_11024_wf
def scatter_S1000x1024_S40000x1_S40000x1024_1_0_0_1 : ScatterDims S1000x1024 S40000x1 S40000x1024 where
  updateWindowDims := [1]
  insertedWindowDims := [0]
  scatterDimsToOperandDims := [0]
  indexVectorDim := 1
  wf := scatter_S1000x1024_S40000x1_S40000x1024_1_0_0_1_wf
def dot_S1000x1024_S1024x2048_S1000x2048_1_0_0_1_n_n : DotDims S1000x1024 S1024x2048 S1000x2048 where
  lhsContracting := [1]
  rhsContracting := [0]
  lhsNonContracting := [0]
  rhsNonContracting := [1]
  lhsBatch := []
  rhsBatch := []
  wf := dot_S1000x1024_S1024x2048_S1000x2048_1_0_0_1_n_n_wf
def dot_S64x2048_S2048x1000_S64x1000_1_0_0_1_n_n : DotDims S64x2048 S2048x1000 S64x1000 where
  lhsContracting := [1]
  rhsContracting := [0]
  lhsNonContracting := [0]
  rhsNonContracting := [1]
  lhsBatch := []
  rhsBatch := []
  wf := dot_S64x2048_S2048x1000_S64x1000_1_0_0_1_n_n_wf

class Facts : Prop extends Facts₀ where

variable [Facts]
-- ==== Proof.Spec.lean ====
/-
  The two programs as functions of their nine argument arrays, over the extended reals.

  A graph of 1000 nodes has 40000 directed edges; edge e goes from node src e to node dst e, both given as
  32-bit words (row 0 and row 1 of the edge array). A node's message is the MEAN of its in-neighbours'
  feature rows (zero when it has none). A layer sends the features x to  mean · Wl + b + x · Wr.  Two
  layers (the first followed by a leaky rectifier of slope c) give one row h2 n per node; an image's 2048
  channel maxima p b (the maximum over its 14 × 14 window) are scored against every node: out b n = Σ k, p b k · h2 n k.

  One program takes the mean by first counting, in a 1000 × 1000 table, the edges between every pair of
  nodes, dividing each row by its total (at least 1), and multiplying that table with x. The other
  gathers the source rows edge by edge, adds them up per destination, and divides by the in-degree (at
  least 1). Everything else the two programs do the same way. Both are stated here exactly as they
  read their index words: an index word is read as a signed integer; a word that names no row of a table
  written to is dropped, a word that names no row of a table read from is clamped to the nearest row, and
  one program first adds 1000 to a negative word where the other does not.
-/
import Idealize.ShloMosaic.PureOps.Ideal
import Idealize.ShloMosaic.Lib.ValueIdx

noncomputable section

open scoped BigOperators

namespace Cert.Spec

open Idealize.ShloMosaic Idealize.ShloMosaic.ValueIdx

/-- A matrix of r rows and c columns. -/
abbrev Mat (r c : Nat) : Type := (⟨2, ![r, c]⟩ : Shape).Idx → EReal
/-- A vector of n entries. -/
abbrev Row (n : Nat) : Type := (⟨1, ![n]⟩ : Shape).Idx → EReal
/-- The images: 64 of them, 2048 channels, 14 × 14 positions. -/
abbrev Feat : Type := (⟨4, ![64, 2048, 14, 14]⟩ : Shape).Idx → EReal
/-- The node features as given: one batch of 1000 rows of 300. -/
abbrev Inp : Type := (⟨3, ![1, 1000, 300]⟩ : Shape).Idx → EReal
/-- The edges: row 0 the sources, row 1 the destinations, as 32-bit words. -/
abbrev Edges : Type := (⟨2, ![2, 40000]⟩ : Shape).Idx → BitVec 32

/-! ## Index words -/

/-- The row of a table of N rows an index word names when a value is WRITTEN there: the word as a signed
    integer, and no row at all when that is outside [0, N). -/
def landIx (N : Nat) (w : BitVec 32) : Option (Fin N) :=
  if h : 0 ≤ w.toInt ∧ w.toInt < N then some ⟨w.toInt.toNat, by omega⟩ else none

/-- A negative index word moved up by 1000 (the length of the node axis), any other word kept. -/
def wrapW (w : BitVec 32) : BitVec 32 :=
  Scalar.select (IntOp.cmpi .slt w 0#32) (IntOp.addi w 1000#32) w

/-- The row of a table of 1000 rows an index word names when a value is READ there: the word as a signed
    integer, clamped into [0, 999]. -/
def clampIx (w : BitVec 32) : Fin 1000 := ⟨min w.toInt.toNat 999, by omega⟩

/-- Edge e's source word and destination word. -/
def srcW (ei : Edges) (e : Fin 40000) : BitVec 32 := ei (ix2 0 e)
def dstW (ei : Edges) (e : Fin 40000) : BitVec 32 := ei (ix2 1 e)

/-! ## The pieces both programs share -/

/-- The one batch of node features as a 1000 × 300 matrix. -/
def nodes (inp : Inp) : Mat 1000 300 := fun j => inp (ix3 0 (j 0) (j 1))

/-- The product of an n × k and a k × m matrix. -/
def mm {n k m : Nat} (a : Mat n k) (b : Mat k m) : Mat n m :=
  fun j => ∑ t : Fin k, a (ix2 (j 0) t) * b (ix2 t (j 1))

/-- The product of an n × k matrix with the transpose of an m × k one. -/
def mmT {n k m : Nat} (a : Mat n k) (b : Mat m k) : Mat n m :=
  fun j => ∑ t : Fin k, a (ix2 (j 0) t) * b (ix2 (j 1) t)

/-- One layer on given messages: messages · Wl, plus the bias on every row, plus x · Wr. -/
def layer {n d h : Nat} (msg x : Mat n d) (Wl : Mat d h) (b : Row h) (Wr : Mat d h) : Mat n h :=
  fun j => (mm msg Wl j + b (ix1 (j 1))) + mm x Wr j

/-- The slope of the rectifier: the number the single-precision word 0x3E4CCCCD denotes (close to 1/5). -/
def slope : EReal := Ideal.ofBits .f32 0x3E4CCCCD#32

/-- The leaky rectifier, entry by entry: a non-negative entry is kept, a negative one scaled by the slope. -/
def leaky {n m : Nat} (a : Mat n m) : Mat n m := fun j => if 0 ≤ a j then a j else a j * slope

/-- Each image's channel maxima over its 14 × 14 window. -/
def pool (f : Feat) : Mat 64 2048 :=
  fun j => Finset.univ.sup fun p : Fin 14 × Fin 14 => f (ix4 (j 0) (j 1) p.1 p.2)

/-! ## The mean over in-neighbours, two ways -/

/-- How many edges go from node k to node n, both words first moved up by 1000 when negative, an edge
    counting only when both words then name a node. -/
def pairCount (ei : Edges) (n k : Fin 1000) : EReal :=
  ∑ _e ∈ Finset.univ.filter (fun e : Fin 40000 =>
      landIx 1000 (wrapW (dstW ei e)) = some n ∧ landIx 1000 (wrapW (srcW ei e)) = some k), (1 : EReal)

/-- The pair count from k to n divided by n's row total, the total taken as at least 1. -/
def adjAt (ei : Edges) (n k : Fin 1000) : EReal :=
  Ideal.div (pairCount ei n k) (max (∑ k' : Fin 1000, pairCount ei n k') 1)

/-- The table of pair counts with every row divided by its total. -/
def adj (ei : Edges) : Mat 1000 1000 := fun j => adjAt ei (j 0) (j 1)

/-- The mean as a product with that table. -/
def meanByTable {d : Nat} (ei : Edges) (x : Mat 1000 d) : Mat 1000 d := mm (adj ei) x

/-- The mean edge by edge: the rows x reads at the source words (moved up by 1000 when negative, then
    clamped) are added up over the edges whose destination word (as it is) names node n, and divided by
    the number of those edges, taken as at least 1. -/
def meanEdgesAt {d : Nat} (ei : Edges) (x : Mat 1000 d) (n : Fin 1000) (c : Fin d) : EReal :=
  Ideal.div
    (∑ e ∈ Finset.univ.filter (fun e : Fin 40000 => landIx 1000 (dstW ei e) = some n),
        x (ix2 (clampIx (wrapW (srcW ei e))) c))
    (max (∑ _e ∈ Finset.univ.filter (fun e : Fin 40000 => landIx 1000 (dstW ei e) = some n), (1 : EReal)) 1)

/-- The mean edge by edge, as a matrix. -/
def meanByEdges {d : Nat} (ei : Edges) (x : Mat 1000 d) : Mat 1000 d := fun j => meanEdgesAt ei x (j 0) (j 1)

/-! ## The two programs -/

/-- The whole computation over a given way of taking the mean. -/
def scores (mean : {d : Nat} → Mat 1000 d → Mat 1000 d) (feat : Feat) (inp : Inp)
    (Wl1 : Mat 300 1024) (b1 : Row 1024) (Wr1 : Mat 300 1024) (Wl2 : Mat 1024 2048) (b2 : Row 2048) (Wr2 : Mat 1024 2048) :
    Mat 64 1000 :=
  let x := nodes inp
  let h1 := leaky (layer (mean x) x Wl1 b1 Wr1)
  let h2 := layer (mean h1) h1 Wl2 b2 Wr2
  mmT (pool feat) h2

/-- The program that takes the mean through the table of pair counts. -/
def GK (feat : Feat) (inp : Inp) (ei : Edges) (Wl1 : Mat 300 1024) (b1 : Row 1024) (Wr1 : Mat 300 1024)
    (Wl2 : Mat 1024 2048) (b2 : Row 2048) (Wr2 : Mat 1024 2048) : Mat 64 1000 :=
  scores (fun {_} x => meanByTable ei x) feat inp Wl1 b1 Wr1 Wl2 b2 Wr2

/-- The program that takes the mean edge by edge. -/
def GR (feat : Feat) (inp : Inp) (ei : Edges) (Wl1 : Mat 300 1024) (b1 : Row 1024) (Wr1 : Mat 300 1024)
    (Wl2 : Mat 1024 2048) (b2 : Row 2048) (Wr2 : Mat 1024 2048) : Mat 64 1000 :=
  scores (fun {_} x => meanByEdges ei x) feat inp Wl1 b1 Wr1 Wl2 b2 Wr2

/-- Every index word names a node. -/
def InRange (ei : Edges) : Prop := ∀ (r : Fin 2) (e : Fin 40000), 0 ≤ (ei (ix2 r e)).toInt ∧ (ei (ix2 r e)).toInt < 1000

/-- Every entry is a real number. -/
def IsReal {s : Shape} (x : s.Idx → EReal) : Prop := ∀ i, ∃ r : ℝ, x i = (r : EReal)

end Cert.Spec

end
-- ==== Proof.KPayEnds.lean ====
/-
  What the pooling body and the scoring body leave in their output blocks, as functions of their input blocks.

  The pooling body takes, per image row and channel, the maximum over the 196 positions of its block, starting
  from −∞. The scoring body multiplies the pooled block with the transpose of the node block. A change of
  float format is the identity on extended reals, a product into a zero accumulator is the plain sum of
  products, and each body stores its result through the whole block once.
-/
import proofs.«428741_j30288109371889_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«428741_j30288109371889_1_alg».proof.Proof.Spec

set_option maxRecDepth 16384

noncomputable section

open scoped BigOperators

namespace Cert.KernelIdeal.KPay

open Cert.KernelIdeal Cert.KernelIdeal.Gen Idealize.ShloMosaic Idealize.ShloMosaic.TcCoe Idealize.ShloMosaic.ValueIdx

private theorem zeros2 : (![0, 0] : Fin 2 → Nat) = fun _ => 0 := funext fun a => by fin_cases a <;> rfl
private theorem zeros3 : (![0, 0, 0] : Fin 3 → Nat) = fun _ => 0 := funext fun a => by fin_cases a <;> rfl

/-- The single-precision word of −∞ denotes the least extended real. -/
private theorem negInf_word : Ideal.ofBits .f32 0xFF800000#32 = (⊥ : EReal) := by
  simp [Ideal.ofBits, Ideal.ieee]

/-- Folding the maximum from the least element is the supremum. -/
private theorem fold_max_bot {ι : Type} (s : Finset ι) (f : ι → EReal) :
    s.fold max (⊥ : EReal) f = s.sup f := by
  classical
  induction s using Finset.induction_on with
  | empty => simp
  | insert a s ha ih => rw [Finset.fold_insert ha, Finset.sup_insert, ih]

/-- The maximum over the last axis from −∞, at (b, ch): the supremum of the 196 entries there. -/
private theorem poolAt (src : FVec Ideal S8x2048x196 .f32) (h : S8x2048x196.Reduces [2] S8x2048)
    (hφ : FKind.Formats .f32) (hacc : (0xFF800000#32 : BitVec 32) = 0xFF800000#32) (b : Fin 8) (ch : Fin 2048) :
    multiReduction (F := Ideal) .maximumf [2] S8x2048 src 0xFF800000#32 h hφ hacc (ix2 b ch)
      = Finset.univ.sup fun k : Fin 196 => (src (ix3 b ch k) : EReal) := by
  refine (Ideal.multiReduction_maximumf_single src 0xFF800000#32 h hφ hacc (ix2 b ch)).trans ?_
  have e : (fun k : Fin 196 => (src (h.lift (ix2 b ch) k) : EReal)) = fun k => src (ix3 b ch k) :=
    funext fun k => congrArg src (funext fun a => Fin.ext (by
      match a with | ⟨0, _⟩ => rfl | ⟨1, _⟩ => rfl | ⟨2, _⟩ => rfl))
  exact (congrArg₂ (fun (z : EReal) (f : Fin 196 → EReal) => (Finset.univ : Finset (Fin 196)).fold max z f)
    negInf_word e).trans (fold_max_bot _ _)

/-- The pooling body's output block at (row b, channel ch): the maximum over the block's 196 positions. -/
theorem out0_eq (x : Vec Ideal S8x2048x196 .f32) (b : Fin 8) (ch : Fin 2048) :
    out0_1 (F := Ideal) x (ix2 b ch) = Finset.univ.sup fun k : Fin 196 => (x (ix3 b ch k) : EReal) := by
  unfold out0_1
  rw [View.canon_unit_zero zeros2]
  simp only [View.ld_unit_zero (S := S8x2048x196) zeros3]
  unfold k0_pay1
  rw [shapeCast_self]
  exact poolAt x _ _ _ b ch

/-- The left factor's row is the output's row. -/
private theorem lhs_dot_S64x2048_S1000x2048_S64x1000_1_1_0_0_n_n_0 (j : S64x1000.Idx)
    (k : dot_S64x2048_S1000x2048_S64x1000_1_1_0_0_n_n.contr.Idx) :
    (dot_S64x2048_S1000x2048_S64x1000_1_1_0_0_n_n.lhsIdx j k 0).val = (j 0).val := by
  simp [DotDims.lhsIdx, dot_S64x2048_S1000x2048_S64x1000_1_1_0_0_n_n]
  rfl

/-- The left factor's column is the contracted coordinate. -/
private theorem lhs_dot_S64x2048_S1000x2048_S64x1000_1_1_0_0_n_n_1 (j : S64x1000.Idx)
    (k : dot_S64x2048_S1000x2048_S64x1000_1_1_0_0_n_n.contr.Idx) :
    (dot_S64x2048_S1000x2048_S64x1000_1_1_0_0_n_n.lhsIdx j k 1).val = (k ⟨0, by decide⟩).val :=
  DotDims.lhsIdx_val_of_single _ rfl j k

/-- The right factor's row is the output's column. -/
private theorem rhs_dot_S64x2048_S1000x2048_S64x1000_1_1_0_0_n_n_0 (j : S64x1000.Idx)
    (k : dot_S64x2048_S1000x2048_S64x1000_1_1_0_0_n_n.contr.Idx) :
    (dot_S64x2048_S1000x2048_S64x1000_1_1_0_0_n_n.rhsIdx j k 0).val = (j 1).val := by
  simp [DotDims.rhsIdx, dot_S64x2048_S1000x2048_S64x1000_1_1_0_0_n_n]
  rfl

/-- The right factor's column is the contracted coordinate. -/
private theorem rhs_dot_S64x2048_S1000x2048_S64x1000_1_1_0_0_n_n_1 (j : S64x1000.Idx)
    (k : dot_S64x2048_S1000x2048_S64x1000_1_1_0_0_n_n.contr.Idx) :
    (dot_S64x2048_S1000x2048_S64x1000_1_1_0_0_n_n.rhsIdx j k 1).val = (k ⟨0, by decide⟩).val :=
  DotDims.rhsIdx_val_of_single _ rfl j k

/-- The product into a zero accumulator, contracting the second axis of both factors, at (b, n):
    the sum over t of the products of the entries (b, t) and (n, t). -/
private theorem scoreAt {φ₁ φ₂ : FTy} (A : FVec Ideal S64x2048 φ₁) (B : FVec Ideal S1000x2048 φ₂) (b : Fin 64) (n : Fin 1000) :
    matmul (F := Ideal) dot_S64x2048_S1000x2048_S64x1000_1_1_0_0_n_n none A B (constant (F := Ideal) S64x1000 .f32 0x00000000#32) (ix2 b n)
      = ∑ t : Fin 2048, (A (ix2 b t) : EReal) * B (ix2 n t) := by
  show FloatOps.matmul _ none A B (constant (F := Ideal) S64x1000 .f32 0x00000000#32) (ix2 b n) = _
  rw [Ideal.matmul_constant_zero_apply,
    ← Equiv.sum_comp (contrEquiv1 dot_S64x2048_S1000x2048_S64x1000_1_1_0_0_n_n 2048 rfl rfl).symm]
  refine Finset.sum_congr rfl fun t _ => ?_
  have hk := contrEquiv1_symm_val dot_S64x2048_S1000x2048_S64x1000_1_1_0_0_n_n 2048 rfl rfl t
  have l2 : dot_S64x2048_S1000x2048_S64x1000_1_1_0_0_n_n.lhsIdx (ix2 b n)
      ((contrEquiv1 _ 2048 rfl rfl).symm t) = ix2 b t := by
    funext ax; apply Fin.ext
    match ax with
    | ⟨0, _⟩ => exact lhs_dot_S64x2048_S1000x2048_S64x1000_1_1_0_0_n_n_0 _ _
    | ⟨1, _⟩ => exact (lhs_dot_S64x2048_S1000x2048_S64x1000_1_1_0_0_n_n_1 _ _).trans hk
  have r2 : dot_S64x2048_S1000x2048_S64x1000_1_1_0_0_n_n.rhsIdx (ix2 b n)
      ((contrEquiv1 _ 2048 rfl rfl).symm t) = ix2 n t := by
    funext ax; apply Fin.ext
    match ax with
    | ⟨0, _⟩ => exact rhs_dot_S64x2048_S1000x2048_S64x1000_1_1_0_0_n_n_0 _ _
    | ⟨1, _⟩ => exact (rhs_dot_S64x2048_S1000x2048_S64x1000_1_1_0_0_n_n_1 _ _).trans hk
  rw [l2, r2]

/-- The scoring body: the pooled block times the transpose of the node block. -/
theorem out3_eq (p : Vec Ideal S64x2048 .f32) (h : Vec Ideal S1000x2048 .f32) :
    out3_2 (F := Ideal) p h = Cert.Spec.mmT p h := by
  unfold out3_2
  rw [View.canon_unit_zero zeros2]
  simp only [View.ld_unit_zero (S := S64x2048) zeros2, View.ld_unit_zero (S := S1000x2048) zeros2]
  funext j
  obtain ⟨b, n, rfl⟩ : ∃ (b : Fin 64) (n : Fin 1000), j = ix2 b n := ⟨j 0, j 1, eq_ix2 j⟩
  unfold k3_pay1
  rw [shapeCast_self, shapeCast_self]
  refine (scoreAt _ _ b n).trans ?_
  unfold Cert.Spec.mmT
  rfl

end Cert.KernelIdeal.KPay

end
-- ==== Proof.KRegion.lean ====
/-
  What each region leaves in its output array, from the contents it is entered with.

  The pooling region runs over eight grid points; point t holds images 8t … 8t + 7 and writes their channel
  maxima to rows 8t … 8t + 7 of the output, so the eight blocks tile the 64 rows and every entry (b, ch) of the
  output is the maximum over the 196 positions of image b's channel ch. The two layer regions and the scoring
  region have no grid: one point, every window the whole array, so the output array is the body's result on
  the input arrays.
-/
import proofs.«428741_j30288109371889_1_alg».proof.Proof.Gen.KernelIdeal.Frame
import proofs.«428741_j30288109371889_1_alg».proof.Proof.KPayEnds
import Idealize.ShloMosaic.Lib.Pipeline.Value
import Idealize.ShloMosaic.Lib.ValueIdx

set_option maxRecDepth 16384

noncomputable section

namespace Cert.KernelIdeal.KRegion

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## Region 0: the pooling -/

/-- The pooled array: at (b, ch) the maximum over the 196 positions of image b's channel ch. -/
private def pooled (x : S64x2048x196.Idx → EReal) : S64x2048.Idx → EReal :=
  fun j => Finset.univ.sup fun k : Fin 196 => x (ix3 (j 0 : Fin 64) (j 1 : Fin 2048) k)

/-- The block indices at each of the eight points: point t holds images 8t … 8t + 7 whole (block index t on the
    image axis, 0 on the channel and position axes) and writes rows 8t … 8t + 7 of the output whole. -/
private theorem index_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0 :=
  (by decide +kernel : ∀ t : Fin grid0.N, _)

/-- At point t the body's result at (p, q) of its block is the pooled array at the entry of the output the block's
    (p, q) sits on: the input block's (p, q, k) and the output block's (p, q) sit on the same image and channel. -/
private theorem point0 (x : S64x2048x196.Idx → EReal) (t : Fin cfg0.N) (p : Fin 8) (q : Fin 2048) :
    out0_1 (F := Ideal) (((cfg0.win 0).blk t).view.read (Elt Ideal) x) (ix2 p q)
      = pooled x (((cfg0.win 1).blk t).view.emb (ix2 p q)) := by
  rw [KPay.out0_eq]
  show (Finset.univ.sup fun k : Fin 196 => x (((cfg0.win 0).blk t).view.emb (ix3 p q k)))
    = Finset.univ.sup fun k : Fin 196 =>
        x (ix3 ((((cfg0.win 1).blk t).view.emb (ix2 p q)) 0 : Fin 64) ((((cfg0.win 1).blk t).view.emb (ix2 p q)) 1 : Fin 2048) k)
  refine congrArg (Finset.univ.sup) (funext fun k => congrArg x ?_)
  obtain ⟨e0, e1, e2, e3, e4⟩ := index_facts t
  funext a; apply Fin.ext
  match a with
  | ⟨0, _⟩ => show win0_0.index t (0 : Fin 3) * 8 + 1 * p.val = win0_1.index t (0 : Fin 2) * 8 + 1 * p.val; omega
  | ⟨1, _⟩ => show win0_0.index t (1 : Fin 3) * 2048 + 1 * q.val = win0_1.index t (1 : Fin 2) * 2048 + 1 * q.val; omega
  | ⟨2, _⟩ => show win0_0.index t (2 : Fin 3) * 196 + 1 * k.val = k.val; omega

/-- What point t writes back is its block of the pooled array. -/
private theorem flushed0 (c : Dev nD) (t : Fin cfg0.N) :
    (dat0 (F := Ideal) V c).flushed 1 t
      = ((cfg0.win 1).blk t).view.read (Elt Ideal) (pooled (V c main_v0)) := by
  show (cfg0.win 1).cut (grid0.coords t) ((dat0 V c).after 1 t) = _
  rw [after0_1]
  funext y
  obtain ⟨p, q, rfl⟩ : ∃ (p : Fin 8) (q : Fin 2048), y = ix2 p q := ⟨y 0, y 1, eq_ix2 y⟩
  exact point0 (V c main_v0) t p q

/-- An index of the output is in point t's block iff each coordinate is in the block's range on its axis. -/
private theorem mem_blk0 (t : Fin cfg0.N) (i : S64x2048.Idx) :
    i ∈ ((cfg0.win 1).blk t).view.set ↔ ∀ a : Fin 2, win0_1.index t a * S8x2048.size a ≤ (i a).val ∧ (i a).val < win0_1.index t a * S8x2048.size a + S8x2048.size a := by
  show i ∈ ((View.whole main_v1).slice (win0_1.rect t)).set ↔ _
  rw [View.set_slice_whole, Rect.mem_set_unit]
  exact Iff.rfl

/-- The eight blocks tile the 64 rows: row b is in the block of point b / 8. -/
private theorem cover0 (i : S64x2048.Idx) :
    ∃ t : Fin cfg0.N, (cfg0.win 1).flush t = true ∧ i ∈ ((cfg0.win 1).blk t).view.set := by
  have hi0 : (i 0).val < 64 := (i 0).isLt
  have hi1 : (i 1).val < 2048 := (i 1).isLt
  have hN : (i 0).val / 8 < cfg0.N := by show _ < grid0.N; rw [N_0]; omega
  obtain ⟨-, -, -, e3, e4⟩ := index_facts ⟨(i 0).val / 8, hN⟩
  have e3' : win0_1.index ⟨(i 0).val / 8, hN⟩ (0 : Fin 2) = (i 0).val / 8 := e3
  refine ⟨⟨(i 0).val / 8, hN⟩, flush0_1 _, ?_⟩
  rw [mem_blk0]
  intro a
  match a with
  | ⟨0, _⟩ =>
    show win0_1.index ⟨(i 0).val / 8, hN⟩ (0 : Fin 2) * 8 ≤ (i 0).val ∧ (i 0).val < win0_1.index ⟨(i 0).val / 8, hN⟩ (0 : Fin 2) * 8 + 8
    omega
  | ⟨1, _⟩ =>
    show win0_1.index ⟨(i 0).val / 8, hN⟩ (1 : Fin 2) * 2048 ≤ (i 1).val ∧ (i 1).val < win0_1.index ⟨(i 0).val / 8, hN⟩ (1 : Fin 2) * 2048 + 2048
    omega

/-- The pooled array after region 0: at (b, ch) the maximum over the 196 positions of the flattened images. -/
theorem arr0 (c : Dev nD) (x : S64x2048x196.Idx → EReal) (hx : (V c main_v0 : S64x2048x196.Idx → EReal) = x) (b : Fin 64) (ch : Fin 2048) :
    ((dat0 (F := Ideal) V c).arrAt 1 cfg0.N : S64x2048.Idx → EReal) (ix2 b ch)
      = Finset.univ.sup fun k : Fin 196 => x (ix3 b ch k) := by
  subst hx
  have h := (dat0 (F := Ideal) V c).arrAt_eq_of_cover 1 (pooled (V c main_v0)) (fun t _ => flushed0 V c t) cover0
  rw [h]
  rfl

/-! ## Region 1: the first layer -/

/-- In the first layer's region every block is the whole array: a block's coordinate in the array is block index 0 times the size plus the coordinate inside the block. -/
private theorem blk1_0_emb (t : Fin cfg1.N) (y : S1000x1000.Idx) : ((cfg1.win 0).blk t).view.emb y = y := by
  funext a; apply Fin.ext
  match a with
  | ⟨0, _⟩ => show 0 * 1000 + 1 * (y 0).val = (y 0).val; omega
  | ⟨1, _⟩ => show 0 * 1000 + 1 * (y 1).val = (y 1).val; omega

private theorem blk1_1_emb (t : Fin cfg1.N) (y : S1000x300.Idx) : ((cfg1.win 1).blk t).view.emb y = y := by
  funext a; apply Fin.ext
  match a with
  | ⟨0, _⟩ => show 0 * 1000 + 1 * (y 0).val = (y 0).val; omega
  | ⟨1, _⟩ => show 0 * 300 + 1 * (y 1).val = (y 1).val; omega

private theorem blk1_2_emb (t : Fin cfg1.N) (y : S300x1024.Idx) : ((cfg1.win 2).blk t).view.emb y = y := by
  funext a; apply Fin.ext
  match a with
  | ⟨0, _⟩ => show 0 * 300 + 1 * (y 0).val = (y 0).val; omega
  | ⟨1, _⟩ => show 0 * 1024 + 1 * (y 1).val = (y 1).val; omega

private theorem blk1_3_emb (t : Fin cfg1.N) (y : S1024.Idx) : ((cfg1.win 3).blk t).view.emb y = y := by
  funext a; apply Fin.ext
  match a with
  | ⟨0, _⟩ => show 0 * 1024 + 1 * (y 0).val = (y 0).val; omega

private theorem blk1_4_emb (t : Fin cfg1.N) (y : S300x1024.Idx) : ((cfg1.win 4).blk t).view.emb y = y := by
  funext a; apply Fin.ext
  match a with
  | ⟨0, _⟩ => show 0 * 300 + 1 * (y 0).val = (y 0).val; omega
  | ⟨1, _⟩ => show 0 * 1024 + 1 * (y 1).val = (y 1).val; omega

private theorem blk1_5_emb (t : Fin cfg1.N) (y : S1000x1024.Idx) : ((cfg1.win 5).blk t).view.emb y = y := by
  funext a; apply Fin.ext
  match a with
  | ⟨0, _⟩ => show 0 * 1000 + 1 * (y 0).val = (y 0).val; omega
  | ⟨1, _⟩ => show 0 * 1024 + 1 * (y 1).val = (y 1).val; omega

/-- So each input block, read off its array, is the array. -/
private theorem iblk1_0 (c : Dev nD) (t : Fin cfg1.N) : iblk1 (F := Ideal) V c 0 t = V c main_v29 := by
  funext y
  show V c main_v29 (((cfg1.win 0).blk t).view.emb y) = V c main_v29 y
  rw [blk1_0_emb]

private theorem iblk1_1 (c : Dev nD) (t : Fin cfg1.N) : iblk1 (F := Ideal) V c 1 t = V c main_v30 := by
  funext y
  show V c main_v30 (((cfg1.win 1).blk t).view.emb y) = V c main_v30 y
  rw [blk1_1_emb]

private theorem iblk1_2 (c : Dev nD) (t : Fin cfg1.N) : iblk1 (F := Ideal) V c 2 t = V c main_v31 := by
  funext y
  show V c main_v31 (((cfg1.win 2).blk t).view.emb y) = V c main_v31 y
  rw [blk1_2_emb]

private theorem iblk1_3 (c : Dev nD) (t : Fin cfg1.N) : iblk1 (F := Ideal) V c 3 t = V c main_arg4 := by
  funext y
  show V c main_arg4 (((cfg1.win 3).blk t).view.emb y) = V c main_arg4 y
  rw [blk1_3_emb]

private theorem iblk1_4 (c : Dev nD) (t : Fin cfg1.N) : iblk1 (F := Ideal) V c 4 t = V c main_v32 := by
  funext y
  show V c main_v32 (((cfg1.win 4).blk t).view.emb y) = V c main_v32 y
  rw [blk1_4_emb]

/-- Contents of the output block, cut for the write-back, are those contents read through the whole-array block. -/
private theorem cut1_5 (t : Fin cfg1.N) (X : Vec Ideal S1000x1024 .f32) :
    (cfg1.win 5).cut (grid1.coords t) X = ((cfg1.win 5).blk t).view.read (Elt Ideal) X := by
  funext y
  show X y = X (((cfg1.win 5).blk t).view.emb y)
  rw [blk1_5_emb]

/-- What the one point writes back is the body's result on the whole input arrays, read through the whole-array block. -/
private theorem flushed1 (c : Dev nD) (t : Fin cfg1.N) :
    (dat1 (F := Ideal) V c).flushed 5 t
      = ((cfg1.win 5).blk t).view.read (Elt Ideal) (out1_5 (F := Ideal) (V c main_v29) (V c main_v30) (V c main_v31) (V c main_arg4) (V c main_v32)) := by
  show (cfg1.win 5).cut (grid1.coords t) ((dat1 V c).after 5 t) = _
  rw [after1_5, iblk1_0, iblk1_1, iblk1_2, iblk1_3, iblk1_4]
  exact cut1_5 t _

/-- Every index of the output array lies in the one point's block. -/
private theorem cover1 (i : S1000x1024.Idx) :
    ∃ t : Fin cfg1.N, (cfg1.win 5).flush t = true ∧ i ∈ ((cfg1.win 5).blk t).view.set := by
  refine ⟨t1_0, flush1_5 t1_0, ?_⟩
  show i ∈ ((View.whole main_v33).slice (win1_5.rect t1_0)).set
  rw [View.set_slice_whole, Rect.mem_set_unit]
  intro a
  match a with
  | ⟨0, _⟩ => exact ⟨Nat.zero_le _, by show (i 0).val < 0 * 1000 + 1000; have h : (i 0).val < 1000 := (i 0).isLt; omega⟩
  | ⟨1, _⟩ => exact ⟨Nat.zero_le _, by show (i 1).val < 0 * 1024 + 1024; have h : (i 1).val < 1024 := (i 1).isLt; omega⟩

/-- The first layer's output array after region 1: the body's result on the whole input arrays. -/
theorem arr1 (c : Dev nD) :
    (dat1 (F := Ideal) V c).arrAt 5 cfg1.N = out1_5 (F := Ideal) (V c main_v29) (V c main_v30) (V c main_v31) (V c main_arg4) (V c main_v32) :=
  (dat1 V c).arrAt_eq_of_cover 5 _ (fun t _ => flushed1 V c t) cover1

/-! ## Region 2: the second layer -/

/-- In the second layer's region every block is the whole array: a block's coordinate in the array is block index 0 times the size plus the coordinate inside the block. -/
private theorem blk2_0_emb (t : Fin cfg2.N) (y : S1000x1000.Idx) : ((cfg2.win 0).blk t).view.emb y = y := by
  funext a; apply Fin.ext
  match a with
  | ⟨0, _⟩ => show 0 * 1000 + 1 * (y 0).val = (y 0).val; omega
  | ⟨1, _⟩ => show 0 * 1000 + 1 * (y 1).val = (y 1).val; omega

private theorem blk2_1_emb (t : Fin cfg2.N) (y : S1000x1024.Idx) : ((cfg2.win 1).blk t).view.emb y = y := by
  funext a; apply Fin.ext
  match a with
  | ⟨0, _⟩ => show 0 * 1000 + 1 * (y 0).val = (y 0).val; omega
  | ⟨1, _⟩ => show 0 * 1024 + 1 * (y 1).val = (y 1).val; omega

private theorem blk2_2_emb (t : Fin cfg2.N) (y : S1024x2048.Idx) : ((cfg2.win 2).blk t).view.emb y = y := by
  funext a; apply Fin.ext
  match a with
  | ⟨0, _⟩ => show 0 * 1024 + 1 * (y 0).val = (y 0).val; omega
  | ⟨1, _⟩ => show 0 * 2048 + 1 * (y 1).val = (y 1).val; omega

private theorem blk2_3_emb (t : Fin cfg2.N) (y : S2048.Idx) : ((cfg2.win 3).blk t).view.emb y = y := by
  funext a; apply Fin.ext
  match a with
  | ⟨0, _⟩ => show 0 * 2048 + 1 * (y 0).val = (y 0).val; omega

private theorem blk2_4_emb (t : Fin cfg2.N) (y : S1024x2048.Idx) : ((cfg2.win 4).blk t).view.emb y = y := by
  funext a; apply Fin.ext
  match a with
  | ⟨0, _⟩ => show 0 * 1024 + 1 * (y 0).val = (y 0).val; omega
  | ⟨1, _⟩ => show 0 * 2048 + 1 * (y 1).val = (y 1).val; omega

private theorem blk2_5_emb (t : Fin cfg2.N) (y : S1000x2048.Idx) : ((cfg2.win 5).blk t).view.emb y = y := by
  funext a; apply Fin.ext
  match a with
  | ⟨0, _⟩ => show 0 * 1000 + 1 * (y 0).val = (y 0).val; omega
  | ⟨1, _⟩ => show 0 * 2048 + 1 * (y 1).val = (y 1).val; omega

/-- So each input block, read off its array, is the array. -/
private theorem iblk2_0 (c : Dev nD) (t : Fin cfg2.N) : iblk2 (F := Ideal) V c 0 t = V c main_v29 := by
  funext y
  show V c main_v29 (((cfg2.win 0).blk t).view.emb y) = V c main_v29 y
  rw [blk2_0_emb]

private theorem iblk2_1 (c : Dev nD) (t : Fin cfg2.N) : iblk2 (F := Ideal) V c 1 t = V c main_v34 := by
  funext y
  show V c main_v34 (((cfg2.win 1).blk t).view.emb y) = V c main_v34 y
  rw [blk2_1_emb]

private theorem iblk2_2 (c : Dev nD) (t : Fin cfg2.N) : iblk2 (F := Ideal) V c 2 t = V c main_v35 := by
  funext y
  show V c main_v35 (((cfg2.win 2).blk t).view.emb y) = V c main_v35 y
  rw [blk2_2_emb]

private theorem iblk2_3 (c : Dev nD) (t : Fin cfg2.N) : iblk2 (F := Ideal) V c 3 t = V c main_arg7 := by
  funext y
  show V c main_arg7 (((cfg2.win 3).blk t).view.emb y) = V c main_arg7 y
  rw [blk2_3_emb]

private theorem iblk2_4 (c : Dev nD) (t : Fin cfg2.N) : iblk2 (F := Ideal) V c 4 t = V c main_v36 := by
  funext y
  show V c main_v36 (((cfg2.win 4).blk t).view.emb y) = V c main_v36 y
  rw [blk2_4_emb]

/-- Contents of the output block, cut for the write-back, are those contents read through the whole-array block. -/
private theorem cut2_5 (t : Fin cfg2.N) (X : Vec Ideal S1000x2048 .f32) :
    (cfg2.win 5).cut (grid2.coords t) X = ((cfg2.win 5).blk t).view.read (Elt Ideal) X := by
  funext y
  show X y = X (((cfg2.win 5).blk t).view.emb y)
  rw [blk2_5_emb]

/-- What the one point writes back is the body's result on the whole input arrays, read through the whole-array block. -/
private theorem flushed2 (c : Dev nD) (t : Fin cfg2.N) :
    (dat2 (F := Ideal) V c).flushed 5 t
      = ((cfg2.win 5).blk t).view.read (Elt Ideal) (out2_5 (F := Ideal) (V c main_v29) (V c main_v34) (V c main_v35) (V c main_arg7) (V c main_v36)) := by
  show (cfg2.win 5).cut (grid2.coords t) ((dat2 V c).after 5 t) = _
  rw [after2_5, iblk2_0, iblk2_1, iblk2_2, iblk2_3, iblk2_4]
  exact cut2_5 t _

/-- Every index of the output array lies in the one point's block. -/
private theorem cover2 (i : S1000x2048.Idx) :
    ∃ t : Fin cfg2.N, (cfg2.win 5).flush t = true ∧ i ∈ ((cfg2.win 5).blk t).view.set := by
  refine ⟨t2_0, flush2_5 t2_0, ?_⟩
  show i ∈ ((View.whole main_v37).slice (win2_5.rect t2_0)).set
  rw [View.set_slice_whole, Rect.mem_set_unit]
  intro a
  match a with
  | ⟨0, _⟩ => exact ⟨Nat.zero_le _, by show (i 0).val < 0 * 1000 + 1000; have h : (i 0).val < 1000 := (i 0).isLt; omega⟩
  | ⟨1, _⟩ => exact ⟨Nat.zero_le _, by show (i 1).val < 0 * 2048 + 2048; have h : (i 1).val < 2048 := (i 1).isLt; omega⟩

/-- The second layer's output array after region 2. -/
theorem arr2 (c : Dev nD) :
    (dat2 (F := Ideal) V c).arrAt 5 cfg2.N = out2_5 (F := Ideal) (V c main_v29) (V c main_v34) (V c main_v35) (V c main_arg7) (V c main_v36) :=
  (dat2 V c).arrAt_eq_of_cover 5 _ (fun t _ => flushed2 V c t) cover2

/-! ## Region 3: the scores -/

/-- In the scoring region every block is the whole array: a block's coordinate in the array is block index 0 times the size plus the coordinate inside the block. -/
private theorem blk3_0_emb (t : Fin cfg3.N) (y : S64x2048.Idx) : ((cfg3.win 0).blk t).view.emb y = y := by
  funext a; apply Fin.ext
  match a with
  | ⟨0, _⟩ => show 0 * 64 + 1 * (y 0).val = (y 0).val; omega
  | ⟨1, _⟩ => show 0 * 2048 + 1 * (y 1).val = (y 1).val; omega

private theorem blk3_1_emb (t : Fin cfg3.N) (y : S1000x2048.Idx) : ((cfg3.win 1).blk t).view.emb y = y := by
  funext a; apply Fin.ext
  match a with
  | ⟨0, _⟩ => show 0 * 1000 + 1 * (y 0).val = (y 0).val; omega
  | ⟨1, _⟩ => show 0 * 2048 + 1 * (y 1).val = (y 1).val; omega

private theorem blk3_2_emb (t : Fin cfg3.N) (y : S64x1000.Idx) : ((cfg3.win 2).blk t).view.emb y = y := by
  funext a; apply Fin.ext
  match a with
  | ⟨0, _⟩ => show 0 * 64 + 1 * (y 0).val = (y 0).val; omega
  | ⟨1, _⟩ => show 0 * 1000 + 1 * (y 1).val = (y 1).val; omega

/-- So each input block, read off its array, is the array. -/
private theorem iblk3_0 (c : Dev nD) (t : Fin cfg3.N) : iblk3 (F := Ideal) V c 0 t = V c main_v1 := by
  funext y
  show V c main_v1 (((cfg3.win 0).blk t).view.emb y) = V c main_v1 y
  rw [blk3_0_emb]

private theorem iblk3_1 (c : Dev nD) (t : Fin cfg3.N) : iblk3 (F := Ideal) V c 1 t = V c main_v37 := by
  funext y
  show V c main_v37 (((cfg3.win 1).blk t).view.emb y) = V c main_v37 y
  rw [blk3_1_emb]

/-- Contents of the output block, cut for the write-back, are those contents read through the whole-array block. -/
private theorem cut3_2 (t : Fin cfg3.N) (X : Vec Ideal S64x1000 .f32) :
    (cfg3.win 2).cut (grid3.coords t) X = ((cfg3.win 2).blk t).view.read (Elt Ideal) X := by
  funext y
  show X y = X (((cfg3.win 2).blk t).view.emb y)
  rw [blk3_2_emb]

/-- What the one point writes back is the body's result on the whole input arrays, read through the whole-array block. -/
private theorem flushed3 (c : Dev nD) (t : Fin cfg3.N) :
    (dat3 (F := Ideal) V c).flushed 2 t
      = ((cfg3.win 2).blk t).view.read (Elt Ideal) (out3_2 (F := Ideal) (V c main_v1) (V c main_v37)) := by
  show (cfg3.win 2).cut (grid3.coords t) ((dat3 V c).after 2 t) = _
  rw [after3_2, iblk3_0, iblk3_1]
  exact cut3_2 t _

/-- Every index of the output array lies in the one point's block. -/
private theorem cover3 (i : S64x1000.Idx) :
    ∃ t : Fin cfg3.N, (cfg3.win 2).flush t = true ∧ i ∈ ((cfg3.win 2).blk t).view.set := by
  refine ⟨t3_0, flush3_2 t3_0, ?_⟩
  show i ∈ ((View.whole main_v38).slice (win3_2.rect t3_0)).set
  rw [View.set_slice_whole, Rect.mem_set_unit]
  intro a
  match a with
  | ⟨0, _⟩ => exact ⟨Nat.zero_le _, by show (i 0).val < 0 * 64 + 64; have h : (i 0).val < 64 := (i 0).isLt; omega⟩
  | ⟨1, _⟩ => exact ⟨Nat.zero_le _, by show (i 1).val < 0 * 1000 + 1000; have h : (i 1).val < 1000 := (i 1).isLt; omega⟩

/-- The scores after region 3. -/
theorem arr3 (c : Dev nD) :
    (dat3 (F := Ideal) V c).arrAt 2 cfg3.N = out3_2 (F := Ideal) (V c main_v1) (V c main_v37) :=
  (dat3 V c).arrAt_eq_of_cover 2 _ (fun t _ => flushed3 V c t) cover3

end Cert.KernelIdeal.KRegion

end
-- ==== Proof.KPayLayer.lean ====
/-
  What each layer body leaves in its output block, as a function of its input blocks.

  A layer body multiplies the adjacency block with the feature block, that product with the left weights, adds
  the bias to every row and the product of the features with the right weights (and, in the first layer,
  applies the leaky rectifier: keep where non-negative, else times the slope). A change of float format is the
  identity on extended reals, a product into a zero accumulator is the plain sum of products, and the body
  stores its result through the whole block once.
-/
import proofs.«428741_j30288109371889_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«428741_j30288109371889_1_alg».proof.Proof.Spec

set_option maxRecDepth 16384

noncomputable section

open scoped BigOperators

namespace Cert.KernelIdeal.KPay

open Cert.KernelIdeal Cert.KernelIdeal.Gen Idealize.ShloMosaic Idealize.ShloMosaic.TcCoe Idealize.ShloMosaic.ValueIdx

/-- A block product into the zero accumulator, read at a row and a column: the sum over the contracted coordinate of
    the products of the entries. -/
private theorem matmul_plain_zero_apply {n k m : Nat} {φ₁ φ₂ : FTy}
    (a : FVec Ideal ⟨2, ![n, k]⟩ φ₁) (b : FVec Ideal ⟨2, ![k, m]⟩ φ₂) (p : Fin n) (q : Fin m) :
    FloatOps.matmul (DotDims.plain n k m) none a b (constant (F := Ideal) ⟨2, ![n, m]⟩ .f32 0x00000000#32) (ix2 p q)
      = ∑ t : Fin k, a (ix2 p t) * b (ix2 t q) := by
  rw [Ideal.matmul_constant_zero_apply, ← Equiv.sum_comp (contrEquiv1 (DotDims.plain n k m) k rfl rfl).symm]
  refine Finset.sum_congr rfl fun t _ => ?_
  have ht := contrEquiv1_symm_val (DotDims.plain n k m) k rfl rfl t
  have hl : (DotDims.plain n k m).lhsIdx (ix2 p q) ((contrEquiv1 _ k rfl rfl).symm t) = ix2 p t := by
    funext ax; apply Fin.ext
    match ax with
    | ⟨0, _⟩ => simp [DotDims.lhsIdx, DotDims.plain]; rfl
    | ⟨1, _⟩ => exact (DotDims.lhsIdx_val_of_single (DotDims.plain n k m) (cl := 1) rfl _ _).trans ht
  have hr : (DotDims.plain n k m).rhsIdx (ix2 p q) ((contrEquiv1 _ k rfl rfl).symm t) = ix2 t q := by
    funext ax; apply Fin.ext
    match ax with
    | ⟨0, _⟩ => exact (DotDims.rhsIdx_val_of_single (DotDims.plain n k m) (cr := 0) rfl _ _).trans ht
    | ⟨1, _⟩ => simp [DotDims.rhsIdx, DotDims.plain]; rfl
  rw [hl, hr]

/-- A vector of w entries, given a leading axis of extent one and repeated down r rows, read at a row and a column:
    the vector's entry at the column. -/
private theorem rowBias_apply {r w : Nat} {α : Type} (b : (⟨1, ![w]⟩ : Shape).Idx → α)
    (h1 : (⟨1, ![w]⟩ : Shape).ShapeCasts ⟨2, ![1, w]⟩) (h2 : (⟨2, ![1, w]⟩ : Shape).Broadcasts ⟨2, ![r, w]⟩)
    (n : Fin r) (c : Fin w) :
    broadcastTo ⟨2, ![r, w]⟩ (shapeCast ⟨2, ![1, w]⟩ b h1) h2 (ix2 n c) = b (ix1 c) := by
  rw [broadcastTo_apply _ h2 (ix2 n c) (ix2 (0 : Fin 1) c) (fun a => by
    match a with
    | ⟨0, _⟩ => simp
    | ⟨1, _⟩ =>
      show c.val = if w = 1 then 0 else c.val
      split
      · have := c.isLt; omega
      · rfl)]
  rw [shapeCast_addUnit_apply ![w] b h1]
  congr 1
  funext a
  match a with
  | ⟨0, _⟩ => rfl

/-- The rectifier on one entry: the comparison with zero decides between the entry and its multiple by the slope. -/
private theorem leaky_entry (a : EReal) :
    Scalar.select (FloatOps.cmpf (F := Ideal) (φ := .f32) .oge a (Scalar.ofBits .f32 0x00000000#32)) a
        (a * (Scalar.ofBits .f32 0x3E4CCCCD#32 : Ideal .f32))
      = if 0 ≤ a then a else a * Cert.Spec.slope := by
  show Scalar.select (Ideal.cmp .oge a (Ideal.ofBits .f32 0x00000000#32)) a (a * Ideal.ofBits .f32 0x3E4CCCCD#32) = _
  rw [Ideal.ofBits_zero_f32]
  unfold Ideal.cmp Scalar.select Cert.Spec.slope
  by_cases h : (0 : EReal) ≤ a
  · simp [h]
  · simp [h]

/-- The first layer's body: the rectified layer on the product of the adjacency block with the features. -/
theorem out1_eq (A : Vec Ideal S1000x1000 .bf16) (x : Vec Ideal S1000x300 .bf16) (Wl : Vec Ideal S300x1024 .bf16)
    (b : Vec Ideal S1024 .f32) (Wr : Vec Ideal S300x1024 .bf16) :
    out1_5 (F := Ideal) A x Wl b Wr = Cert.Spec.leaky (Cert.Spec.layer (Cert.Spec.mm A x) x Wl b Wr) := by
  have hz2 : (![0, 0] : Fin 2 → Nat) = fun _ => 0 := funext fun a => by fin_cases a <;> rfl
  have hz1 : (![0] : Fin 1 → Nat) = fun _ => 0 := funext fun a => by fin_cases a <;> rfl
  have eAx : ∀ (a : FVec Ideal S1000x1000 .bf16) (y : FVec Ideal S1000x300 .bf16) (p : Fin 1000) (q : Fin 300),
      matmul dot_S1000x1000_S1000x300_S1000x300_1_0_0_1_n_n none a y (constant (F := Ideal) S1000x300 .f32 0x00000000#32) (ix2 p q)
        = ∑ t : Fin 1000, a (ix2 p t) * y (ix2 t q) := fun a y p q => matmul_plain_zero_apply a y p q
  have eW : ∀ (y : FVec Ideal S1000x300 .bf16) (w : FVec Ideal S300x1024 .bf16) (p : Fin 1000) (q : Fin 1024),
      matmul dot_S1000x300_S300x1024_S1000x1024_1_0_0_1_n_n none y w (constant (F := Ideal) S1000x1024 .f32 0x00000000#32) (ix2 p q)
        = ∑ t : Fin 300, y (ix2 p t) * w (ix2 t q) := fun y w p q => matmul_plain_zero_apply y w p q
  unfold out1_5
  rw [View.canon_unit_zero hz2]
  simp only [View.ld_unit_zero (S := S1000x1000) hz2, View.ld_unit_zero (S := S1000x300) hz2, View.ld_unit_zero (S := S300x1024) hz2, View.ld_unit_zero (S := S1024) hz1]
  funext j
  obtain ⟨n, c, rfl⟩ : ∃ (n : Fin 1000) (c : Fin 1024), j = ix2 n c := ⟨j 0, j 1, eq_ix2 j⟩
  unfold k1_pay1
  simp only [shapeCast_self]
  rw [select_apply, cmpf_apply, mulf_apply, broadcast_apply, broadcast_apply]
  simp only [addf_apply, eW, rowBias_apply, truncf_apply, eAx]
  unfold Cert.Spec.leaky
  exact leaky_entry _

/-- The second layer's body: the layer on the product of the adjacency block with the features. -/
theorem out2_eq (A : Vec Ideal S1000x1000 .bf16) (x : Vec Ideal S1000x1024 .bf16) (Wl : Vec Ideal S1024x2048 .bf16)
    (b : Vec Ideal S2048 .f32) (Wr : Vec Ideal S1024x2048 .bf16) :
    out2_5 (F := Ideal) A x Wl b Wr = Cert.Spec.layer (Cert.Spec.mm A x) x Wl b Wr := by
  have hz2 : (![0, 0] : Fin 2 → Nat) = fun _ => 0 := funext fun a => by fin_cases a <;> rfl
  have hz1 : (![0] : Fin 1 → Nat) = fun _ => 0 := funext fun a => by fin_cases a <;> rfl
  have eAx : ∀ (a : FVec Ideal S1000x1000 .bf16) (y : FVec Ideal S1000x1024 .bf16) (p : Fin 1000) (q : Fin 1024),
      matmul dot_S1000x1000_S1000x1024_S1000x1024_1_0_0_1_n_n none a y (constant (F := Ideal) S1000x1024 .f32 0x00000000#32) (ix2 p q)
        = ∑ t : Fin 1000, a (ix2 p t) * y (ix2 t q) := fun a y p q => matmul_plain_zero_apply a y p q
  have eW : ∀ (y : FVec Ideal S1000x1024 .bf16) (w : FVec Ideal S1024x2048 .bf16) (p : Fin 1000) (q : Fin 2048),
      matmul dot_S1000x1024_S1024x2048_S1000x2048_1_0_0_1_n_n none y w (constant (F := Ideal) S1000x2048 .f32 0x00000000#32) (ix2 p q)
        = ∑ t : Fin 1024, y (ix2 p t) * w (ix2 t q) := fun y w p q => matmul_plain_zero_apply y w p q
  unfold out2_5
  rw [View.canon_unit_zero hz2]
  simp only [View.ld_unit_zero (S := S1000x1000) hz2, View.ld_unit_zero (S := S1000x1024) hz2, View.ld_unit_zero (S := S1024x2048) hz2, View.ld_unit_zero (S := S2048) hz1]
  funext j
  obtain ⟨n, c, rfl⟩ : ∃ (n : Fin 1000) (c : Fin 2048), j = ix2 n c := ⟨j 0, j 1, eq_ix2 j⟩
  unfold k2_pay1
  simp only [shapeCast_self]
  rw [addf_apply, addf_apply, eW, eW, rowBias_apply]
  simp only [truncf_apply, eAx]
  rfl

end Cert.KernelIdeal.KPay

end
-- ==== Proof.LibPairs.lean ====
/-
  An accumulating scatter of E scalars into a table of N rows and M columns, each scalar placed by a PAIR of
  index words (a row word and a column word), read at an entry: update e lands at (n, k) exactly when its
  row word names row n and its column word names column k, both words read as signed integers and not
  clamped; an update either of whose words names nothing is dropped.
-/
import Idealize.ShloMosaic.PureOps.Ideal
import Idealize.ShloMosaic.PureOps.Ideal.Laws
import Idealize.ShloMosaic.Lib.ValueIdx
import Idealize.ShloMosaic.Lib.ValueIdxRank1
import proofs.«428741_j30288109371889_1_alg».proof.Proof.Spec

noncomputable section

open scoped BigOperators

namespace Cert.LibPairs

open Idealize.ShloMosaic Idealize.ShloMosaic.ValueIdx

/-! ## Where an update of the pair scatter lands -/

section Pairs
variable {N M E : Nat} (d : ScatterDims ⟨2, ![N, M]⟩ ⟨2, ![E, 2]⟩ ⟨1, ![E]⟩)
    (huw : d.updateWindowDims = []) (hiw : d.insertedWindowDims = [0, 1]) (hsd : d.scatterDimsToOperandDims = [0, 1]) (hivd : d.indexVectorDim = 1)
include huw hiw hsd hivd

/-- On the row axis the window of update e starts at the row word of pair e, read signed. -/
private theorem pairs_start0 (idx : IVec ⟨2, ![E, 2]⟩ 32) (e : Fin E) :
    d.start (ix1 e) idx 0 = (idx (ix2 e 0)).toInt := by
  obtain ⟨uw, iw, sd, ivd, wf⟩ := d
  simp only at huw hiw hsd hivd
  subst huw hiw hsd hivd
  unfold ScatterDims.start
  split
  · congr 2
    funext b
    apply Fin.ext
    match b with
    | ⟨0, _⟩ => rfl
    | ⟨1, _⟩ => rfl
  · next hn => exact absurd (List.mem_cons_self) hn

/-- On the column axis the window of update e starts at the column word of pair e, read signed. -/
private theorem pairs_start1 (idx : IVec ⟨2, ![E, 2]⟩ 32) (e : Fin E) :
    d.start (ix1 e) idx 1 = (idx (ix2 e 1)).toInt := by
  obtain ⟨uw, iw, sd, ivd, wf⟩ := d
  simp only at huw hiw hsd hivd
  subst huw hiw hsd hivd
  unfold ScatterDims.start
  split
  · congr 2
    funext b
    apply Fin.ext
    match b with
    | ⟨0, _⟩ => rfl
    | ⟨1, _⟩ => rfl
  · next hn => exact absurd (List.mem_cons_of_mem _ (List.mem_singleton.mpr rfl)) hn

/-- Both axes are inserted ones: the window coordinate is 0 on each. -/
private theorem pairs_window (e : Fin E) (a : Fin 2) : d.window (ix1 e) a = 0 := by
  obtain ⟨uw, iw, sd, ivd, wf⟩ := d
  simp only at huw hiw hsd hivd
  subst huw hiw hsd hivd
  match a with
  | ⟨0, _⟩ => rfl
  | ⟨1, _⟩ => rfl

/-- Update e lands at the entry its two words name, and nowhere when either word names nothing. -/
private theorem pairs_resultIdx (idx : IVec ⟨2, ![E, 2]⟩ 32) (e : Fin E) (n : Fin N) (k : Fin M) :
    d.resultIdx? (ix1 e) idx = some (ix2 n k)
      ↔ (Cert.Spec.landIx N (idx (ix2 e 0)) = some n ∧ Cert.Spec.landIx M (idx (ix2 e 1)) = some k) := by
  have h0 := pairs_start0 d huw hiw hsd hivd idx e
  have h1 := pairs_start1 d huw hiw hsd hivd idx e
  have w0 := pairs_window d huw hiw hsd hivd e 0
  have w1 := pairs_window d huw hiw hsd hivd e 1
  unfold ScatterDims.resultIdx? Cert.Spec.landIx
  by_cases h : (0 ≤ (idx (ix2 e 0)).toInt ∧ (idx (ix2 e 0)).toInt < N) ∧ (0 ≤ (idx (ix2 e 1)).toInt ∧ (idx (ix2 e 1)).toInt < M)
  · -- both words in range: the update lands at the entry they name
    have hall : ∀ a : Fin 2, 0 ≤ d.start (ix1 e) idx a + d.window (ix1 e) a
        ∧ d.start (ix1 e) idx a + d.window (ix1 e) a < (⟨2, ![N, M]⟩ : Shape).size a := by
      intro a
      match a with
      | ⟨0, _⟩ =>
        show 0 ≤ d.start (ix1 e) idx 0 + d.window (ix1 e) 0 ∧ d.start (ix1 e) idx 0 + d.window (ix1 e) 0 < (N : Int)
        rw [h0, w0]; omega
      | ⟨1, _⟩ =>
        show 0 ≤ d.start (ix1 e) idx 1 + d.window (ix1 e) 1 ∧ d.start (ix1 e) idx 1 + d.window (ix1 e) 1 < (M : Int)
        rw [h1, w1]; omega
    rw [dif_pos hall, dif_pos h.1, dif_pos h.2]
    simp only [Option.some.injEq]
    constructor
    · intro hh
      have e0 := congrArg Fin.val (congrFun hh 0)
      have e1 := congrArg Fin.val (congrFun hh 1)
      have e0' : (d.start (ix1 e) idx 0 + d.window (ix1 e) 0).toNat = n.val := e0
      have e1' : (d.start (ix1 e) idx 1 + d.window (ix1 e) 1).toNat = k.val := e1
      rw [h0, w0] at e0'
      rw [h1, w1] at e1'
      constructor
      · apply Fin.ext
        show (idx (ix2 e 0)).toInt.toNat = n.val
        simpa using e0'
      · apply Fin.ext
        show (idx (ix2 e 1)).toInt.toNat = k.val
        simpa using e1'
    · rintro ⟨hn, hk⟩
      have hn' : (idx (ix2 e 0)).toInt.toNat = n.val := congrArg Fin.val hn
      have hk' : (idx (ix2 e 1)).toInt.toNat = k.val := congrArg Fin.val hk
      funext a
      apply Fin.ext
      match a with
      | ⟨0, _⟩ =>
        show (d.start (ix1 e) idx 0 + d.window (ix1 e) 0).toNat = n.val
        rw [h0, w0, ← hn']; simp
      | ⟨1, _⟩ =>
        show (d.start (ix1 e) idx 1 + d.window (ix1 e) 1).toNat = k.val
        rw [h1, w1, ← hk']; simp
  · -- a word out of range: the update is dropped, and one of the two words names nothing
    have hnall : ¬ ∀ a : Fin 2, 0 ≤ d.start (ix1 e) idx a + d.window (ix1 e) a
        ∧ d.start (ix1 e) idx a + d.window (ix1 e) a < (⟨2, ![N, M]⟩ : Shape).size a := by
      intro hall
      have a0 := hall 0
      have a1 := hall 1
      rw [h0, w0] at a0
      rw [h1, w1] at a1
      apply h
      have a0' : (0:Int) ≤ (idx (ix2 e 0)).toInt + ((0:Nat):Int) ∧ (idx (ix2 e 0)).toInt + ((0:Nat):Int) < (N : Int) := a0
      have a1' : (0:Int) ≤ (idx (ix2 e 1)).toInt + ((0:Nat):Int) ∧ (idx (ix2 e 1)).toInt + ((0:Nat):Int) < (M : Int) := a1
      constructor <;> omega
    rw [dif_neg hnall]
    constructor
    · intro hh; exact absurd hh (by simp)
    · rintro ⟨hn, hk⟩
      exfalso
      apply h
      constructor
      · by_contra hc
        rw [dif_neg hc] at hn
        exact absurd hn (by simp)
      · by_contra hc
        rw [dif_neg hc] at hk
        exact absurd hk (by simp)

end Pairs

/-- The scatter of scalars by pairs of index words, read at (n, k): the table's entry plus the sum of the
    updates whose row word lands in row n and whose column word lands in column k. -/
theorem scatterAdd_pairs {N M E : Nat} (d : ScatterDims ⟨2, ![N, M]⟩ ⟨2, ![E, 2]⟩ ⟨1, ![E]⟩)
    (huw : d.updateWindowDims = []) (hiw : d.insertedWindowDims = [0, 1]) (hsd : d.scatterDimsToOperandDims = [0, 1]) (hivd : d.indexVectorDim = 1)
    (x : (⟨2, ![N, M]⟩ : Shape).Idx → EReal) (idx : IVec ⟨2, ![E, 2]⟩ 32) (upd : (⟨1, ![E]⟩ : Shape).Idx → EReal) (n : Fin N) (k : Fin M) :
    Ideal.hostScatterAdd d x idx upd (ix2 n k)
      = x (ix2 n k) + ∑ e ∈ Finset.univ.filter (fun e : Fin E =>
          Cert.Spec.landIx N (idx (ix2 e 0)) = some n ∧ Cert.Spec.landIx M (idx (ix2 e 1)) = some k), upd (ix1 e) := by
  have key := fun e => pairs_resultIdx d huw hiw hsd hivd idx e n k
  unfold Ideal.hostScatterAdd
  congr 1
  -- a rank-1 index is its coordinate: re-index the sum over the updates by e
  rw [Finset.sum_filter, Finset.sum_filter, ← Equiv.sum_comp (idxEquiv1 (n := E)).symm]
  refine Finset.sum_congr rfl fun e _ => ?_
  show (if d.resultIdx? (ix1 e) idx = some (ix2 n k) then upd (ix1 e) else 0) = _
  by_cases hl : Cert.Spec.landIx N (idx (ix2 e 0)) = some n ∧ Cert.Spec.landIx M (idx (ix2 e 1)) = some k
  · rw [if_pos hl, if_pos ((key e).2 hl)]
  · rw [if_neg hl, if_neg (fun h => hl ((key e).1 h))]

end Cert.LibPairs

end
-- ==== Proof.KAdj.lean ====
/-
  The adjacency table the program builds on the host, read entry by entry.

  Between the pooling region and the first layer the program splits the edge array into its source and
  destination rows, moves negative words up by 1000, pairs each edge's destination word with its source word,
  and adds a one into a 1000 × 1000 table of zeros at every pair (a pair either of whose words names no row or
  column is dropped); it then sums each row, takes the larger of the sum and one, and divides the row by it.
  Entry (n, k) of the result is the number of edges from k to n over the larger of n's row total and one.
-/
import proofs.«428741_j30288109371889_1_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost
import proofs.«428741_j30288109371889_1_alg».proof.Proof.LibPairs
import proofs.«428741_j30288109371889_1_alg».proof.Proof.Spec

set_option maxRecDepth 16384

noncomputable section

open scoped BigOperators

namespace Cert.KernelIdeal.KHost

open Cert.KernelIdeal Cert.KernelIdeal.Gen Idealize.ShloMosaic Idealize.ShloMosaic.TcCoe Idealize.SL.Sem Idealize.ShloMosaic.ValueIdx Idealize.ShloMosaic.StableHlo

/-- Row 0 of the edge array as a vector. -/
private def rowVec0 (ei : IVec S2x40000 32) : IVec S40000 32 :=
  shapeCast S40000 (extractStridedSlice S1x40000 ![0, 0] ei slices_S2x40000_S1x40000_0_0) shapeCasts_S1x40000_S40000
/-- Row 1 of the edge array as a vector. -/
private def rowVec1 (ei : IVec S2x40000 32) : IVec S40000 32 :=
  shapeCast S40000 (extractStridedSlice S1x40000 ![1, 0] ei slices_S2x40000_S1x40000_1_0) shapeCasts_S1x40000_S40000

/-- Negative words moved up by 1000, entry by entry. -/
private def wrapVec (v : IVec S40000 32) : IVec S40000 32 :=
  select (cmpi .slt v (broadcastInDim S40000 ![] bcast_S_S40000 (constantI S_ 32 0#32)))
    (addi v (broadcastInDim S40000 ![] bcast_S_S40000 (constantI S_ 32 1000#32))) v

/-- The pairs: column 0 the wrapped destination word, column 1 the wrapped source word. -/
private def pairsIdx (ei : IVec S2x40000 32) : IVec S40000x2 32 :=
  concatenate S40000x2 1
    [⟨S40000x1, broadcastInDim S40000x1 ![0] bcast_S40000_S40000x1_0 (wrapVec (rowVec1 ei))⟩,
     ⟨S40000x1, broadcastInDim S40000x1 ![0] bcast_S40000_S40000x1_0 (wrapVec (rowVec0 ei))⟩]
    concatenates_S40000x1_S40000x1_S40000x2_d1

/-- The table of counts: a one added at every pair into a table of zeros. -/
private def table (ei : IVec S2x40000 32) : FVec Ideal S1000x1000 .f32 :=
  Host.scatterAdd (F := Ideal) scatter_S1000x1000_S40000x2_S40000_n_01_01_1
    (broadcastInDim S1000x1000 ![] bcast_S_S1000x1000 (constant (F := Ideal) S_ .f32 0x00000000#32))
    (pairsIdx ei)
    (broadcastInDim S40000 ![] bcast_S_S40000 (constant (F := Ideal) S_ .f32 0x3F800000#32))

/-- The row totals, each taken as at least one, spread over the row. -/
private def denom (T : FVec Ideal S1000x1000 .f32) : FVec Ideal S1000x1000 .f32 :=
  broadcastInDim S1000x1000 ![0, 1] bcast_S1000x1_S1000x1000_0_1
    (maximumf
      (broadcastInDim S1000x1 ![0] bcast_S1000_S1000x1_0
        (Host.reduceAdd (F := Ideal) T (constant (F := Ideal) S_ .f32 0x00000000#32) reducesTo_S1000x1000_S1000_d1 h_S_))
      (broadcastInDim S1000x1 ![] bcast_S_S1000x1 (constant (F := Ideal) S_ .f32 0x3F800000#32)))

/-- Row 0 as a vector reads, at e, the edge array at (0, e). -/
private theorem rowVec0_apply (ei : IVec S2x40000 32) (e : Fin 40000) : rowVec0 ei (ix1 e) = ei (ix2 0 e) := by
  unfold rowVec0
  rw [shapeCast_1a_a_apply]
  refine extractStridedSlice_apply _ _ _ _ _ fun a => ?_
  match a with
  | ⟨0, _⟩ => rfl
  | ⟨1, _⟩ => show e.val = 0 + e.val; omega

/-- Row 1 as a vector reads, at e, the edge array at (1, e). -/
private theorem rowVec1_apply (ei : IVec S2x40000 32) (e : Fin 40000) : rowVec1 ei (ix1 e) = ei (ix2 1 e) := by
  unfold rowVec1
  rw [shapeCast_1a_a_apply]
  refine extractStridedSlice_apply _ _ _ _ _ fun a => ?_
  match a with
  | ⟨0, _⟩ => rfl
  | ⟨1, _⟩ => show e.val = 0 + e.val; omega

/-- The wrapped vector at e is the wrapped word. -/
private theorem wrapVec_apply (v : IVec S40000 32) (e : Fin 40000) : wrapVec v (ix1 e) = Cert.Spec.wrapW (v (ix1 e)) := by
  unfold wrapVec Cert.Spec.wrapW
  rw [select_apply]
  rfl

/-- A vector spread into one column reads, at (e, 0), the vector at e. -/
private theorem bcastCol_apply (v : IVec S40000 32) (e : Fin 40000) (u : Fin 1) :
    broadcastInDim S40000x1 ![0] bcast_S40000_S40000x1_0 v (ix2 e u) = v (ix1 e) := by
  refine broadcastInDim_apply _ _ _ _ _ fun a => ?_
  match a with
  | ⟨0, _⟩ => rfl

/-- Column 0 of the pairs is the wrapped destination word. -/
private theorem pairsIdx_apply0 (ei : IVec S2x40000 32) (e : Fin 40000) :
    pairsIdx ei (ix2 e 0) = Cert.Spec.wrapW (Cert.Spec.dstW ei e) := by
  unfold pairsIdx
  refine (concatenate_pair_apply_left (t := S40000x2) (s₁ := S40000x1) (s₂ := S40000x1) (1 : Fin 2) _ _
    concatenates_S40000x1_S40000x1_S40000x2_d1 (ix2 e (0 : Fin 2)) rfl (ix2 e (0 : Fin 1)) (fun b => ?_)).trans ?_
  · match b with
    | ⟨0, _⟩ => rfl
    | ⟨1, _⟩ => rfl
  · rw [bcastCol_apply, wrapVec_apply, rowVec1_apply]
    rfl

/-- Column 1 of the pairs is the wrapped source word. -/
private theorem pairsIdx_apply1 (ei : IVec S2x40000 32) (e : Fin 40000) :
    pairsIdx ei (ix2 e 1) = Cert.Spec.wrapW (Cert.Spec.srcW ei e) := by
  unfold pairsIdx
  refine (concatenate_pair_apply_right (t := S40000x2) (s₁ := S40000x1) (s₂ := S40000x1) (1 : Fin 2) _ _
    concatenates_S40000x1_S40000x1_S40000x2_d1 (ix2 e (1 : Fin 2)) rfl rfl (ix2 e (0 : Fin 1)) (fun b hb => ?_) rfl).trans ?_
  · match b with
    | ⟨0, _⟩ => rfl
    | ⟨1, _⟩ => exact absurd rfl hb
  · rw [bcastCol_apply, wrapVec_apply, rowVec0_apply]
    rfl

/-- The single-precision word of one. -/
private theorem ofBits_one_f32 : Ideal.ofBits .f32 0x3F800000#32 = 1 := IdealRules.sign_bit.ideal_onePat .f32

/-- The table at (n, k) is the number of pairs naming (n, k). -/
private theorem table_apply (ei : IVec S2x40000 32) (n k : Fin 1000) :
    table ei (ix2 n k) = Cert.Spec.pairCount ei n k := by
  unfold table Cert.Spec.pairCount
  show Ideal.hostScatterAdd scatter_S1000x1000_S40000x2_S40000_n_01_01_1 _ _ _ (ix2 n k) = _
  rw [Cert.LibPairs.scatterAdd_pairs _ rfl rfl rfl rfl]
  rw [broadcastInDim_scalar_apply, constant_apply, Ideal.ofBits_zero_f32, zero_add]
  have hf : (Finset.univ.filter fun e : Fin 40000 =>
        Cert.Spec.landIx 1000 (pairsIdx ei (ix2 e 0)) = some n ∧ Cert.Spec.landIx 1000 (pairsIdx ei (ix2 e 1)) = some k)
      = Finset.univ.filter fun e : Fin 40000 =>
        Cert.Spec.landIx 1000 (Cert.Spec.wrapW (Cert.Spec.dstW ei e)) = some n
          ∧ Cert.Spec.landIx 1000 (Cert.Spec.wrapW (Cert.Spec.srcW ei e)) = some k := by
    refine Finset.filter_congr fun e _ => ?_
    rw [pairsIdx_apply0, pairsIdx_apply1]
  rw [hf]
  refine Finset.sum_congr rfl fun e _ => ?_
  rw [broadcastInDim_scalar_apply, constant_apply, ofBits_one_f32]

/-- The divisor at (n, k) is the larger of row n's total and one. -/
private theorem denom_apply (T : FVec Ideal S1000x1000 .f32) (n k : Fin 1000) :
    denom T (ix2 n k) = max (∑ k' : Fin 1000, T (ix2 n k')) 1 := by
  unfold denom
  have hR : S1000x1000.Reduces [1] S1000 := by decide
  rw [broadcastInDim_apply _ _ _ (ix2 n k) (ix2 n (0 : Fin 1)) (fun a => by
    match a with
    | ⟨0, _⟩ => rfl
    | ⟨1, _⟩ => rfl)]
  rw [maximumf_apply, broadcastInDim_scalar_apply, constant_apply, ofBits_one_f32]
  rw [broadcastInDim_apply _ _ _ (ix2 n (0 : Fin 1)) (ix1 n) (fun a => by
    match a with
    | ⟨0, _⟩ => rfl)]
  rw [hostReduceAdd_apply, Ideal.hostReduceAdd_single _ hR, constant_apply, Ideal.ofBits_zero_f32, zero_add]
  congr 1
  refine Finset.sum_congr rfl fun k' _ => ?_
  congr 1
  funext a
  match a with
  | ⟨0, _⟩ => rfl
  | ⟨1, _⟩ => rfl

/-- After the host stretch before the first layer, the adjacency buffer holds the table of pair counts of the
    edge array, every row divided by its total (at least one). -/
theorem adj_value (W : Valuation τ sig (Elt Ideal)) :
    (after (hostOps1 (F := Ideal)) W (Proc.devRef .tc main_v29) : S1000x1000.Idx → EReal)
      = Cert.Spec.adj (W (Proc.devRef .tc main_arg2)) := by
  -- the buffer holds the table divided, entry by entry, by the spread row totals (the format change keeps the value)
  have e : (after (hostOps1 (F := Ideal)) W (Proc.devRef .tc main_v29) : S1000x1000.Idx → EReal)
      = (truncf .bf16 (Host.divf (F := Ideal) (table (W (Proc.devRef .tc main_arg2)))
          (denom (table (W (Proc.devRef .tc main_arg2))))) bitsLt_bf16_f32 : FVec Ideal S1000x1000 .bf16) := by
    simp only [hostOps1]
    after_results_simp
    rfl
  rw [e]
  funext j
  obtain ⟨n, k, rfl⟩ : ∃ (n : Fin 1000) (k : Fin 1000), j = ix2 n k := ⟨j 0, j 1, eq_ix2 j⟩
  -- entry (n, k): the pair count over the larger of row n's total of pair counts and one
  rw [truncf_apply, hostDivf_apply, denom_apply, table_apply]
  simp only [table_apply]
  rfl

end Cert.KernelIdeal.KHost

end
-- ==== Proof.KHost.lean ====
/-
  The simple host operations around the regions, read.

  Before the pooling region the images' 14 × 14 positions are flattened to 196 (position k is row k / 14,
  column k % 14), so a maximum over the 196 flattened positions is the maximum over the window. Before each
  layer the weights, the node features and the previous layer's output change float format, which is the
  identity on extended reals, and the node features' batch axis of extent one is dropped.
-/
import proofs.«428741_j30288109371889_1_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import proofs.«428741_j30288109371889_1_alg».proof.Proof.Spec

set_option maxRecDepth 16384

noncomputable section

open scoped BigOperators

namespace Cert.KernelIdeal.KHost

open Cert.KernelIdeal Cert.KernelIdeal.Gen Idealize.ShloMosaic Idealize.ShloMosaic.TcCoe Idealize.SL.Sem Idealize.ShloMosaic.ValueIdx Idealize.ShloMosaic.StableHlo

/-- The flattened images after the first host stretch: the images re-laid with their two position axes as one. -/
theorem v0_value (W : Valuation τ sig (Elt Ideal)) :
    (after (hostOps0 (F := Ideal)) W (Proc.devRef .tc main_v0) : S64x2048x196.Idx → EReal)
      = shapeCast S64x2048x196 (W (Proc.devRef .tc main_arg0) : S64x2048x14x14.Idx → EReal) shapeCasts_S64x2048x14x14_S64x2048x196 := by
  simp only [hostOps0]
  after_results
  rfl

/-- Flattened position p * 14 + q of an image's channel is row p, column q of its window: the two indices have the
    same row-major position, ((b · 2048 + ch) · 14 + p) · 14 + q = (b · 2048 + ch) · 196 + (p · 14 + q). -/
private theorem flat_at (x : S64x2048x14x14.Idx → EReal) (b : Fin 64) (ch : Fin 2048) (p q : Fin 14) :
    shapeCast S64x2048x196 x shapeCasts_S64x2048x14x14_S64x2048x196
        (ix3 b ch (⟨p.val * 14 + q.val, by have := p.isLt; have := q.isLt; omega⟩ : Fin 196))
      = x (ix4 b ch p q) :=
  shapeCast_apply x _ _ _ (by
    rw [Shape.rowMajor_val_four, Shape.rowMajor_val_three]
    show ((b.val * 2048 + ch.val) * 14 + p.val) * 14 + q.val = (b.val * 2048 + ch.val) * 196 + (p.val * 14 + q.val)
    ring)

/-- A maximum over the 196 flattened positions is the maximum over the 14 × 14 window. -/
theorem flat_pool (x : S64x2048x14x14.Idx → EReal) (b : Fin 64) (ch : Fin 2048) :
    (Finset.univ.sup fun k : Fin 196 => shapeCast S64x2048x196 x shapeCasts_S64x2048x14x14_S64x2048x196 (ix3 b ch k))
      = Cert.Spec.pool x (ix2 b ch) := by
  show _ = Finset.univ.sup fun p : Fin 14 × Fin 14 => x (ix4 b ch p.1 p.2)
  apply le_antisymm
  · -- every flattened position k is the window position (k / 14, k % 14)
    refine Finset.sup_le fun k _ => ?_
    have h1 : k.val / 14 < 14 := by have := k.isLt; omega
    have h2 : k.val % 14 < 14 := Nat.mod_lt _ (by decide)
    have hk : k = (⟨(⟨k.val / 14, h1⟩ : Fin 14).val * 14 + (⟨k.val % 14, h2⟩ : Fin 14).val, by
        show k.val / 14 * 14 + k.val % 14 < 196
        have := k.isLt; omega⟩ : Fin 196) :=
      Fin.ext (by show k.val = k.val / 14 * 14 + k.val % 14; omega)
    rw [hk, flat_at]
    exact Finset.le_sup (f := fun p : Fin 14 × Fin 14 => x (ix4 b ch p.1 p.2))
      (Finset.mem_univ ((⟨k.val / 14, h1⟩, ⟨k.val % 14, h2⟩) : Fin 14 × Fin 14))
  · -- every window position (p, q) is the flattened position p * 14 + q
    refine Finset.sup_le fun pq _ => ?_
    obtain ⟨p, q⟩ := pq
    show x (ix4 b ch p q) ≤ _
    rw [← flat_at x b ch p q]
    exact Finset.le_sup
      (f := fun k : Fin 196 => shapeCast S64x2048x196 x shapeCasts_S64x2048x14x14_S64x2048x196 (ix3 b ch k))
      (Finset.mem_univ _)

/-- The node features as a matrix, in the first layer's format. -/
theorem v30_value (W : Valuation τ sig (Elt Ideal)) :
    (after (hostOps1 (F := Ideal)) W (Proc.devRef .tc main_v30) : S1000x300.Idx → EReal)
      = Cert.Spec.nodes (W (Proc.devRef .tc main_arg1)) := by
  have e : (after (hostOps1 (F := Ideal)) W (Proc.devRef .tc main_v30) : S1000x300.Idx → EReal)
      = truncf .bf16 (shapeCast S1000x300 (W (Proc.devRef .tc main_arg1) : S1x1000x300.Idx → EReal)
          shapeCasts_S1x1000x300_S1000x300 : FVec Ideal S1000x300 .f32) bitsLt_bf16_f32 := by
    simp only [hostOps1]
    after_results_simp
    rfl
  funext j
  obtain ⟨n, c, rfl⟩ : ∃ (n : Fin 1000) (c : Fin 300), j = ix2 n c := ⟨j 0, j 1, eq_ix2 j⟩
  rw [e, truncf_apply, shapeCast_1ab_ab_apply]
  rfl

/-- The first layer's left weights, format changed. -/
theorem v31_value (W : Valuation τ sig (Elt Ideal)) :
    (after (hostOps1 (F := Ideal)) W (Proc.devRef .tc main_v31) : S300x1024.Idx → EReal)
      = (W (Proc.devRef .tc main_arg3) : S300x1024.Idx → EReal) := by
  simp only [hostOps1]
  after_results_simp
  rfl

/-- The first layer's right weights, format changed. -/
theorem v32_value (W : Valuation τ sig (Elt Ideal)) :
    (after (hostOps1 (F := Ideal)) W (Proc.devRef .tc main_v32) : S300x1024.Idx → EReal)
      = (W (Proc.devRef .tc main_arg5) : S300x1024.Idx → EReal) := by
  simp only [hostOps1]
  after_results_simp
  rfl

/-- The first layer's output, format changed. -/
theorem v34_value (W : Valuation τ sig (Elt Ideal)) :
    (after (hostOps2 (F := Ideal)) W (Proc.devRef .tc main_v34) : S1000x1024.Idx → EReal)
      = (W (Proc.devRef .tc main_v33) : S1000x1024.Idx → EReal) := by
  simp only [hostOps2]
  after_results
  rfl

/-- The second layer's left weights, format changed. -/
theorem v35_value (W : Valuation τ sig (Elt Ideal)) :
    (after (hostOps2 (F := Ideal)) W (Proc.devRef .tc main_v35) : S1024x2048.Idx → EReal)
      = (W (Proc.devRef .tc main_arg6) : S1024x2048.Idx → EReal) := by
  simp only [hostOps2]
  after_results
  rfl

/-- The second layer's right weights, format changed. -/
theorem v36_value (W : Valuation τ sig (Elt Ideal)) :
    (after (hostOps2 (F := Ideal)) W (Proc.devRef .tc main_v36) : S1024x2048.Idx → EReal)
      = (W (Proc.devRef .tc main_arg8) : S1024x2048.Idx → EReal) := by
  simp only [hostOps2]
  after_results
  rfl

end Cert.KernelIdeal.KHost

end
-- ==== Proof.KernelValue.lean ====
/-
  The kernel program's result, as a function of its arguments.

  The result buffer is the scoring region's output: the pooled maxima times the transpose of the second layer's
  output. Walking back through the run: the pooled maxima are what the pooling region wrote, untouched since;
  the second layer's output is the second layer's body on the adjacency table, the first layer's output and the
  second layer's weights, each as the host stretch before it left them; the first layer's output is the first
  layer's body on the same adjacency table, the node features and the first layer's weights. The adjacency
  table is built once, before the first layer, and both layers read it. Every buffer a region only reads, and
  every buffer a host stretch does not write, keeps its contents.
-/
import proofs.«428741_j30288109371889_1_alg».proof.Proof.Gen.KernelIdeal.Frame
import proofs.«428741_j30288109371889_1_alg».proof.Proof.KRegion
import proofs.«428741_j30288109371889_1_alg».proof.Proof.KPayLayer
import proofs.«428741_j30288109371889_1_alg».proof.Proof.KPayEnds
import proofs.«428741_j30288109371889_1_alg».proof.Proof.KAdj
import proofs.«428741_j30288109371889_1_alg».proof.Proof.KHost
import proofs.«428741_j30288109371889_1_alg».proof.Proof.Spec

set_option maxRecDepth 16384

noncomputable section

namespace Cert.KernelIdeal.KValue

open Cert.KernelIdeal Cert.KernelIdeal.Gen Idealize.ShloMosaic Idealize.ShloMosaic.TcCoe Idealize.SL.Sem Idealize.ShloMosaic.ValueIdx
open Cert.KernelIdeal.KRegion Cert.KernelIdeal.KPay Cert.KernelIdeal.KHost

variable (m : (ℓ : Loc nD τ sig) → Buf (Elt Ideal) ℓ) (ρ : Dev nD → PrngReg)

/-- A buffer that no operation of a host stretch writes keeps its contents through the stretch. -/
local macro "host_keeps " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

/-! ## The pooled maxima -/

/-- The pooled buffer is untouched from the pooling region's exit to the scoring region's entry. -/
theorem pooled_kept (c : Dev nD) : W6 m ρ c (Proc.devRef .tc main_v1) = W2 m ρ c (Proc.devRef .tc main_v1) :=
  calc W6 m ρ c (Proc.devRef .tc main_v1)
    _ = W5 m ρ c (Proc.devRef .tc main_v1) := W6_of_ne m ρ c main_v1 (by decide)
    _ = W4 m ρ c (Proc.devRef .tc main_v1) := by host_keeps hostOps2
    _ = W3 m ρ c (Proc.devRef .tc main_v1) := W4_of_ne m ρ c main_v1 (by decide)
    _ = W2 m ρ c (Proc.devRef .tc main_v1) := by host_keeps hostOps1

/-- At the scoring region's entry the pooled buffer holds each image's channel maxima over its window. -/
theorem pooled (c : Dev nD) :
    (W6 m ρ c (Proc.devRef .tc main_v1) : S64x2048.Idx → EReal) = Cert.Spec.pool (m ((c : Thread nD τ).loc main_arg0)) := by
  rw [pooled_kept]
  have h2 : W2 m ρ c (Proc.devRef .tc main_v1) = (dat0 (V1 m ρ) c).arrAt 1 cfg0.N := W2_arr m ρ c 1
  rw [h2]
  funext j
  obtain ⟨b, ch, rfl⟩ : ∃ (b : Fin 64) (ch : Fin 2048), j = ix2 b ch := ⟨j 0, j 1, eq_ix2 j⟩
  rw [arr0 (V1 m ρ) c _ (v0_value (W0 m ρ c)) b ch]
  exact flat_pool _ b ch

/-! ## The adjacency table, built once -/

/-- At the first layer's entry the adjacency buffer holds the table of the edge array. -/
theorem adj3 (c : Dev nD) :
    (W3 m ρ c (Proc.devRef .tc main_v29) : S1000x1000.Idx → EReal) = Cert.Spec.adj (m ((c : Thread nD τ).loc main_arg2)) := by
  have h : W2 m ρ c (Proc.devRef .tc main_arg2) = m ((c : Thread nD τ).loc main_arg2) :=
    calc W2 m ρ c (Proc.devRef .tc main_arg2)
      _ = W1 m ρ c (Proc.devRef .tc main_arg2) := W2_of_ne m ρ c main_arg2 (by decide)
      _ = W0 m ρ c (Proc.devRef .tc main_arg2) := by host_keeps hostOps0
      _ = m ((c : Thread nD τ).loc main_arg2) := rfl
  rw [← h]
  exact adj_value (W2 m ρ c)

/-- The first layer only reads the adjacency buffer, and the host stretch after it does not write it. -/
theorem adj5 (c : Dev nD) : W5 m ρ c (Proc.devRef .tc main_v29) = W3 m ρ c (Proc.devRef .tc main_v29) :=
  calc W5 m ρ c (Proc.devRef .tc main_v29)
    _ = W4 m ρ c (Proc.devRef .tc main_v29) := by host_keeps hostOps2
    _ = W3 m ρ c (Proc.devRef .tc main_v29) := (W4_arr m ρ c 0).trans (((dat1 (V3 m ρ) c).arrAt_in 0 rfl _).trans (A_eq1 (V3 m ρ) c 0))

/-! ## An argument array as a host stretch finds it -/

/-- An argument array at the pooling region's exit is as launched. -/
theorem arg_at2 (c : Dev nD) (b : Ref sig .tc) (h2 : ∀ w, Pipeline.arrRef spec0 w ≠ b)
    (h0 : W1 m ρ c (Proc.devRef .tc b) = W0 m ρ c (Proc.devRef .tc b)) :
    W2 m ρ c (Proc.devRef .tc b) = W0 m ρ c (Proc.devRef .tc b) :=
  (W2_of_ne m ρ c b h2).trans h0

/-! ## The arguments as each stretch finds them -/

theorem arg1_at2 (c : Dev nD) : W2 m ρ c (Proc.devRef .tc main_arg1) = m ((c : Thread nD τ).loc main_arg1) :=
  arg_at2 m ρ c main_arg1 (by decide) (by host_keeps hostOps0)
theorem arg3_at2 (c : Dev nD) : W2 m ρ c (Proc.devRef .tc main_arg3) = m ((c : Thread nD τ).loc main_arg3) :=
  arg_at2 m ρ c main_arg3 (by decide) (by host_keeps hostOps0)
theorem arg4_at2 (c : Dev nD) : W2 m ρ c (Proc.devRef .tc main_arg4) = m ((c : Thread nD τ).loc main_arg4) :=
  arg_at2 m ρ c main_arg4 (by decide) (by host_keeps hostOps0)
theorem arg5_at2 (c : Dev nD) : W2 m ρ c (Proc.devRef .tc main_arg5) = m ((c : Thread nD τ).loc main_arg5) :=
  arg_at2 m ρ c main_arg5 (by decide) (by host_keeps hostOps0)
theorem arg6_at2 (c : Dev nD) : W2 m ρ c (Proc.devRef .tc main_arg6) = m ((c : Thread nD τ).loc main_arg6) :=
  arg_at2 m ρ c main_arg6 (by decide) (by host_keeps hostOps0)
theorem arg7_at2 (c : Dev nD) : W2 m ρ c (Proc.devRef .tc main_arg7) = m ((c : Thread nD τ).loc main_arg7) :=
  arg_at2 m ρ c main_arg7 (by decide) (by host_keeps hostOps0)
theorem arg8_at2 (c : Dev nD) : W2 m ρ c (Proc.devRef .tc main_arg8) = m ((c : Thread nD τ).loc main_arg8) :=
  arg_at2 m ρ c main_arg8 (by decide) (by host_keeps hostOps0)

/-- The first layer's bias at its entry: no host operation before it writes the bias. -/
theorem bias1 (c : Dev nD) : W3 m ρ c (Proc.devRef .tc main_arg4) = m ((c : Thread nD τ).loc main_arg4) :=
  (by host_keeps hostOps1 : W3 m ρ c (Proc.devRef .tc main_arg4) = W2 m ρ c (Proc.devRef .tc main_arg4)).trans (arg4_at2 m ρ c)

/-- The second layer's weights and bias at the first layer's exit are as launched: the first layer touches none. -/
theorem arg6_at4 (c : Dev nD) : W4 m ρ c (Proc.devRef .tc main_arg6) = m ((c : Thread nD τ).loc main_arg6) :=
  (W4_of_ne m ρ c main_arg6 (by decide)).trans
    ((by host_keeps hostOps1 : W3 m ρ c (Proc.devRef .tc main_arg6) = W2 m ρ c (Proc.devRef .tc main_arg6)).trans (arg6_at2 m ρ c))
theorem arg7_at4 (c : Dev nD) : W4 m ρ c (Proc.devRef .tc main_arg7) = m ((c : Thread nD τ).loc main_arg7) :=
  (W4_of_ne m ρ c main_arg7 (by decide)).trans
    ((by host_keeps hostOps1 : W3 m ρ c (Proc.devRef .tc main_arg7) = W2 m ρ c (Proc.devRef .tc main_arg7)).trans (arg7_at2 m ρ c))
theorem arg8_at4 (c : Dev nD) : W4 m ρ c (Proc.devRef .tc main_arg8) = m ((c : Thread nD τ).loc main_arg8) :=
  (W4_of_ne m ρ c main_arg8 (by decide)).trans
    ((by host_keeps hostOps1 : W3 m ρ c (Proc.devRef .tc main_arg8) = W2 m ρ c (Proc.devRef .tc main_arg8)).trans (arg8_at2 m ρ c))

/-! ## The two layers -/

/-- The first layer's output at its region's exit: the rectified layer, the mean taken through the table. -/
theorem hidden (c : Dev nD) :
    (W4 m ρ c (Proc.devRef .tc main_v33) : S1000x1024.Idx → EReal)
      = Cert.Spec.leaky (Cert.Spec.layer (Cert.Spec.meanByTable (m ((c : Thread nD τ).loc main_arg2)) (Cert.Spec.nodes (m ((c : Thread nD τ).loc main_arg1))))
          (Cert.Spec.nodes (m ((c : Thread nD τ).loc main_arg1))) (m ((c : Thread nD τ).loc main_arg3)) (m ((c : Thread nD τ).loc main_arg4)) (m ((c : Thread nD τ).loc main_arg5))) := by
  have h4 : W4 m ρ c (Proc.devRef .tc main_v33) = (dat1 (V3 m ρ) c).arrAt 5 cfg1.N := W4_arr m ρ c 5
  rw [h4, arr1 (V3 m ρ) c, out1_eq]
  have e29 : (V3 m ρ c main_v29 : S1000x1000.Idx → EReal) = Cert.Spec.adj (m ((c : Thread nD τ).loc main_arg2)) := adj3 m ρ c
  have e30 : (V3 m ρ c main_v30 : S1000x300.Idx → EReal) = Cert.Spec.nodes (m ((c : Thread nD τ).loc main_arg1)) := by
    rw [← arg1_at2 m ρ c]; exact v30_value (W2 m ρ c)
  have e31 : (V3 m ρ c main_v31 : S300x1024.Idx → EReal) = m ((c : Thread nD τ).loc main_arg3) := by
    rw [← arg3_at2 m ρ c]; exact v31_value (W2 m ρ c)
  have e32 : (V3 m ρ c main_v32 : S300x1024.Idx → EReal) = m ((c : Thread nD τ).loc main_arg5) := by
    rw [← arg5_at2 m ρ c]; exact v32_value (W2 m ρ c)
  have e4 : (V3 m ρ c main_arg4 : S1024.Idx → EReal) = m ((c : Thread nD τ).loc main_arg4) := bias1 m ρ c
  rw [e29, e30, e31, e32, e4]
  rfl

/-- The second layer's output at its region's exit: the layer on the first layer's output, the mean taken
    through the same table. -/
theorem second (c : Dev nD) (h1 : Cert.Spec.Mat 1000 1024) (hh : (W4 m ρ c (Proc.devRef .tc main_v33) : S1000x1024.Idx → EReal) = h1) :
    (W6 m ρ c (Proc.devRef .tc main_v37) : S1000x2048.Idx → EReal)
      = Cert.Spec.layer (Cert.Spec.meanByTable (m ((c : Thread nD τ).loc main_arg2)) h1) h1
          (m ((c : Thread nD τ).loc main_arg6)) (m ((c : Thread nD τ).loc main_arg7)) (m ((c : Thread nD τ).loc main_arg8)) := by
  have h6 : W6 m ρ c (Proc.devRef .tc main_v37) = (dat2 (V5 m ρ) c).arrAt 5 cfg2.N := W6_arr m ρ c 5
  rw [h6, arr2 (V5 m ρ) c, out2_eq]
  have e29 : (V5 m ρ c main_v29 : S1000x1000.Idx → EReal) = Cert.Spec.adj (m ((c : Thread nD τ).loc main_arg2)) :=
    (adj5 m ρ c).trans (adj3 m ρ c)
  have e34 : (V5 m ρ c main_v34 : S1000x1024.Idx → EReal) = h1 := (v34_value (W4 m ρ c)).trans hh
  have e35 : (V5 m ρ c main_v35 : S1024x2048.Idx → EReal) = m ((c : Thread nD τ).loc main_arg6) := by
    rw [← arg6_at4 m ρ c]; exact v35_value (W4 m ρ c)
  have e36 : (V5 m ρ c main_v36 : S1024x2048.Idx → EReal) = m ((c : Thread nD τ).loc main_arg8) := by
    rw [← arg8_at4 m ρ c]; exact v36_value (W4 m ρ c)
  have e7 : (V5 m ρ c main_arg7 : S2048.Idx → EReal) = m ((c : Thread nD τ).loc main_arg7) :=
    (by host_keeps hostOps2 : W5 m ρ c (Proc.devRef .tc main_arg7) = W4 m ρ c (Proc.devRef .tc main_arg7)).trans (arg7_at4 m ρ c)
  rw [e29, e34, e35, e36, e7]
  rfl

/-! ## The result -/

/-- The result buffer's final contents are the table program's scores of the arguments. -/
theorem value (c : Dev nD) :
    (W7 m ρ c (Proc.devRef .tc main_v38) : S64x1000.Idx → EReal)
      = Cert.Spec.GK (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  have h7 : W7 m ρ c (Proc.devRef .tc main_v38) = (dat3 (V6 m ρ) c).arrAt 2 cfg3.N := W7_arr m ρ c 2
  rw [h7, arr3 (V6 m ρ) c, out3_eq]
  have ep : (V6 m ρ c main_v1 : S64x2048.Idx → EReal) = Cert.Spec.pool (m ((c : Thread nD τ).loc main_arg0)) := pooled m ρ c
  have eh : (V6 m ρ c main_v37 : S1000x2048.Idx → EReal) = _ := second m ρ c _ (hidden m ρ c)
  rw [ep, eh]
  rfl

end Cert.KernelIdeal.KValue

end
-- ==== Proof.RefRun.lean ====
/-
  The reference program's run.

  Its @main is a straight line of host operations: the channel maxima, the node features and the two rows of
  edge words; the first layer (the source rows gathered, added up per destination, divided by the in-degree,
  the two products and the bias) followed by the rectifier, whose outlined body — a comparison with zero, the
  slope times the argument, and a select — runs at its call; the second layer the same way; and the final
  product with the transposed node rows. Listed in order, the line runs to completion and leaves every buffer
  at the operations' fold over the launch contents. The list is cut in three stretches (up to the edge words,
  the first layer with its rectifier, the rest) so that each can be read by itself.
-/
import proofs.«428741_j30288109371889_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Up to the edge words: the channel maxima, the node features as a matrix, the source and destination words. -/
abbrev ops0 : List (HloOp τ sig (Elt F)) :=
  [ nullary main_cst (constant S_ .f32 0xFF800000#32),
    binary main_arg0 main_cst main_v0 ((fun x v => Host.reduce FloatOps.maximumf x v reducesTo_S64x2048x14x14_S64x2048_d2_3 h_S_) : (⟨S64x2048x14x14, .f32⟩ : BufTy).Contents (Elt F) → (⟨S_, .f32⟩ : BufTy).Contents (Elt F) → (⟨S64x2048, .f32⟩ : BufTy).Contents (Elt F)),
    reshape main_arg1 main_v1 rfl shapeCasts_S1x1000x300_S1000x300,
    unary main_arg2 main_v2 ((extractStridedSlice S1x40000 ![0, 0] · slices_S2x40000_S1x40000_0_0) : (⟨S2x40000, .i32⟩ : BufTy).Contents (Elt F) → (⟨S1x40000, .i32⟩ : BufTy).Contents (Elt F)),
    reshape main_v2 main_v3 rfl shapeCasts_S1x40000_S40000,
    unary main_arg2 main_v4 ((extractStridedSlice S1x40000 ![1, 0] · slices_S2x40000_S1x40000_1_0) : (⟨S2x40000, .i32⟩ : BufTy).Contents (Elt F) → (⟨S1x40000, .i32⟩ : BufTy).Contents (Elt F)),
    reshape main_v4 main_v5 rfl shapeCasts_S1x40000_S40000 ]

/-- The first layer and its rectifier (the outlined rectifier's seven operations at its call). -/
abbrev ops1 : List (HloOp τ sig (Elt F)) :=
  [ nullary main_c (constantI S_ 32 0#32),
    unary main_c main_v6 (broadcastInDim S40000 ![] bcast_S_S40000 : (⟨S_, .i32⟩ : BufTy).Contents (Elt F) → (⟨S40000, .i32⟩ : BufTy).Contents (Elt F)),
    binary main_v3 main_v6 main_v7 (cmpi .slt : (⟨S40000, .i32⟩ : BufTy).Contents (Elt F) → (⟨S40000, .i32⟩ : BufTy).Contents (Elt F) → (⟨S40000, .i1⟩ : BufTy).Contents (Elt F)),
    nullary main_c_0 (constantI S_ 32 1000#32),
    unary main_c_0 main_v8 (broadcastInDim S40000 ![] bcast_S_S40000 : (⟨S_, .i32⟩ : BufTy).Contents (Elt F) → (⟨S40000, .i32⟩ : BufTy).Contents (Elt F)),
    binary main_v3 main_v8 main_v9 (addi : (⟨S40000, .i32⟩ : BufTy).Contents (Elt F) → (⟨S40000, .i32⟩ : BufTy).Contents (Elt F) → (⟨S40000, .i32⟩ : BufTy).Contents (Elt F)),
    ternary main_v7 main_v9 main_v3 main_v10 (select : (⟨S40000, .i1⟩ : BufTy).Contents (Elt F) → (⟨S40000, .i32⟩ : BufTy).Contents (Elt F) → (⟨S40000, .i32⟩ : BufTy).Contents (Elt F) → (⟨S40000, .i32⟩ : BufTy).Contents (Elt F)),
    unary main_v10 main_v11 (broadcastInDim S40000x1 ![0] bcast_S40000_S40000x1_0 : (⟨S40000, .i32⟩ : BufTy).Contents (Elt F) → (⟨S40000x1, .i32⟩ : BufTy).Contents (Elt F)),
    binary main_v1 main_v11 main_v12 ((fun x i => Host.gather gather_S1000x300_S40000x1_S40000x300_1_0_n_n_0_1_1300 x i) : (⟨S1000x300, .f32⟩ : BufTy).Contents (Elt F) → (⟨S40000x1, .i32⟩ : BufTy).Contents (Elt F) → (⟨S40000x300, .f32⟩ : BufTy).Contents (Elt F)),
    nullary main_cst_1 (constant S_ .f32 0x00000000#32),
    unary main_cst_1 main_v13 (broadcastInDim S1000x300 ![] bcast_S_S1000x300 : (⟨S_, .f32⟩ : BufTy).Contents (Elt F) → (⟨S1000x300, .f32⟩ : BufTy).Contents (Elt F)),
    unary main_v5 main_v14 (broadcastInDim S40000x1 ![0] bcast_S40000_S40000x1_0 : (⟨S40000, .i32⟩ : BufTy).Contents (Elt F) → (⟨S40000x1, .i32⟩ : BufTy).Contents (Elt F)),
    ternary main_v13 main_v14 main_v12 main_v15 ((fun x i u => Host.scatterAdd scatter_S1000x300_S40000x1_S40000x300_1_0_0_1 x i u) : (⟨S1000x300, .f32⟩ : BufTy).Contents (Elt F) → (⟨S40000x1, .i32⟩ : BufTy).Contents (Elt F) → (⟨S40000x300, .f32⟩ : BufTy).Contents (Elt F) → (⟨S1000x300, .f32⟩ : BufTy).Contents (Elt F)),
    nullary main_cst_2 (constant S_ .f32 0x3F800000#32),
    unary main_cst_2 main_v16 (broadcastInDim S40000 ![] bcast_S_S40000 : (⟨S_, .f32⟩ : BufTy).Contents (Elt F) → (⟨S40000, .f32⟩ : BufTy).Contents (Elt F)),
    nullary main_cst_3 (constant S_ .f32 0x00000000#32),
    unary main_cst_3 main_v17 (broadcastInDim S1000 ![] bcast_S_S1000 : (⟨S_, .f32⟩ : BufTy).Contents (Elt F) → (⟨S1000, .f32⟩ : BufTy).Contents (Elt F)),
    unary main_v5 main_v18 (broadcastInDim S40000x1 ![0] bcast_S40000_S40000x1_0 : (⟨S40000, .i32⟩ : BufTy).Contents (Elt F) → (⟨S40000x1, .i32⟩ : BufTy).Contents (Elt F)),
    ternary main_v17 main_v18 main_v16 main_v19 ((fun x i u => Host.scatterAdd scatter_S1000_S40000x1_S40000_n_0_0_1 x i u) : (⟨S1000, .f32⟩ : BufTy).Contents (Elt F) → (⟨S40000x1, .i32⟩ : BufTy).Contents (Elt F) → (⟨S40000, .f32⟩ : BufTy).Contents (Elt F) → (⟨S1000, .f32⟩ : BufTy).Contents (Elt F)),
    nullary main_cst_4 (constant S_ .f32 0x3F800000#32),
    unary main_cst_4 main_v20 (broadcastInDim S1000 ![] bcast_S_S1000 : (⟨S_, .f32⟩ : BufTy).Contents (Elt F) → (⟨S1000, .f32⟩ : BufTy).Contents (Elt F)),
    binary main_v19 main_v20 main_v21 (maximumf : (⟨S1000, .f32⟩ : BufTy).Contents (Elt F) → (⟨S1000, .f32⟩ : BufTy).Contents (Elt F) → (⟨S1000, .f32⟩ : BufTy).Contents (Elt F)),
    unary main_v21 main_v22 (broadcastInDim S1000x1 ![0] bcast_S1000_S1000x1_0 : (⟨S1000, .f32⟩ : BufTy).Contents (Elt F) → (⟨S1000x1, .f32⟩ : BufTy).Contents (Elt F)),
    unary main_v22 main_v23 (broadcastInDim S1000x300 ![0, 1] bcast_S1000x1_S1000x300_0_1 : (⟨S1000x1, .f32⟩ : BufTy).Contents (Elt F) → (⟨S1000x300, .f32⟩ : BufTy).Contents (Elt F)),
    binary main_v15 main_v23 main_v24 (Host.divf : (⟨S1000x300, .f32⟩ : BufTy).Contents (Elt F) → (⟨S1000x300, .f32⟩ : BufTy).Contents (Elt F) → (⟨S1000x300, .f32⟩ : BufTy).Contents (Elt F)),
    binary main_v24 main_arg3 main_v25 ((fun l r => Host.dotGeneral dot_S1000x300_S300x1024_S1000x1024_1_0_0_1_n_n none l r) : (⟨S1000x300, .f32⟩ : BufTy).Contents (Elt F) → (⟨S300x1024, .f32⟩ : BufTy).Contents (Elt F) → (⟨S1000x1024, .f32⟩ : BufTy).Contents (Elt F)),
    unary main_arg4 main_v26 (broadcastInDim S1x1024 ![1] bcast_S1024_S1x1024_1 : (⟨S1024, .f32⟩ : BufTy).Contents (Elt F) → (⟨S1x1024, .f32⟩ : BufTy).Contents (Elt F)),
    unary main_v26 main_v27 (broadcastInDim S1000x1024 ![0, 1] bcast_S1x1024_S1000x1024_0_1 : (⟨S1x1024, .f32⟩ : BufTy).Contents (Elt F) → (⟨S1000x1024, .f32⟩ : BufTy).Contents (Elt F)),
    binary main_v25 main_v27 main_v28 (addf : (⟨S1000x1024, .f32⟩ : BufTy).Contents (Elt F) → (⟨S1000x1024, .f32⟩ : BufTy).Contents (Elt F) → (⟨S1000x1024, .f32⟩ : BufTy).Contents (Elt F)),
    binary main_v1 main_arg5 main_v29 ((fun l r => Host.dotGeneral dot_S1000x300_S300x1024_S1000x1024_1_0_0_1_n_n none l r) : (⟨S1000x300, .f32⟩ : BufTy).Contents (Elt F) → (⟨S300x1024, .f32⟩ : BufTy).Contents (Elt F) → (⟨S1000x1024, .f32⟩ : BufTy).Contents (Elt F)),
    binary main_v28 main_v29 main_v30 (addf : (⟨S1000x1024, .f32⟩ : BufTy).Contents (Elt F) → (⟨S1000x1024, .f32⟩ : BufTy).Contents (Elt F) → (⟨S1000x1024, .f32⟩ : BufTy).Contents (Elt F)),
    nullary main_cst_5 (constant S_ .f32 0x3E4CCCCD#32),
    TRef.nullary main_call0.cst (constant S_ .f32 0x00000000#32),
    TRef.unary main_call0.cst main_call0.v0 (broadcastInDim S1000x1024 ![] bcast_S_S1000x1024),
    TRef.binary (.of main_v30) main_call0.v0 main_call0.v1 (cmpf .oge),
    TRef.unary (.of main_cst_5) main_call0.v2 id,
    TRef.unary main_call0.v2 main_call0.v3 (broadcastInDim S1000x1024 ![] bcast_S_S1000x1024),
    TRef.binary main_call0.v3 (.of main_v30) main_call0.v4 mulf,
    TRef.ternary main_call0.v1 (.of main_v30) main_call0.v4 main_call0.call0.v0 select ]

/-- The second layer and the final product. -/
abbrev ops2 : List (HloOp τ sig (Elt F)) :=
  [ nullary main_c_6 (constantI S_ 32 0#32),
    unary main_c_6 main_v32 (broadcastInDim S40000 ![] bcast_S_S40000 : (⟨S_, .i32⟩ : BufTy).Contents (Elt F) → (⟨S40000, .i32⟩ : BufTy).Contents (Elt F)),
    binary main_v3 main_v32 main_v33 (cmpi .slt : (⟨S40000, .i32⟩ : BufTy).Contents (Elt F) → (⟨S40000, .i32⟩ : BufTy).Contents (Elt F) → (⟨S40000, .i1⟩ : BufTy).Contents (Elt F)),
    nullary main_c_7 (constantI S_ 32 1000#32),
    unary main_c_7 main_v34 (broadcastInDim S40000 ![] bcast_S_S40000 : (⟨S_, .i32⟩ : BufTy).Contents (Elt F) → (⟨S40000, .i32⟩ : BufTy).Contents (Elt F)),
    binary main_v3 main_v34 main_v35 (addi : (⟨S40000, .i32⟩ : BufTy).Contents (Elt F) → (⟨S40000, .i32⟩ : BufTy).Contents (Elt F) → (⟨S40000, .i32⟩ : BufTy).Contents (Elt F)),
    ternary main_v33 main_v35 main_v3 main_v36 (select : (⟨S40000, .i1⟩ : BufTy).Contents (Elt F) → (⟨S40000, .i32⟩ : BufTy).Contents (Elt F) → (⟨S40000, .i32⟩ : BufTy).Contents (Elt F) → (⟨S40000, .i32⟩ : BufTy).Contents (Elt F)),
    unary main_v36 main_v37 (broadcastInDim S40000x1 ![0] bcast_S40000_S40000x1_0 : (⟨S40000, .i32⟩ : BufTy).Contents (Elt F) → (⟨S40000x1, .i32⟩ : BufTy).Contents (Elt F)),
    binary main_v31 main_v37 main_v38 ((fun x i => Host.gather gather_S1000x1024_S40000x1_S40000x1024_1_0_n_n_0_1_11024 x i) : (⟨S1000x1024, .f32⟩ : BufTy).Contents (Elt F) → (⟨S40000x1, .i32⟩ : BufTy).Contents (Elt F) → (⟨S40000x1024, .f32⟩ : BufTy).Contents (Elt F)),
    nullary main_cst_8 (constant S_ .f32 0x00000000#32),
    unary main_cst_8 main_v39 (broadcastInDim S1000x1024 ![] bcast_S_S1000x1024 : (⟨S_, .f32⟩ : BufTy).Contents (Elt F) → (⟨S1000x1024, .f32⟩ : BufTy).Contents (Elt F)),
    unary main_v5 main_v40 (broadcastInDim S40000x1 ![0] bcast_S40000_S40000x1_0 : (⟨S40000, .i32⟩ : BufTy).Contents (Elt F) → (⟨S40000x1, .i32⟩ : BufTy).Contents (Elt F)),
    ternary main_v39 main_v40 main_v38 main_v41 ((fun x i u => Host.scatterAdd scatter_S1000x1024_S40000x1_S40000x1024_1_0_0_1 x i u) : (⟨S1000x1024, .f32⟩ : BufTy).Contents (Elt F) → (⟨S40000x1, .i32⟩ : BufTy).Contents (Elt F) → (⟨S40000x1024, .f32⟩ : BufTy).Contents (Elt F) → (⟨S1000x1024, .f32⟩ : BufTy).Contents (Elt F)),
    nullary main_cst_9 (constant S_ .f32 0x3F800000#32),
    unary main_cst_9 main_v42 (broadcastInDim S40000 ![] bcast_S_S40000 : (⟨S_, .f32⟩ : BufTy).Contents (Elt F) → (⟨S40000, .f32⟩ : BufTy).Contents (Elt F)),
    nullary main_cst_10 (constant S_ .f32 0x00000000#32),
    unary main_cst_10 main_v43 (broadcastInDim S1000 ![] bcast_S_S1000 : (⟨S_, .f32⟩ : BufTy).Contents (Elt F) → (⟨S1000, .f32⟩ : BufTy).Contents (Elt F)),
    unary main_v5 main_v44 (broadcastInDim S40000x1 ![0] bcast_S40000_S40000x1_0 : (⟨S40000, .i32⟩ : BufTy).Contents (Elt F) → (⟨S40000x1, .i32⟩ : BufTy).Contents (Elt F)),
    ternary main_v43 main_v44 main_v42 main_v45 ((fun x i u => Host.scatterAdd scatter_S1000_S40000x1_S40000_n_0_0_1 x i u) : (⟨S1000, .f32⟩ : BufTy).Contents (Elt F) → (⟨S40000x1, .i32⟩ : BufTy).Contents (Elt F) → (⟨S40000, .f32⟩ : BufTy).Contents (Elt F) → (⟨S1000, .f32⟩ : BufTy).Contents (Elt F)),
    nullary main_cst_11 (constant S_ .f32 0x3F800000#32),
    unary main_cst_11 main_v46 (broadcastInDim S1000 ![] bcast_S_S1000 : (⟨S_, .f32⟩ : BufTy).Contents (Elt F) → (⟨S1000, .f32⟩ : BufTy).Contents (Elt F)),
    binary main_v45 main_v46 main_v47 (maximumf : (⟨S1000, .f32⟩ : BufTy).Contents (Elt F) → (⟨S1000, .f32⟩ : BufTy).Contents (Elt F) → (⟨S1000, .f32⟩ : BufTy).Contents (Elt F)),
    unary main_v47 main_v48 (broadcastInDim S1000x1 ![0] bcast_S1000_S1000x1_0 : (⟨S1000, .f32⟩ : BufTy).Contents (Elt F) → (⟨S1000x1, .f32⟩ : BufTy).Contents (Elt F)),
    unary main_v48 main_v49 (broadcastInDim S1000x1024 ![0, 1] bcast_S1000x1_S1000x1024_0_1 : (⟨S1000x1, .f32⟩ : BufTy).Contents (Elt F) → (⟨S1000x1024, .f32⟩ : BufTy).Contents (Elt F)),
    binary main_v41 main_v49 main_v50 (Host.divf : (⟨S1000x1024, .f32⟩ : BufTy).Contents (Elt F) → (⟨S1000x1024, .f32⟩ : BufTy).Contents (Elt F) → (⟨S1000x1024, .f32⟩ : BufTy).Contents (Elt F)),
    binary main_v50 main_arg6 main_v51 ((fun l r => Host.dotGeneral dot_S1000x1024_S1024x2048_S1000x2048_1_0_0_1_n_n none l r) : (⟨S1000x1024, .f32⟩ : BufTy).Contents (Elt F) → (⟨S1024x2048, .f32⟩ : BufTy).Contents (Elt F) → (⟨S1000x2048, .f32⟩ : BufTy).Contents (Elt F)),
    unary main_arg7 main_v52 (broadcastInDim S1x2048 ![1] bcast_S2048_S1x2048_1 : (⟨S2048, .f32⟩ : BufTy).Contents (Elt F) → (⟨S1x2048, .f32⟩ : BufTy).Contents (Elt F)),
    unary main_v52 main_v53 (broadcastInDim S1000x2048 ![0, 1] bcast_S1x2048_S1000x2048_0_1 : (⟨S1x2048, .f32⟩ : BufTy).Contents (Elt F) → (⟨S1000x2048, .f32⟩ : BufTy).Contents (Elt F)),
    binary main_v51 main_v53 main_v54 (addf : (⟨S1000x2048, .f32⟩ : BufTy).Contents (Elt F) → (⟨S1000x2048, .f32⟩ : BufTy).Contents (Elt F) → (⟨S1000x2048, .f32⟩ : BufTy).Contents (Elt F)),
    binary main_v31 main_arg8 main_v55 ((fun l r => Host.dotGeneral dot_S1000x1024_S1024x2048_S1000x2048_1_0_0_1_n_n none l r) : (⟨S1000x1024, .f32⟩ : BufTy).Contents (Elt F) → (⟨S1024x2048, .f32⟩ : BufTy).Contents (Elt F) → (⟨S1000x2048, .f32⟩ : BufTy).Contents (Elt F)),
    binary main_v54 main_v55 main_v56 (addf : (⟨S1000x2048, .f32⟩ : BufTy).Contents (Elt F) → (⟨S1000x2048, .f32⟩ : BufTy).Contents (Elt F) → (⟨S1000x2048, .f32⟩ : BufTy).Contents (Elt F)),
    unary main_v56 main_v57 ((transpose S2048x1000 [1, 0] · transposes_S1000x2048_S2048x1000_1_0) : (⟨S1000x2048, .f32⟩ : BufTy).Contents (Elt F) → (⟨S2048x1000, .f32⟩ : BufTy).Contents (Elt F)),
    binary main_v0 main_v57 main_v58 ((fun l r => Host.dotGeneral dot_S64x2048_S2048x1000_S64x1000_1_0_0_1_n_n none l r) : (⟨S64x2048, .f32⟩ : BufTy).Contents (Elt F) → (⟨S2048x1000, .f32⟩ : BufTy).Contents (Elt F) → (⟨S64x1000, .f32⟩ : BufTy).Contents (Elt F)) ]

/-- @main's operations, in order. -/
abbrev ops : List (HloOp τ sig (Elt F)) :=
  [ nullary main_cst (constant S_ .f32 0xFF800000#32),
    binary main_arg0 main_cst main_v0 ((fun x v => Host.reduce FloatOps.maximumf x v reducesTo_S64x2048x14x14_S64x2048_d2_3 h_S_) : (⟨S64x2048x14x14, .f32⟩ : BufTy).Contents (Elt F) → (⟨S_, .f32⟩ : BufTy).Contents (Elt F) → (⟨S64x2048, .f32⟩ : BufTy).Contents (Elt F)),
    reshape main_arg1 main_v1 rfl shapeCasts_S1x1000x300_S1000x300,
    unary main_arg2 main_v2 ((extractStridedSlice S1x40000 ![0, 0] · slices_S2x40000_S1x40000_0_0) : (⟨S2x40000, .i32⟩ : BufTy).Contents (Elt F) → (⟨S1x40000, .i32⟩ : BufTy).Contents (Elt F)),
    reshape main_v2 main_v3 rfl shapeCasts_S1x40000_S40000,
    unary main_arg2 main_v4 ((extractStridedSlice S1x40000 ![1, 0] · slices_S2x40000_S1x40000_1_0) : (⟨S2x40000, .i32⟩ : BufTy).Contents (Elt F) → (⟨S1x40000, .i32⟩ : BufTy).Contents (Elt F)),
    reshape main_v4 main_v5 rfl shapeCasts_S1x40000_S40000,
    nullary main_c (constantI S_ 32 0#32),
    unary main_c main_v6 (broadcastInDim S40000 ![] bcast_S_S40000 : (⟨S_, .i32⟩ : BufTy).Contents (Elt F) → (⟨S40000, .i32⟩ : BufTy).Contents (Elt F)),
    binary main_v3 main_v6 main_v7 (cmpi .slt : (⟨S40000, .i32⟩ : BufTy).Contents (Elt F) → (⟨S40000, .i32⟩ : BufTy).Contents (Elt F) → (⟨S40000, .i1⟩ : BufTy).Contents (Elt F)),
    nullary main_c_0 (constantI S_ 32 1000#32),
    unary main_c_0 main_v8 (broadcastInDim S40000 ![] bcast_S_S40000 : (⟨S_, .i32⟩ : BufTy).Contents (Elt F) → (⟨S40000, .i32⟩ : BufTy).Contents (Elt F)),
    binary main_v3 main_v8 main_v9 (addi : (⟨S40000, .i32⟩ : BufTy).Contents (Elt F) → (⟨S40000, .i32⟩ : BufTy).Contents (Elt F) → (⟨S40000, .i32⟩ : BufTy).Contents (Elt F)),
    ternary main_v7 main_v9 main_v3 main_v10 (select : (⟨S40000, .i1⟩ : BufTy).Contents (Elt F) → (⟨S40000, .i32⟩ : BufTy).Contents (Elt F) → (⟨S40000, .i32⟩ : BufTy).Contents (Elt F) → (⟨S40000, .i32⟩ : BufTy).Contents (Elt F)),
    unary main_v10 main_v11 (broadcastInDim S40000x1 ![0] bcast_S40000_S40000x1_0 : (⟨S40000, .i32⟩ : BufTy).Contents (Elt F) → (⟨S40000x1, .i32⟩ : BufTy).Contents (Elt F)),
    binary main_v1 main_v11 main_v12 ((fun x i => Host.gather gather_S1000x300_S40000x1_S40000x300_1_0_n_n_0_1_1300 x i) : (⟨S1000x300, .f32⟩ : BufTy).Contents (Elt F) → (⟨S40000x1, .i32⟩ : BufTy).Contents (Elt F) → (⟨S40000x300, .f32⟩ : BufTy).Contents (Elt F)),
    nullary main_cst_1 (constant S_ .f32 0x00000000#32),
    unary main_cst_1 main_v13 (broadcastInDim S1000x300 ![] bcast_S_S1000x300 : (⟨S_, .f32⟩ : BufTy).Contents (Elt F) → (⟨S1000x300, .f32⟩ : BufTy).Contents (Elt F)),
    unary main_v5 main_v14 (broadcastInDim S40000x1 ![0] bcast_S40000_S40000x1_0 : (⟨S40000, .i32⟩ : BufTy).Contents (Elt F) → (⟨S40000x1, .i32⟩ : BufTy).Contents (Elt F)),
    ternary main_v13 main_v14 main_v12 main_v15 ((fun x i u => Host.scatterAdd scatter_S1000x300_S40000x1_S40000x300_1_0_0_1 x i u) : (⟨S1000x300, .f32⟩ : BufTy).Contents (Elt F) → (⟨S40000x1, .i32⟩ : BufTy).Contents (Elt F) → (⟨S40000x300, .f32⟩ : BufTy).Contents (Elt F) → (⟨S1000x300, .f32⟩ : BufTy).Contents (Elt F)),
    nullary main_cst_2 (constant S_ .f32 0x3F800000#32),
    unary main_cst_2 main_v16 (broadcastInDim S40000 ![] bcast_S_S40000 : (⟨S_, .f32⟩ : BufTy).Contents (Elt F) → (⟨S40000, .f32⟩ : BufTy).Contents (Elt F)),
    nullary main_cst_3 (constant S_ .f32 0x00000000#32),
    unary main_cst_3 main_v17 (broadcastInDim S1000 ![] bcast_S_S1000 : (⟨S_, .f32⟩ : BufTy).Contents (Elt F) → (⟨S1000, .f32⟩ : BufTy).Contents (Elt F)),
    unary main_v5 main_v18 (broadcastInDim S40000x1 ![0] bcast_S40000_S40000x1_0 : (⟨S40000, .i32⟩ : BufTy).Contents (Elt F) → (⟨S40000x1, .i32⟩ : BufTy).Contents (Elt F)),
    ternary main_v17 main_v18 main_v16 main_v19 ((fun x i u => Host.scatterAdd scatter_S1000_S40000x1_S40000_n_0_0_1 x i u) : (⟨S1000, .f32⟩ : BufTy).Contents (Elt F) → (⟨S40000x1, .i32⟩ : BufTy).Contents (Elt F) → (⟨S40000, .f32⟩ : BufTy).Contents (Elt F) → (⟨S1000, .f32⟩ : BufTy).Contents (Elt F)),
    nullary main_cst_4 (constant S_ .f32 0x3F800000#32),
    unary main_cst_4 main_v20 (broadcastInDim S1000 ![] bcast_S_S1000 : (⟨S_, .f32⟩ : BufTy).Contents (Elt F) → (⟨S1000, .f32⟩ : BufTy).Contents (Elt F)),
    binary main_v19 main_v20 main_v21 (maximumf : (⟨S1000, .f32⟩ : BufTy).Contents (Elt F) → (⟨S1000, .f32⟩ : BufTy).Contents (Elt F) → (⟨S1000, .f32⟩ : BufTy).Contents (Elt F)),
    unary main_v21 main_v22 (broadcastInDim S1000x1 ![0] bcast_S1000_S1000x1_0 : (⟨S1000, .f32⟩ : BufTy).Contents (Elt F) → (⟨S1000x1, .f32⟩ : BufTy).Contents (Elt F)),
    unary main_v22 main_v23 (broadcastInDim S1000x300 ![0, 1] bcast_S1000x1_S1000x300_0_1 : (⟨S1000x1, .f32⟩ : BufTy).Contents (Elt F) → (⟨S1000x300, .f32⟩ : BufTy).Contents (Elt F)),
    binary main_v15 main_v23 main_v24 (Host.divf : (⟨S1000x300, .f32⟩ : BufTy).Contents (Elt F) → (⟨S1000x300, .f32⟩ : BufTy).Contents (Elt F) → (⟨S1000x300, .f32⟩ : BufTy).Contents (Elt F)),
    binary main_v24 main_arg3 main_v25 ((fun l r => Host.dotGeneral dot_S1000x300_S300x1024_S1000x1024_1_0_0_1_n_n none l r) : (⟨S1000x300, .f32⟩ : BufTy).Contents (Elt F) → (⟨S300x1024, .f32⟩ : BufTy).Contents (Elt F) → (⟨S1000x1024, .f32⟩ : BufTy).Contents (Elt F)),
    unary main_arg4 main_v26 (broadcastInDim S1x1024 ![1] bcast_S1024_S1x1024_1 : (⟨S1024, .f32⟩ : BufTy).Contents (Elt F) → (⟨S1x1024, .f32⟩ : BufTy).Contents (Elt F)),
    unary main_v26 main_v27 (broadcastInDim S1000x1024 ![0, 1] bcast_S1x1024_S1000x1024_0_1 : (⟨S1x1024, .f32⟩ : BufTy).Contents (Elt F) → (⟨S1000x1024, .f32⟩ : BufTy).Contents (Elt F)),
    binary main_v25 main_v27 main_v28 (addf : (⟨S1000x1024, .f32⟩ : BufTy).Contents (Elt F) → (⟨S1000x1024, .f32⟩ : BufTy).Contents (Elt F) → (⟨S1000x1024, .f32⟩ : BufTy).Contents (Elt F)),
    binary main_v1 main_arg5 main_v29 ((fun l r => Host.dotGeneral dot_S1000x300_S300x1024_S1000x1024_1_0_0_1_n_n none l r) : (⟨S1000x300, .f32⟩ : BufTy).Contents (Elt F) → (⟨S300x1024, .f32⟩ : BufTy).Contents (Elt F) → (⟨S1000x1024, .f32⟩ : BufTy).Contents (Elt F)),
    binary main_v28 main_v29 main_v30 (addf : (⟨S1000x1024, .f32⟩ : BufTy).Contents (Elt F) → (⟨S1000x1024, .f32⟩ : BufTy).Contents (Elt F) → (⟨S1000x1024, .f32⟩ : BufTy).Contents (Elt F)),
    nullary main_cst_5 (constant S_ .f32 0x3E4CCCCD#32),
    TRef.nullary main_call0.cst (constant S_ .f32 0x00000000#32),
    TRef.unary main_call0.cst main_call0.v0 (broadcastInDim S1000x1024 ![] bcast_S_S1000x1024),
    TRef.binary (.of main_v30) main_call0.v0 main_call0.v1 (cmpf .oge),
    TRef.unary (.of main_cst_5) main_call0.v2 id,
    TRef.unary main_call0.v2 main_call0.v3 (broadcastInDim S1000x1024 ![] bcast_S_S1000x1024),
    TRef.binary main_call0.v3 (.of main_v30) main_call0.v4 mulf,
    TRef.ternary main_call0.v1 (.of main_v30) main_call0.v4 main_call0.call0.v0 select,
    nullary main_c_6 (constantI S_ 32 0#32),
    unary main_c_6 main_v32 (broadcastInDim S40000 ![] bcast_S_S40000 : (⟨S_, .i32⟩ : BufTy).Contents (Elt F) → (⟨S40000, .i32⟩ : BufTy).Contents (Elt F)),
    binary main_v3 main_v32 main_v33 (cmpi .slt : (⟨S40000, .i32⟩ : BufTy).Contents (Elt F) → (⟨S40000, .i32⟩ : BufTy).Contents (Elt F) → (⟨S40000, .i1⟩ : BufTy).Contents (Elt F)),
    nullary main_c_7 (constantI S_ 32 1000#32),
    unary main_c_7 main_v34 (broadcastInDim S40000 ![] bcast_S_S40000 : (⟨S_, .i32⟩ : BufTy).Contents (Elt F) → (⟨S40000, .i32⟩ : BufTy).Contents (Elt F)),
    binary main_v3 main_v34 main_v35 (addi : (⟨S40000, .i32⟩ : BufTy).Contents (Elt F) → (⟨S40000, .i32⟩ : BufTy).Contents (Elt F) → (⟨S40000, .i32⟩ : BufTy).Contents (Elt F)),
    ternary main_v33 main_v35 main_v3 main_v36 (select : (⟨S40000, .i1⟩ : BufTy).Contents (Elt F) → (⟨S40000, .i32⟩ : BufTy).Contents (Elt F) → (⟨S40000, .i32⟩ : BufTy).Contents (Elt F) → (⟨S40000, .i32⟩ : BufTy).Contents (Elt F)),
    unary main_v36 main_v37 (broadcastInDim S40000x1 ![0] bcast_S40000_S40000x1_0 : (⟨S40000, .i32⟩ : BufTy).Contents (Elt F) → (⟨S40000x1, .i32⟩ : BufTy).Contents (Elt F)),
    binary main_v31 main_v37 main_v38 ((fun x i => Host.gather gather_S1000x1024_S40000x1_S40000x1024_1_0_n_n_0_1_11024 x i) : (⟨S1000x1024, .f32⟩ : BufTy).Contents (Elt F) → (⟨S40000x1, .i32⟩ : BufTy).Contents (Elt F) → (⟨S40000x1024, .f32⟩ : BufTy).Contents (Elt F)),
    nullary main_cst_8 (constant S_ .f32 0x00000000#32),
    unary main_cst_8 main_v39 (broadcastInDim S1000x1024 ![] bcast_S_S1000x1024 : (⟨S_, .f32⟩ : BufTy).Contents (Elt F) → (⟨S1000x1024, .f32⟩ : BufTy).Contents (Elt F)),
    unary main_v5 main_v40 (broadcastInDim S40000x1 ![0] bcast_S40000_S40000x1_0 : (⟨S40000, .i32⟩ : BufTy).Contents (Elt F) → (⟨S40000x1, .i32⟩ : BufTy).Contents (Elt F)),
    ternary main_v39 main_v40 main_v38 main_v41 ((fun x i u => Host.scatterAdd scatter_S1000x1024_S40000x1_S40000x1024_1_0_0_1 x i u) : (⟨S1000x1024, .f32⟩ : BufTy).Contents (Elt F) → (⟨S40000x1, .i32⟩ : BufTy).Contents (Elt F) → (⟨S40000x1024, .f32⟩ : BufTy).Contents (Elt F) → (⟨S1000x1024, .f32⟩ : BufTy).Contents (Elt F)),
    nullary main_cst_9 (constant S_ .f32 0x3F800000#32),
    unary main_cst_9 main_v42 (broadcastInDim S40000 ![] bcast_S_S40000 : (⟨S_, .f32⟩ : BufTy).Contents (Elt F) → (⟨S40000, .f32⟩ : BufTy).Contents (Elt F)),
    nullary main_cst_10 (constant S_ .f32 0x00000000#32),
    unary main_cst_10 main_v43 (broadcastInDim S1000 ![] bcast_S_S1000 : (⟨S_, .f32⟩ : BufTy).Contents (Elt F) → (⟨S1000, .f32⟩ : BufTy).Contents (Elt F)),
    unary main_v5 main_v44 (broadcastInDim S40000x1 ![0] bcast_S40000_S40000x1_0 : (⟨S40000, .i32⟩ : BufTy).Contents (Elt F) → (⟨S40000x1, .i32⟩ : BufTy).Contents (Elt F)),
    ternary main_v43 main_v44 main_v42 main_v45 ((fun x i u => Host.scatterAdd scatter_S1000_S40000x1_S40000_n_0_0_1 x i u) : (⟨S1000, .f32⟩ : BufTy).Contents (Elt F) → (⟨S40000x1, .i32⟩ : BufTy).Contents (Elt F) → (⟨S40000, .f32⟩ : BufTy).Contents (Elt F) → (⟨S1000, .f32⟩ : BufTy).Contents (Elt F)),
    nullary main_cst_11 (constant S_ .f32 0x3F800000#32),
    unary main_cst_11 main_v46 (broadcastInDim S1000 ![] bcast_S_S1000 : (⟨S_, .f32⟩ : BufTy).Contents (Elt F) → (⟨S1000, .f32⟩ : BufTy).Contents (Elt F)),
    binary main_v45 main_v46 main_v47 (maximumf : (⟨S1000, .f32⟩ : BufTy).Contents (Elt F) → (⟨S1000, .f32⟩ : BufTy).Contents (Elt F) → (⟨S1000, .f32⟩ : BufTy).Contents (Elt F)),
    unary main_v47 main_v48 (broadcastInDim S1000x1 ![0] bcast_S1000_S1000x1_0 : (⟨S1000, .f32⟩ : BufTy).Contents (Elt F) → (⟨S1000x1, .f32⟩ : BufTy).Contents (Elt F)),
    unary main_v48 main_v49 (broadcastInDim S1000x1024 ![0, 1] bcast_S1000x1_S1000x1024_0_1 : (⟨S1000x1, .f32⟩ : BufTy).Contents (Elt F) → (⟨S1000x1024, .f32⟩ : BufTy).Contents (Elt F)),
    binary main_v41 main_v49 main_v50 (Host.divf : (⟨S1000x1024, .f32⟩ : BufTy).Contents (Elt F) → (⟨S1000x1024, .f32⟩ : BufTy).Contents (Elt F) → (⟨S1000x1024, .f32⟩ : BufTy).Contents (Elt F)),
    binary main_v50 main_arg6 main_v51 ((fun l r => Host.dotGeneral dot_S1000x1024_S1024x2048_S1000x2048_1_0_0_1_n_n none l r) : (⟨S1000x1024, .f32⟩ : BufTy).Contents (Elt F) → (⟨S1024x2048, .f32⟩ : BufTy).Contents (Elt F) → (⟨S1000x2048, .f32⟩ : BufTy).Contents (Elt F)),
    unary main_arg7 main_v52 (broadcastInDim S1x2048 ![1] bcast_S2048_S1x2048_1 : (⟨S2048, .f32⟩ : BufTy).Contents (Elt F) → (⟨S1x2048, .f32⟩ : BufTy).Contents (Elt F)),
    unary main_v52 main_v53 (broadcastInDim S1000x2048 ![0, 1] bcast_S1x2048_S1000x2048_0_1 : (⟨S1x2048, .f32⟩ : BufTy).Contents (Elt F) → (⟨S1000x2048, .f32⟩ : BufTy).Contents (Elt F)),
    binary main_v51 main_v53 main_v54 (addf : (⟨S1000x2048, .f32⟩ : BufTy).Contents (Elt F) → (⟨S1000x2048, .f32⟩ : BufTy).Contents (Elt F) → (⟨S1000x2048, .f32⟩ : BufTy).Contents (Elt F)),
    binary main_v31 main_arg8 main_v55 ((fun l r => Host.dotGeneral dot_S1000x1024_S1024x2048_S1000x2048_1_0_0_1_n_n none l r) : (⟨S1000x1024, .f32⟩ : BufTy).Contents (Elt F) → (⟨S1024x2048, .f32⟩ : BufTy).Contents (Elt F) → (⟨S1000x2048, .f32⟩ : BufTy).Contents (Elt F)),
    binary main_v54 main_v55 main_v56 (addf : (⟨S1000x2048, .f32⟩ : BufTy).Contents (Elt F) → (⟨S1000x2048, .f32⟩ : BufTy).Contents (Elt F) → (⟨S1000x2048, .f32⟩ : BufTy).Contents (Elt F)),
    unary main_v56 main_v57 ((transpose S2048x1000 [1, 0] · transposes_S1000x2048_S2048x1000_1_0) : (⟨S1000x2048, .f32⟩ : BufTy).Contents (Elt F) → (⟨S2048x1000, .f32⟩ : BufTy).Contents (Elt F)),
    binary main_v0 main_v57 main_v58 ((fun l r => Host.dotGeneral dot_S64x2048_S2048x1000_S64x1000_1_0_0_1_n_n none l r) : (⟨S64x2048, .f32⟩ : BufTy).Contents (Elt F) → (⟨S2048x1000, .f32⟩ : BufTy).Contents (Elt F) → (⟨S64x1000, .f32⟩ : BufTy).Contents (Elt F)) ]

/-- The whole line is its three stretches one after the other. -/
theorem ops_split : (ops : List (HloOp τ sig (Elt F))) = ops0 ++ (ops1 ++ ops2) := rfl

/-- The contents after two stretches run one after the other are the second's from the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

set_option maxRecDepth 16384 in
set_option maxHeartbeats 8000000 in
/-- @main is that straight line: the outlined functions unfolded at their calls, both sides are one chain of steps
    once sequencing is reassociated. -/
theorem main_eq (c : Dev nD) : main (F := F) c = seq ops := by
  simp only [main, main_part0, main_part1, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., unary_bufs_sub .., binary_bufs_sub ..⟩

/-- From any memory with zero counters every weakly fair execution of @main terminates, and every final state has
    each buffer at the operations' fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.LibGatherScatterRows.lean ====
/-
  A row-gather and an accumulating row-scatter, read at an index.

  A table of N rows and C columns is read through a column of E integer index words: result row e is the
  table's row at the e-th word, the word read as a signed integer and clamped into [0, N - 1]. In the other
  direction E update rows are added into a table of N rows: update row e lands in the row its word names,
  the word read as a signed integer and NOT clamped, and is dropped when that row is outside [0, N). Both
  facts are stated for arbitrary extents, from the dimension numbers alone. The scatter of E scalars into a
  vector of N entries is the same with the column axis left out.
-/
import Idealize.ShloMosaic.PureOps.Ideal
import Idealize.ShloMosaic.PureOps.Ideal.Laws
import Idealize.ShloMosaic.Lib.ValueIdx
import Idealize.ShloMosaic.Lib.ValueIdxRank1
import proofs.«428741_j30288109371889_1_alg».proof.Proof.Spec

noncomputable section

open scoped BigOperators

namespace Cert.LibRows

open Idealize.ShloMosaic Idealize.ShloMosaic.ValueIdx

/-! ## Indices from coordinates are equal exactly when the coordinates are -/

/-- Two rank-2 indices built from coordinates are equal exactly when both coordinates are. -/
theorem ix2_inj {n0 n1 : Nat} (a a' : Fin n0) (b b' : Fin n1) : ix2 a b = ix2 a' b' ↔ a = a' ∧ b = b' := by
  constructor
  · intro h
    exact ⟨congrFun h 0, congrFun h 1⟩
  · rintro ⟨rfl, rfl⟩; rfl

/-- Two rank-1 indices built from a coordinate are equal exactly when the coordinates are. -/
theorem ix1_inj {n : Nat} (a a' : Fin n) : ix1 a = ix1 a' ↔ a = a' := by
  constructor
  · intro h
    exact congrFun h 0
  · rintro rfl; rfl

/-! ## The gather -/

/-- A row gather read at (e, j): the table's entry in column j of the row the e-th start index names, that
    index read as a signed integer and clamped into [0, N - 1]. -/
theorem gather_rows {α : Type} {N E C w : Nat} (hN : 0 < N) (d : GatherDims ⟨2, ![N, C]⟩ ⟨2, ![E, 1]⟩ ⟨2, ![E, C]⟩)
    (hoff : d.offsetDims = [1]) (hcoll : d.collapsedSliceDims = [0]) (hob : d.operandBatchingDims = []) (hsb : d.startIndicesBatchingDims = [])
    (hsim : d.startIndexMap = [0]) (hivd : d.indexVectorDim = 1)
    (x : (⟨2, ![N, C]⟩ : Shape).Idx → α) (idx : IVec ⟨2, ![E, 1]⟩ w) (e : Fin E) (j : Fin C) :
    Host.gather d x idx (ix2 e j) = x (ix2 ⟨min (idx (ix2 e 0)).toInt.toNat (N - 1), by omega⟩ j) := by
  have hsl : d.sliceSizes 0 = 1 := d.slice_collapsed 0 (by rw [hcoll]; exact List.mem_singleton.mpr rfl)
  obtain ⟨od, cs, ob, sb, sim, ivd, ss, wf⟩ := d
  simp only at hoff hcoll hob hsb hsim hivd hsl
  subst hoff hcoll hob hsb hsim hivd
  unfold Host.gather
  congr 1
  funext a
  apply Fin.ext
  match a with
  | ⟨0, _⟩ =>
    -- the row axis: collapsed, so only the clamped start index counts, and the slice there has one row
    show GatherDims.start _ _ _ _ + GatherDims.batchCoord _ _ _ + GatherDims.offCoord _ _ _ = min (idx (ix2 e 0)).toInt.toNat (N - 1)
    rw [GatherDims.batchCoord_eq_zero _ _ _ List.not_mem_nil,
        GatherDims.offCoord_eq_zero _ _ _ (fun h => ((GatherDims.mem_sKept _ _).mp h).1 (List.mem_singleton.mpr rfl))]
    simp only [Nat.add_zero]
    unfold GatherDims.start
    split
    · show min (idx _).toInt.toNat (N - ss 0) = _
      rw [hsl]
      congr 3
      congr 1
      -- the start index of result (e, j) is read at (e, 0)
      funext b
      apply Fin.ext
      match b with
      | ⟨0, _⟩ => rfl
      | ⟨1, _⟩ => rfl
    · next hn => exact absurd (List.mem_singleton.mpr rfl) hn
  | ⟨1, _⟩ =>
    -- the column axis: no start index, no batching; the offset coordinate is the result's column
    show 0 + 0 + j.val = j.val
    omega

/-! ## Where an update of the row scatter lands -/

section Rows
variable {N E C : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0]) (hivd : d.indexVectorDim = 1)
include huw hiw hsd hivd

/-- On the row axis the window of update (e, j') starts at the e-th index word, read signed. -/
theorem rows_start0 (idx : IVec ⟨2, ![E, 1]⟩ 32) (e : Fin E) (j' : Fin C) :
    d.start (ix2 e j') idx 0 = (idx (ix2 e 0)).toInt := by
  obtain ⟨uw, iw, sd, ivd, wf⟩ := d
  simp only at huw hiw hsd hivd
  subst huw hiw hsd hivd
  unfold ScatterDims.start
  split
  · congr 2
    funext b
    apply Fin.ext
    match b with
    | ⟨0, _⟩ => rfl
    | ⟨1, _⟩ => rfl
  · next hn => exact absurd (List.mem_singleton.mpr rfl) hn

/-- On the column axis the window starts at 0: no index word names that axis. -/
theorem rows_start1 (idx : IVec ⟨2, ![E, 1]⟩ 32) (e : Fin E) (j' : Fin C) :
    d.start (ix2 e j') idx 1 = 0 := by
  obtain ⟨uw, iw, sd, ivd, wf⟩ := d
  simp only at huw hiw hsd hivd
  subst huw hiw hsd hivd
  rfl

/-- The row axis is an inserted one: the window coordinate there is 0. -/
theorem rows_window0 (e : Fin E) (j' : Fin C) : d.window (ix2 e j') 0 = 0 := by
  obtain ⟨uw, iw, sd, ivd, wf⟩ := d
  simp only at huw hiw hsd hivd
  subst huw hiw hsd hivd
  rfl

/-- On the column axis the window coordinate is the update's column. -/
theorem rows_window1 (e : Fin E) (j' : Fin C) : d.window (ix2 e j') 1 = j'.val := by
  obtain ⟨uw, iw, sd, ivd, wf⟩ := d
  simp only at huw hiw hsd hivd
  subst huw hiw hsd hivd
  rfl

/-- Update (e, j') lands in column j' of the row its index word names, and nowhere when that row is
    outside [0, N). -/
theorem rows_resultIdx (idx : IVec ⟨2, ![E, 1]⟩ 32) (e : Fin E) (j' : Fin C) :
    d.resultIdx? (ix2 e j') idx = (Cert.Spec.landIx N (idx (ix2 e 0))).map (fun n => ix2 n j') := by
  have h0 := rows_start0 d huw hiw hsd hivd idx e j'
  have h1 := rows_start1 d huw hiw hsd hivd idx e j'
  have w0 := rows_window0 d huw hiw hsd hivd e j'
  have w1 := rows_window1 d huw hiw hsd hivd e j'
  unfold ScatterDims.resultIdx? Cert.Spec.landIx
  by_cases h : 0 ≤ (idx (ix2 e 0)).toInt ∧ (idx (ix2 e 0)).toInt < N
  · -- in range on both axes: the column always is
    have hall : ∀ a : Fin 2, 0 ≤ d.start (ix2 e j') idx a + d.window (ix2 e j') a
        ∧ d.start (ix2 e j') idx a + d.window (ix2 e j') a < (⟨2, ![N, C]⟩ : Shape).size a := by
      intro a
      match a with
      | ⟨0, _⟩ =>
        show 0 ≤ d.start (ix2 e j') idx 0 + d.window (ix2 e j') 0 ∧ d.start (ix2 e j') idx 0 + d.window (ix2 e j') 0 < (N : Int)
        rw [h0, w0]; omega
      | ⟨1, _⟩ =>
        show 0 ≤ d.start (ix2 e j') idx 1 + d.window (ix2 e j') 1 ∧ d.start (ix2 e j') idx 1 + d.window (ix2 e j') 1 < (C : Int)
        rw [h1, w1]; have := j'.isLt; omega
    rw [dif_pos hall, dif_pos h]
    simp only [Option.map_some]
    congr 1
    funext a
    apply Fin.ext
    match a with
    | ⟨0, _⟩ =>
      show (d.start (ix2 e j') idx 0 + d.window (ix2 e j') 0).toNat = (idx (ix2 e 0)).toInt.toNat
      rw [h0, w0]; simp
    | ⟨1, _⟩ =>
      show (d.start (ix2 e j') idx 1 + d.window (ix2 e j') 1).toNat = j'.val
      rw [h1, w1]; simp
  · -- out of range on the row axis: the update is dropped
    have hnall : ¬ ∀ a : Fin 2, 0 ≤ d.start (ix2 e j') idx a + d.window (ix2 e j') a
        ∧ d.start (ix2 e j') idx a + d.window (ix2 e j') a < (⟨2, ![N, C]⟩ : Shape).size a := by
      intro hall
      have := hall 0
      rw [h0, w0] at this
      apply h
      have h' : (0:Int) ≤ (idx (ix2 e 0)).toInt + ((0:Nat):Int) ∧ (idx (ix2 e 0)).toInt + ((0:Nat):Int) < (N : Int) := this
      omega
    rw [dif_neg hnall, dif_neg h]
    rfl

end Rows

/-! ## Where an update of the scalar scatter lands -/

section Vec
variable {N E : Nat} (d : ScatterDims ⟨1, ![N]⟩ ⟨2, ![E, 1]⟩ ⟨1, ![E]⟩)
    (huw : d.updateWindowDims = []) (hiw : d.insertedWindowDims = [0]) (hsd : d.scatterDimsToOperandDims = [0]) (hivd : d.indexVectorDim = 1)
include huw hiw hsd hivd

/-- The window of update e starts at the e-th index word, read signed. -/
theorem vec_start0 (idx : IVec ⟨2, ![E, 1]⟩ 32) (e : Fin E) :
    d.start (ix1 e) idx 0 = (idx (ix2 e 0)).toInt := by
  obtain ⟨uw, iw, sd, ivd, wf⟩ := d
  simp only at huw hiw hsd hivd
  subst huw hiw hsd hivd
  unfold ScatterDims.start
  split
  · congr 2
    funext b
    apply Fin.ext
    match b with
    | ⟨0, _⟩ => rfl
    | ⟨1, _⟩ => rfl
  · next hn => exact absurd (List.mem_singleton.mpr rfl) hn

/-- The one axis is an inserted one: the window coordinate there is 0. -/
theorem vec_window0 (e : Fin E) : d.window (ix1 e) 0 = 0 := by
  obtain ⟨uw, iw, sd, ivd, wf⟩ := d
  simp only at huw hiw hsd hivd
  subst huw hiw hsd hivd
  rfl

/-- Update e lands at the entry its index word names, and nowhere when that is outside [0, N). -/
theorem vec_resultIdx (idx : IVec ⟨2, ![E, 1]⟩ 32) (e : Fin E) :
    d.resultIdx? (ix1 e) idx = (Cert.Spec.landIx N (idx (ix2 e 0))).map ix1 := by
  have h0 := vec_start0 d huw hiw hsd hivd idx e
  have w0 := vec_window0 d huw hiw hsd hivd e
  unfold ScatterDims.resultIdx? Cert.Spec.landIx
  by_cases h : 0 ≤ (idx (ix2 e 0)).toInt ∧ (idx (ix2 e 0)).toInt < N
  · have hall : ∀ a : Fin 1, 0 ≤ d.start (ix1 e) idx a + d.window (ix1 e) a
        ∧ d.start (ix1 e) idx a + d.window (ix1 e) a < (⟨1, ![N]⟩ : Shape).size a := by
      intro a
      match a with
      | ⟨0, _⟩ =>
        show 0 ≤ d.start (ix1 e) idx 0 + d.window (ix1 e) 0 ∧ d.start (ix1 e) idx 0 + d.window (ix1 e) 0 < (N : Int)
        rw [h0, w0]; omega
    rw [dif_pos hall, dif_pos h]
    simp only [Option.map_some]
    congr 1
    funext a
    apply Fin.ext
    match a with
    | ⟨0, _⟩ =>
      show (d.start (ix1 e) idx 0 + d.window (ix1 e) 0).toNat = (idx (ix2 e 0)).toInt.toNat
      rw [h0, w0]; simp
  · have hnall : ¬ ∀ a : Fin 1, 0 ≤ d.start (ix1 e) idx a + d.window (ix1 e) a
        ∧ d.start (ix1 e) idx a + d.window (ix1 e) a < (⟨1, ![N]⟩ : Shape).size a := by
      intro hall
      have := hall 0
      rw [h0, w0] at this
      apply h
      have h' : (0:Int) ≤ (idx (ix2 e 0)).toInt + ((0:Nat):Int) ∧ (idx (ix2 e 0)).toInt + ((0:Nat):Int) < (N : Int) := this
      omega
    rw [dif_neg hnall, dif_neg h]
    rfl

end Vec

/-! ## The scatters read at an index -/

/-- An accumulating row scatter read at (n, j): the table's entry plus the sum, over the update rows e whose
    index word lands in row n (read signed, not clamped, dropped outside [0, N)), of the update's entry (e, j). -/
theorem scatterAdd_rows {N E C : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0]) (hivd : d.indexVectorDim = 1)
    (x : (⟨2, ![N, C]⟩ : Shape).Idx → EReal) (idx : IVec ⟨2, ![E, 1]⟩ 32) (upd : (⟨2, ![E, C]⟩ : Shape).Idx → EReal) (n : Fin N) (j : Fin C) :
    Ideal.hostScatterAdd d x idx upd (ix2 n j)
      = x (ix2 n j) + ∑ e ∈ Finset.univ.filter (fun e : Fin E => Cert.Spec.landIx N (idx (ix2 e 0)) = some n), upd (ix2 e j) := by
  -- update (e, j') lands at (n, j) exactly when its word lands in row n and j' = j
  have key : ∀ (e : Fin E) (j' : Fin C), d.resultIdx? (ix2 e j') idx = some (ix2 n j)
      ↔ (Cert.Spec.landIx N (idx (ix2 e 0)) = some n ∧ j' = j) := by
    intro e j'
    rw [rows_resultIdx d huw hiw hsd hivd idx e j']
    cases hL : Cert.Spec.landIx N (idx (ix2 e 0)) with
    | none => simp
    | some m => simp only [Option.map_some, Option.some.injEq, ix2_inj]
  unfold Ideal.hostScatterAdd
  congr 1
  -- the sum over the update indices as a double sum; for each e the inner sum keeps at most the term j' = j
  rw [Finset.sum_filter, sum_idx2, Finset.sum_filter]
  refine Finset.sum_congr rfl fun e _ => ?_
  by_cases hl : Cert.Spec.landIx N (idx (ix2 e 0)) = some n
  · rw [if_pos hl, Finset.sum_eq_single j]
    · rw [if_pos ((key e j).2 ⟨hl, rfl⟩)]
    · intro j' _ hne
      rw [if_neg (fun h => hne ((key e j').1 h).2)]
    · intro h; exact absurd (Finset.mem_univ _) h
  · rw [if_neg hl]
    apply Finset.sum_eq_zero
    intro j' _
    rw [if_neg (fun h => hl ((key e j').1 h).1)]

/-- An accumulating scatter of scalars into a vector, read at n: the vector's entry plus the sum of the
    updates e whose index word lands at n (read signed, not clamped, dropped outside [0, N)). -/
theorem scatterAdd_vec {N E : Nat} (d : ScatterDims ⟨1, ![N]⟩ ⟨2, ![E, 1]⟩ ⟨1, ![E]⟩)
    (huw : d.updateWindowDims = []) (hiw : d.insertedWindowDims = [0]) (hsd : d.scatterDimsToOperandDims = [0]) (hivd : d.indexVectorDim = 1)
    (x : (⟨1, ![N]⟩ : Shape).Idx → EReal) (idx : IVec ⟨2, ![E, 1]⟩ 32) (upd : (⟨1, ![E]⟩ : Shape).Idx → EReal) (n : Fin N) :
    Ideal.hostScatterAdd d x idx upd (ix1 n)
      = x (ix1 n) + ∑ e ∈ Finset.univ.filter (fun e : Fin E => Cert.Spec.landIx N (idx (ix2 e 0)) = some n), upd (ix1 e) := by
  have key : ∀ (e : Fin E), d.resultIdx? (ix1 e) idx = some (ix1 n)
      ↔ Cert.Spec.landIx N (idx (ix2 e 0)) = some n := by
    intro e
    rw [vec_resultIdx d huw hiw hsd hivd idx e]
    cases hL : Cert.Spec.landIx N (idx (ix2 e 0)) with
    | none => simp
    | some m => simp only [Option.map_some, Option.some.injEq, ix1_inj]
  unfold Ideal.hostScatterAdd
  congr 1
  -- a rank-1 index is its coordinate: re-index the sum over the updates by e
  rw [Finset.sum_filter, Finset.sum_filter, ← Equiv.sum_comp (idxEquiv1 (n := E)).symm]
  refine Finset.sum_congr rfl fun e _ => ?_
  show (if d.resultIdx? (ix1 e) idx = some (ix1 n) then upd (ix1 e) else 0) = _
  by_cases hl : Cert.Spec.landIx N (idx (ix2 e 0)) = some n
  · rw [if_pos hl, if_pos ((key e).2 hl)]
  · rw [if_neg hl, if_neg (fun h => hl ((key e).1 h))]

/-- The row scatter as the host's accumulating scatter states it over the extended reals. -/
theorem scatterAdd_rows' {φ : FTy} {N E C : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0]) (hivd : d.indexVectorDim = 1)
    (x : FVec Ideal ⟨2, ![N, C]⟩ φ) (idx : IVec ⟨2, ![E, 1]⟩ 32) (upd : FVec Ideal ⟨2, ![E, C]⟩ φ) (n : Fin N) (j : Fin C) :
    Host.scatterAdd (F := Ideal) d x idx upd (ix2 n j)
      = x (ix2 n j) + ∑ e ∈ Finset.univ.filter (fun e : Fin E => Cert.Spec.landIx N (idx (ix2 e 0)) = some n), upd (ix2 e j) :=
  scatterAdd_rows d huw hiw hsd hivd x idx upd n j

/-- The scalar scatter as the host's accumulating scatter states it over the extended reals. -/
theorem scatterAdd_vec' {φ : FTy} {N E : Nat} (d : ScatterDims ⟨1, ![N]⟩ ⟨2, ![E, 1]⟩ ⟨1, ![E]⟩)
    (huw : d.updateWindowDims = []) (hiw : d.insertedWindowDims = [0]) (hsd : d.scatterDimsToOperandDims = [0]) (hivd : d.indexVectorDim = 1)
    (x : FVec Ideal ⟨1, ![N]⟩ φ) (idx : IVec ⟨2, ![E, 1]⟩ 32) (upd : FVec Ideal ⟨1, ![E]⟩ φ) (n : Fin N) :
    Host.scatterAdd (F := Ideal) d x idx upd (ix1 n)
      = x (ix1 n) + ∑ e ∈ Finset.univ.filter (fun e : Fin E => Cert.Spec.landIx N (idx (ix2 e 0)) = some n), upd (ix1 e) :=
  scatterAdd_vec d huw hiw hsd hivd x idx upd n

end Cert.LibRows

end
-- ==== Proof.RefStage0.lean ====
/-
  The reference's first stretch, read: the channel maxima over the 14 × 14 window (a maximum from −∞ over the two
  position axes), the one batch of node features as a matrix, and the two rows of the edge array as vectors of
  source words and destination words.
-/
import proofs.«428741_j30288109371889_1_alg».proof.Proof.RefRun
import proofs.«428741_j30288109371889_1_alg».proof.Proof.LibGatherScatterRows
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import proofs.«428741_j30288109371889_1_alg».proof.Proof.Spec

set_option maxRecDepth 16384

noncomputable section

open scoped BigOperators

namespace Cert.ReferenceIdeal.RefStage

open Cert.ReferenceIdeal Cert.ReferenceIdeal.Gen Cert.ReferenceIdeal.RefRun Idealize.ShloMosaic Idealize.ShloMosaic.TcCoe Idealize.SL.Sem Idealize.ShloMosaic.ValueIdx Idealize.ShloMosaic.StableHlo

/-- The word 0xFF800000 denotes −∞. -/
private theorem ofBits_negInf : Ideal.ofBits .f32 0xFF800000#32 = (⊥ : EReal) := by
  simp [Ideal.ofBits, Ideal.ieee]

/-- A fold of the maximum from −∞ over a finite set is the supremum over the set. -/
private theorem fold_maximumf_bot {ι : Type} (s : Finset ι) (f : ι → EReal) :
    s.fold (FloatOps.maximumf (F := Ideal) (φ := .f32)) (⊥ : EReal) f = s.sup f := by
  induction s using Finset.cons_induction with
  | empty => rfl
  | cons a s ha ih =>
    rw [Finset.fold_cons, Finset.sup_cons, ih]
    rfl

/-- Dropping the two position coordinates of (b, k, p, q) leaves (b, k). -/
private theorem drop_ix4 (h : S64x2048x14x14.ReducesTo [2, 3] S64x2048) (b : Fin 64) (k : Fin 2048) (p q : Fin 14) :
    h.drop (ix4 b k p q) = ix2 b k := by
  funext d
  match d with
  | ⟨0, _⟩ => exact Fin.ext rfl
  | ⟨1, _⟩ => exact Fin.ext rfl

/-- The indices that drop to (b, k) are the 14 × 14 positions of image b, channel k. -/
private theorem fiber_eq_image (h : S64x2048x14x14.ReducesTo [2, 3] S64x2048) (b : Fin 64) (k : Fin 2048) :
    (Finset.univ.filter fun i : S64x2048x14x14.Idx => h.drop i = ix2 b k)
      = Finset.univ.image (fun p : Fin 14 × Fin 14 => (ix4 b k p.1 p.2 : S64x2048x14x14.Idx)) := by
  ext i
  simp only [Finset.mem_filter, Finset.mem_univ, true_and, Finset.mem_image]
  constructor
  · intro hi
    obtain ⟨a, c, p, q, rfl⟩ : ∃ (a : Fin 64) (c : Fin 2048) (p q : Fin 14), i = ix4 a c p q :=
      ⟨i 0, i 1, i 2, i 3, eq_ix4 i⟩
    rw [drop_ix4] at hi
    have ha : a = b := congrFun hi 0
    have hc : c = k := congrFun hi 1
    subst ha hc
    exact ⟨(p, q), rfl⟩
  · rintro ⟨p, rfl⟩
    exact drop_ix4 h b k p.1 p.2

/-- Distinct positions are distinct indices. -/
private theorem ix4_pos_injective (b : Fin 64) (k : Fin 2048) :
    Function.Injective (fun p : Fin 14 × Fin 14 => (ix4 b k p.1 p.2 : S64x2048x14x14.Idx)) := by
  intro p p' e
  have e2 : p.1 = p'.1 := congrFun e 2
  have e3 : p.2 = p'.2 := congrFun e 3
  exact Prod.ext e2 e3

/-- The channel maxima. -/
theorem v0_value (W : Valuation τ sig (Elt Ideal)) :
    (after (ops0 (F := Ideal)) W (Proc.devRef .tc main_v0) : S64x2048.Idx → EReal) = Cert.Spec.pool (W (Proc.devRef .tc main_arg0)) := by
  dsimp only [ops0]
  after_results
  funext j
  obtain ⟨b, k, rfl⟩ : ∃ (b : Fin 64) (k : Fin 2048), j = ix2 b k := ⟨j 0, j 1, eq_ix2 j⟩
  rw [Host.reduce_eq_fold, fiber_eq_image, Finset.fold_image (fun p _ p' _ e => ix4_pos_injective b k e), constant_apply,
    ofBits_negInf, fold_maximumf_bot]
  rfl

/-- The node features as a matrix. -/
theorem v1_value (W : Valuation τ sig (Elt Ideal)) :
    (after (ops0 (F := Ideal)) W (Proc.devRef .tc main_v1) : S1000x300.Idx → EReal) = Cert.Spec.nodes (W (Proc.devRef .tc main_arg1)) := by
  dsimp only [ops0]
  after_results
  funext j
  obtain ⟨n, c, rfl⟩ : ∃ (n : Fin 1000) (c : Fin 300), j = ix2 n c := ⟨j 0, j 1, eq_ix2 j⟩
  exact shapeCast_1ab_ab_apply (W (Proc.devRef .tc main_arg1)) shapeCasts_S1x1000x300_S1000x300 n c

/-- Row r of the edge array, sliced out and flattened, reads the array at (r, e). -/
private theorem row_apply (x : S2x40000.Idx → BitVec 32) (r : Fin 2)
    (hs : S2x40000.Slices ![r.val, 0] S1x40000) (hc : S1x40000.ShapeCasts S40000) (e : Fin 40000) :
    shapeCast S40000 (extractStridedSlice S1x40000 ![r.val, 0] x hs) hc (ix1 e) = x (ix2 r e) := by
  rw [shapeCast_1a_a_apply]
  refine extractStridedSlice_apply _ x hs _ _ fun a => ?_
  match a with
  | ⟨0, _⟩ => show r.val = r.val + 0; rfl
  | ⟨1, _⟩ => show e.val = 0 + e.val; exact (Nat.zero_add _).symm

/-- The source words: row 0 of the edge array. -/
theorem v3_value (W : Valuation τ sig (Elt Ideal)) :
    (after (ops0 (F := Ideal)) W (Proc.devRef .tc main_v3) : S40000.Idx → BitVec 32)
      = fun i => (W (Proc.devRef .tc main_arg2) : S2x40000.Idx → BitVec 32) (ix2 0 (i 0)) := by
  dsimp only [ops0]
  after_results
  funext j
  obtain ⟨e, rfl⟩ : ∃ e : Fin 40000, j = ix1 e := ⟨j 0, eq_ix1 j⟩
  exact row_apply (W (Proc.devRef .tc main_arg2)) 0 slices_S2x40000_S1x40000_0_0 shapeCasts_S1x40000_S40000 e

/-- The destination words: row 1 of the edge array. -/
theorem v5_value (W : Valuation τ sig (Elt Ideal)) :
    (after (ops0 (F := Ideal)) W (Proc.devRef .tc main_v5) : S40000.Idx → BitVec 32)
      = fun i => (W (Proc.devRef .tc main_arg2) : S2x40000.Idx → BitVec 32) (ix2 1 (i 0)) := by
  dsimp only [ops0]
  after_results
  funext j
  obtain ⟨e, rfl⟩ : ∃ e : Fin 40000, j = ix1 e := ⟨j 0, eq_ix1 j⟩
  exact row_apply (W (Proc.devRef .tc main_arg2)) 1 slices_S2x40000_S1x40000_1_0 shapeCasts_S1x40000_S40000 e

end Cert.ReferenceIdeal.RefStage

end
-- ==== Proof.RefStage1.lean ====
/-
  The reference's second stretch, read: the first layer and its rectifier.

  The source words, moved up by 1000 when negative, gather rows of the node features (a word naming no row is
  clamped to the nearest); the gathered rows are added up per destination word as it is (a word naming no row
  is dropped); the same destination words add up ones into the in-degrees; each sum row is divided by the larger
  of its in-degree and one; the mean times the left weights, plus the bias on every row, plus the features times
  the right weights, goes through the rectifier: kept where non-negative, else the slope times it.
-/
import proofs.«428741_j30288109371889_1_alg».proof.Proof.RefRun
import proofs.«428741_j30288109371889_1_alg».proof.Proof.LibGatherScatterRows
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost
import proofs.«428741_j30288109371889_1_alg».proof.Proof.Spec

set_option maxRecDepth 16384

noncomputable section

open scoped BigOperators

namespace Cert.ReferenceIdeal.RefStage

open Cert.ReferenceIdeal Cert.ReferenceIdeal.Gen Cert.ReferenceIdeal.RefRun Idealize.ShloMosaic Idealize.ShloMosaic.TcCoe Idealize.SL.Sem Idealize.ShloMosaic.ValueIdx Idealize.ShloMosaic.StableHlo

/-! ## The mean over in-neighbours read at an entry, at any width

Rows gathered at the source index words, added up per destination index word into a table of zeros, and divided by
the number of updates landing in the row (ones added up the same way), taken as at least one. The three index
operations enter through their dimension numbers only, so the same reading serves every width. -/

/-- The gathered rows added up per destination, over the in-degree taken as at least one, at (n, c): the mean edge by
    edge, given that the source index words are the wrapped source words and the destination index words the
    destination words. -/
private theorem mean_read {d : Nat}
    (g : GatherDims ⟨2, ![1000, d]⟩ ⟨2, ![40000, 1]⟩ ⟨2, ![40000, d]⟩)
    (hg1 : g.offsetDims = [1]) (hg2 : g.collapsedSliceDims = [0]) (hg3 : g.operandBatchingDims = [])
    (hg4 : g.startIndicesBatchingDims = []) (hg5 : g.startIndexMap = [0]) (hg6 : g.indexVectorDim = 1)
    (sr : ScatterDims ⟨2, ![1000, d]⟩ ⟨2, ![40000, 1]⟩ ⟨2, ![40000, d]⟩)
    (hr1 : sr.updateWindowDims = [1]) (hr2 : sr.insertedWindowDims = [0]) (hr3 : sr.scatterDimsToOperandDims = [0])
    (hr4 : sr.indexVectorDim = 1)
    (sv : ScatterDims ⟨1, ![1000]⟩ ⟨2, ![40000, 1]⟩ ⟨1, ![40000]⟩)
    (hv1 : sv.updateWindowDims = []) (hv2 : sv.insertedWindowDims = [0]) (hv3 : sv.scatterDimsToOperandDims = [0])
    (hv4 : sv.indexVectorDim = 1)
    (ei : Cert.Spec.Edges) (x : Cert.Spec.Mat 1000 d) (si di : IVec ⟨2, ![40000, 1]⟩ 32)
    (hsi : ∀ e : Fin 40000, si (ix2 e 0) = Cert.Spec.wrapW (Cert.Spec.srcW ei e))
    (hdi : ∀ e : Fin 40000, di (ix2 e 0) = Cert.Spec.dstW ei e)
    (z : FVec Ideal ⟨2, ![1000, d]⟩ .f32) (hz : ∀ j, z j = 0)
    (z1 : FVec Ideal ⟨1, ![1000]⟩ .f32) (hz1 : ∀ j, z1 j = 0)
    (o : FVec Ideal ⟨1, ![40000]⟩ .f32) (ho : ∀ j, o j = 1)
    (n : Fin 1000) (c : Fin d) :
    Ideal.div (Host.scatterAdd (F := Ideal) sr z di (Host.gather g x si) (ix2 n c))
        (max (Host.scatterAdd (F := Ideal) sv z1 di o (ix1 n)) 1)
      = Cert.Spec.meanEdgesAt ei x n c := by
  rw [Cert.LibRows.scatterAdd_rows' sr hr1 hr2 hr3 hr4, Cert.LibRows.scatterAdd_vec' sv hv1 hv2 hv3 hv4,
    hz, hz1, zero_add, zero_add]
  unfold Cert.Spec.meanEdgesAt
  -- a gathered row is the table's row at the clamped wrapped source word
  have hrow : ∀ e : Fin 40000,
      Host.gather g x si (ix2 e c) = x (ix2 (Cert.Spec.clampIx (Cert.Spec.wrapW (Cert.Spec.srcW ei e))) c) := by
    intro e
    refine (Cert.LibRows.gather_rows (by norm_num) g hg1 hg2 hg3 hg4 hg5 hg6 x si e c).trans
      (congrArg (fun r => x (ix2 r c)) (Fin.ext ?_))
    show min (si (ix2 e 0)).toInt.toNat (1000 - 1) = min (Cert.Spec.wrapW (Cert.Spec.srcW ei e)).toInt.toNat 999
    rw [hsi]
  simp only [hdi, ho, hrow]

/-! ## The stretch as one term over its entry contents -/

/-- A vector of words with every negative word moved up by 1000. -/
private def wrapV (s : IVec S40000 32) : IVec S40000 32 :=
  select (cmpi .slt s (broadcastInDim S40000 ![] bcast_S_S40000 (constantI S_ 32 0#32)))
    (addi s (broadcastInDim S40000 ![] bcast_S_S40000 (constantI S_ 32 1000#32))) s

/-- A vector of words as a one-column array of index words. -/
private def colV (s : IVec S40000 32) : IVec S40000x1 32 :=
  broadcastInDim S40000x1 ![0] bcast_S40000_S40000x1_0 s

/-- The mean: the gathered source rows added up per destination word, divided by the in-degrees taken as at least one. -/
private def meanV (x : FVec Ideal S1000x300 .f32) (s d : IVec S40000 32) : FVec Ideal S1000x300 .f32 :=
  Host.divf (F := Ideal)
    (Host.scatterAdd (F := Ideal) scatter_S1000x300_S40000x1_S40000x300_1_0_0_1
      (broadcastInDim S1000x300 ![] bcast_S_S1000x300 (constant (F := Ideal) S_ .f32 0x00000000#32))
      (colV d)
      (Host.gather gather_S1000x300_S40000x1_S40000x300_1_0_n_n_0_1_1300 x (colV (wrapV s))))
    (broadcastInDim S1000x300 ![0, 1] bcast_S1000x1_S1000x300_0_1
      (broadcastInDim S1000x1 ![0] bcast_S1000_S1000x1_0
        (maximumf (F := Ideal)
          (Host.scatterAdd (F := Ideal) scatter_S1000_S40000x1_S40000_n_0_0_1
            (broadcastInDim S1000 ![] bcast_S_S1000 (constant (F := Ideal) S_ .f32 0x00000000#32))
            (colV d)
            (broadcastInDim S40000 ![] bcast_S_S40000 (constant (F := Ideal) S_ .f32 0x3F800000#32)))
          (broadcastInDim S1000 ![] bcast_S_S1000 (constant (F := Ideal) S_ .f32 0x3F800000#32)))))

/-- The layer before the rectifier: the mean times the left weights, plus the bias on every row, plus the features
    times the right weights. -/
private def preV (x : FVec Ideal S1000x300 .f32) (s d : IVec S40000 32) (Wl : FVec Ideal S300x1024 .f32)
    (b : FVec Ideal S1024 .f32) (Wr : FVec Ideal S300x1024 .f32) : FVec Ideal S1000x1024 .f32 :=
  addf (F := Ideal)
    (addf (F := Ideal)
      (Host.dotGeneral (F := Ideal) dot_S1000x300_S300x1024_S1000x1024_1_0_0_1_n_n none (meanV x s d) Wl)
      (broadcastInDim S1000x1024 ![0, 1] bcast_S1x1024_S1000x1024_0_1
        (broadcastInDim S1x1024 ![1] bcast_S1024_S1x1024_1 b)))
    (Host.dotGeneral (F := Ideal) dot_S1000x300_S300x1024_S1000x1024_1_0_0_1_n_n none x Wr)

/-- The rectifier: the argument where it is at least zero, else the slope times it. -/
private def rectV (a : FVec Ideal S1000x1024 .f32) : FVec Ideal S1000x1024 .f32 :=
  select (cmpf (F := Ideal) .oge a (broadcastInDim S1000x1024 ![] bcast_S_S1000x1024 (constant (F := Ideal) S_ .f32 0x00000000#32)))
    a
    (mulf (F := Ideal) (broadcastInDim S1000x1024 ![] bcast_S_S1000x1024 (constant (F := Ideal) S_ .f32 0x3E4CCCCD#32)) a)

/-- What the stretch leaves in the rectifier's result: that term over the entry contents. -/
private theorem stretch_eq (W : Valuation τ sig (Elt Ideal)) :
    (after (ops1 (F := Ideal)) W (Proc.devRef .tc main_v31) : S1000x1024.Idx → EReal)
      = rectV (preV (W (Proc.devRef .tc main_v1)) (W (Proc.devRef .tc main_v3)) (W (Proc.devRef .tc main_v5))
          (W (Proc.devRef .tc main_arg3)) (W (Proc.devRef .tc main_arg4)) (W (Proc.devRef .tc main_arg5))) := by
  simp only [ops1]
  after_results_simp
  simp only [TRef.ofBuf, TRef.toBuf, cast_eq]
  rfl

/-! ## The pieces read at an entry -/

/-- The mean term at (n, c) is the mean edge by edge, once the two word vectors are the edge array's rows. -/
private theorem meanV_read (ei : Cert.Spec.Edges) (x : Cert.Spec.Mat 1000 300) (s d : IVec S40000 32)
    (hs : s = fun i => ei (ix2 0 (i 0))) (hd : d = fun i => ei (ix2 1 (i 0))) (n : Fin 1000) (c : Fin 300) :
    meanV x s d (ix2 n c) = Cert.Spec.meanEdgesAt ei x n c := by
  subst hs hd
  -- the in-degree column broadcast along the rows reads the in-degree of the row
  have hb : ∀ v : FVec Ideal S1000 .f32,
      broadcastInDim S1000x300 ![0, 1] bcast_S1000x1_S1000x300_0_1
        (broadcastInDim S1000x1 ![0] bcast_S1000_S1000x1_0 v) (ix2 n c) = v (ix1 n) := by
    intro v
    show v _ = v _
    refine congrArg v (funext fun a => Fin.ext ?_)
    match a with
    | ⟨0, _⟩ => rfl
  have h1 : broadcastInDim S1000 ![] bcast_S_S1000 (constant (F := Ideal) S_ .f32 0x3F800000#32) (ix1 n) = (1 : EReal) := by
    rw [broadcastInDim_scalar_apply, constant_apply, Ideal.ofBits_one_f32]
  unfold meanV
  rw [hostDivf_apply, hb, maximumf_apply, h1]
  refine mean_read gather_S1000x300_S40000x1_S40000x300_1_0_n_n_0_1_1300 rfl rfl rfl rfl rfl rfl
    scatter_S1000x300_S40000x1_S40000x300_1_0_0_1 rfl rfl rfl rfl
    scatter_S1000_S40000x1_S40000_n_0_0_1 rfl rfl rfl rfl ei x _ _ (fun e => rfl) (fun e => rfl)
    _ (fun j => ?_) _ (fun j => ?_) _ (fun j => ?_) n c
  · rw [broadcastInDim_scalar_apply, constant_apply, Ideal.ofBits_zero_f32]
  · rw [broadcastInDim_scalar_apply, constant_apply, Ideal.ofBits_zero_f32]
  · rw [broadcastInDim_scalar_apply, constant_apply, Ideal.ofBits_one_f32]

/-- The bias broadcast to every row reads the bias at the entry's column. -/
private theorem bias_read (b : FVec Ideal S1024 .f32) (j : S1000x1024.Idx) :
    broadcastInDim S1000x1024 ![0, 1] bcast_S1x1024_S1000x1024_0_1
      (broadcastInDim S1x1024 ![1] bcast_S1024_S1x1024_1 b) j = b (ix1 (j 1)) := by
  show b _ = b _
  refine congrArg b (funext fun a => Fin.ext ?_)
  match a with
  | ⟨0, _⟩ => rfl

/-! ### The two products -/

private abbrev D := dot_S1000x300_S300x1024_S1000x1024_1_0_0_1_n_n

/-- The left operand is read on its row axis at the result's row … -/
private theorem lhs_0 (j : S1000x1024.Idx) (k : D.contr.Idx) : (D.lhsIdx j k 0 : ℕ) = j 0 := by
  simp [DotDims.lhsIdx, D, dot_S1000x300_S300x1024_S1000x1024_1_0_0_1_n_n]; rfl
/-- … and on its column axis at the inner position; -/
private theorem lhs_1 (j : S1000x1024.Idx) (k : D.contr.Idx) : (D.lhsIdx j k 1 : ℕ) = k ⟨0, by decide⟩ :=
  D.lhsIdx_val_of_single rfl j k
/-- the right operand on its row axis at the inner position … -/
private theorem rhs_0 (j : S1000x1024.Idx) (k : D.contr.Idx) : (D.rhsIdx j k 0 : ℕ) = k ⟨0, by decide⟩ :=
  D.rhsIdx_val_of_single rfl j k
/-- … and on its column axis at the result's column. -/
private theorem rhs_1 (j : S1000x1024.Idx) (k : D.contr.Idx) : (D.rhsIdx j k 1 : ℕ) = j 1 := by
  simp [DotDims.rhsIdx, D, dot_S1000x300_S300x1024_S1000x1024_1_0_0_1_n_n]; rfl

/-- The product of a 1000 × 300 and a 300 × 1024 matrix is the matrix product, entry by entry. -/
private theorem dot_read (l : FVec Ideal S1000x300 .f32) (r : FVec Ideal S300x1024 .f32) (j : S1000x1024.Idx) :
    Host.dotGeneral (F := Ideal) D none l r j = Cert.Spec.mm l r j := by
  show FloatOps.dotGeneral D none .single l r j = ∑ t : Fin 300, l (ix2 (j 0) t) * r (ix2 t (j 1))
  rw [Ideal.dotGeneral_apply, ← Equiv.sum_comp (contrEquiv1 D 300 rfl rfl).symm]
  refine Finset.sum_congr rfl fun t _ => ?_
  have hk := contrEquiv1_symm_val D 300 rfl rfl t
  refine congrArg₂ (· * ·) (congrArg l (funext fun a => Fin.ext ?_)) (congrArg r (funext fun a => Fin.ext ?_))
  · match a with
    | ⟨0, _⟩ => exact lhs_0 _ _
    | ⟨1, _⟩ => exact (lhs_1 _ _).trans hk
  · match a with
    | ⟨0, _⟩ => exact (rhs_0 _ _).trans hk
    | ⟨1, _⟩ => exact rhs_1 _ _

/-! ### The rectifier -/

/-- Selecting, on "at least zero", between a number and the slope times it is the rectifier at that number. -/
private theorem rect_read (a : FVec Ideal S1000x1024 .f32) (j : S1000x1024.Idx) : rectV a j = Cert.Spec.leaky a j := by
  show Scalar.select (Ideal.cmp .oge (a j) (Ideal.ofBits .f32 0x00000000#32)) (a j) (Ideal.ofBits .f32 0x3E4CCCCD#32 * a j)
    = if 0 ≤ a j then a j else a j * Ideal.ofBits .f32 0x3E4CCCCD#32
  rw [Ideal.ofBits_zero_f32, mul_comm]
  by_cases h : 0 ≤ a j
  · rw [if_pos h]
    have hc : Ideal.cmp .oge (a j) 0 = 1#1 := by simp [Ideal.cmp, h]
    rw [hc, select_one]
  · rw [if_neg h]
    have hc : Ideal.cmp .oge (a j) 0 = 0#1 := by simp [Ideal.cmp, h]
    rw [hc, select_zero]

/-! ## The stretch is the rectified first layer -/

/-- The stretch's term over a node matrix and the two rows of an edge array is the rectified layer on the mean edge
    by edge. -/
private theorem stretch_value (ei : Cert.Spec.Edges) (x : Cert.Spec.Mat 1000 300) (s d : IVec S40000 32)
    (Wl : FVec Ideal S300x1024 .f32) (b : FVec Ideal S1024 .f32) (Wr : FVec Ideal S300x1024 .f32)
    (hs : s = fun i => ei (ix2 0 (i 0))) (hd : d = fun i => ei (ix2 1 (i 0))) :
    rectV (preV x s d Wl b Wr) = Cert.Spec.leaky (Cert.Spec.layer (Cert.Spec.meanByEdges ei x) x Wl b Wr) := by
  have hm : meanV x s d = Cert.Spec.meanByEdges ei x := by
    funext i
    obtain ⟨n, c, rfl⟩ : ∃ (n : Fin 1000) (c : Fin 300), i = ix2 n c := ⟨i 0, i 1, eq_ix2 i⟩
    exact meanV_read ei x s d hs hd n c
  have hp : preV x s d Wl b Wr = Cert.Spec.layer (Cert.Spec.meanByEdges ei x) x Wl b Wr := by
    funext j
    unfold preV Cert.Spec.layer
    rw [addf_apply, addf_apply, dot_read, dot_read, bias_read, hm]
  funext j
  rw [rect_read, hp]

/-- The rectified first layer, the mean taken edge by edge, from the stretch's entry contents: the node matrix
    x, and the source and destination words as rows of an edge array ei. -/
theorem h1_value (W : Valuation τ sig (Elt Ideal)) (ei : Cert.Spec.Edges) (x : Cert.Spec.Mat 1000 300)
    (hx : (W (Proc.devRef .tc main_v1) : S1000x300.Idx → EReal) = x)
    (hs : (W (Proc.devRef .tc main_v3) : S40000.Idx → BitVec 32) = fun i => ei (ix2 0 (i 0)))
    (hd : (W (Proc.devRef .tc main_v5) : S40000.Idx → BitVec 32) = fun i => ei (ix2 1 (i 0))) :
    (after (ops1 (F := Ideal)) W (Proc.devRef .tc main_v31) : S1000x1024.Idx → EReal)
      = Cert.Spec.leaky (Cert.Spec.layer (Cert.Spec.meanByEdges ei x) x (W (Proc.devRef .tc main_arg3)) (W (Proc.devRef .tc main_arg4)) (W (Proc.devRef .tc main_arg5))) := by
  rw [stretch_eq W, hx]
  exact stretch_value ei x _ _ _ _ _ hs hd

end Cert.ReferenceIdeal.RefStage

end
-- ==== Proof.RefStage2.lean ====
/-
  The reference's third stretch, read: the second layer and the scores.

  The second layer takes the mean of the first layer's rectified output edge by edge exactly as the first layer
  did of the node features (gather at the source words moved up by 1000 when negative and clamped, add up per
  destination word as it is, divide by the larger of the in-degree and one), multiplies with the left weights,
  adds the bias and the product with the right weights; the scores are the channel maxima times the transpose of
  the result.
-/
import proofs.«428741_j30288109371889_1_alg».proof.Proof.RefRun
import proofs.«428741_j30288109371889_1_alg».proof.Proof.LibGatherScatterRows
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import proofs.«428741_j30288109371889_1_alg».proof.Proof.Spec

set_option maxRecDepth 16384

noncomputable section

open scoped BigOperators

namespace Cert.ReferenceIdeal.RefStage

open Cert.ReferenceIdeal Cert.ReferenceIdeal.Gen Cert.ReferenceIdeal.RefRun Idealize.ShloMosaic Idealize.ShloMosaic.TcCoe Idealize.SL.Sem Idealize.ShloMosaic.ValueIdx Idealize.ShloMosaic.StableHlo

/-! ## Broadcasts read at an index -/

/-- A vector made a column reads, at (e, k), its e-th entry. -/
private theorem bcast_col_apply {α : Type} {n : Nat} (h : (⟨1, ![n]⟩ : Shape).BroadcastsInDim ⟨2, ![n, 1]⟩ ![0])
    (x : (⟨1, ![n]⟩ : Shape).Idx → α) (e : Fin n) (k : Fin 1) :
    broadcastInDim ⟨2, ![n, 1]⟩ ![0] h x (ix2 e k) = x (ix1 e) := by
  refine broadcastInDim_apply ![0] h x (ix2 e k) (ix1 e) ?_
  intro a
  match a with
  | ⟨0, _⟩ =>
    show e.val = if n = 1 then 0 else e.val
    split
    · have := e.isLt; omega
    · rfl

/-- A column repeated along every row reads, at (i, j), the column's i-th entry. -/
private theorem bcast_cols_apply {α : Type} {n m : Nat} (h : (⟨2, ![n, 1]⟩ : Shape).BroadcastsInDim ⟨2, ![n, m]⟩ ![0, 1])
    (x : (⟨2, ![n, 1]⟩ : Shape).Idx → α) (i : Fin n) (j : Fin m) :
    broadcastInDim ⟨2, ![n, m]⟩ ![0, 1] h x (ix2 i j) = x (ix2 i 0) := by
  refine broadcastInDim_apply ![0, 1] h x (ix2 i j) (ix2 i 0) ?_
  intro a
  match a with
  | ⟨0, _⟩ =>
    show i.val = if n = 1 then 0 else i.val
    split
    · have := i.isLt; omega
    · rfl
  | ⟨1, _⟩ =>
    show (0 : ℕ) = if (1 : ℕ) = 1 then 0 else _
    simp

/-- A vector made a one-row matrix reads, at (0, j), its j-th entry. -/
private theorem bcast_row_apply {α : Type} {m : Nat} (h : (⟨1, ![m]⟩ : Shape).BroadcastsInDim ⟨2, ![1, m]⟩ ![1])
    (x : (⟨1, ![m]⟩ : Shape).Idx → α) (k : Fin 1) (j : Fin m) :
    broadcastInDim ⟨2, ![1, m]⟩ ![1] h x (ix2 k j) = x (ix1 j) := by
  refine broadcastInDim_apply ![1] h x (ix2 k j) (ix1 j) ?_
  intro a
  match a with
  | ⟨0, _⟩ =>
    show j.val = if m = 1 then 0 else j.val
    split
    · have := j.isLt; omega
    · rfl

/-- A one-row matrix repeated down the rows reads, at (i, j), the row's j-th entry. -/
private theorem bcast_rows_apply {α : Type} {n m : Nat} (h : (⟨2, ![1, m]⟩ : Shape).BroadcastsInDim ⟨2, ![n, m]⟩ ![0, 1])
    (x : (⟨2, ![1, m]⟩ : Shape).Idx → α) (i : Fin n) (j : Fin m) :
    broadcastInDim ⟨2, ![n, m]⟩ ![0, 1] h x (ix2 i j) = x (ix2 0 j) := by
  refine broadcastInDim_apply ![0, 1] h x (ix2 i j) (ix2 0 j) ?_
  intro a
  match a with
  | ⟨0, _⟩ =>
    show (0 : ℕ) = if (1 : ℕ) = 1 then 0 else _
    simp
  | ⟨1, _⟩ =>
    show j.val = if m = 1 then 0 else j.val
    split
    · have := j.isLt; omega
    · rfl

/-! ## The two products read at an index -/

private abbrev D₁ := dot_S1000x1024_S1024x2048_S1000x2048_1_0_0_1_n_n
private abbrev D₂ := dot_S64x2048_S2048x1000_S64x1000_1_0_0_1_n_n

private theorem lhs₁_0 (j : S1000x2048.Idx) (k : D₁.contr.Idx) : (D₁.lhsIdx j k 0 : ℕ) = j 0 := by
  simp [DotDims.lhsIdx, D₁, dot_S1000x1024_S1024x2048_S1000x2048_1_0_0_1_n_n]; rfl
private theorem lhs₁_1 (j : S1000x2048.Idx) (k : D₁.contr.Idx) : (D₁.lhsIdx j k 1 : ℕ) = k ⟨0, by decide⟩ := by
  simp [DotDims.lhsIdx, D₁, dot_S1000x1024_S1024x2048_S1000x2048_1_0_0_1_n_n]; rfl
private theorem rhs₁_0 (j : S1000x2048.Idx) (k : D₁.contr.Idx) : (D₁.rhsIdx j k 0 : ℕ) = k ⟨0, by decide⟩ := by
  simp [DotDims.rhsIdx, D₁, dot_S1000x1024_S1024x2048_S1000x2048_1_0_0_1_n_n]; rfl
private theorem rhs₁_1 (j : S1000x2048.Idx) (k : D₁.contr.Idx) : (D₁.rhsIdx j k 1 : ℕ) = j 1 := by
  simp [DotDims.rhsIdx, D₁, dot_S1000x1024_S1024x2048_S1000x2048_1_0_0_1_n_n]; rfl

/-- The product of a 1000 × 1024 and a 1024 × 2048 matrix at (n, c): the sum over the 1024 inner positions. -/
private theorem dot₁_apply (l : FVec Ideal S1000x1024 .f32) (r : FVec Ideal S1024x2048 .f32) (n : Fin 1000) (c : Fin 2048) :
    Host.dotGeneral (F := Ideal) D₁ none l r (ix2 n c) = ∑ t : Fin 1024, l (ix2 n t) * r (ix2 t c) := by
  show FloatOps.dotGeneral D₁ none .single l r (ix2 n c) = _
  rw [Ideal.dotGeneral_apply, ← Equiv.sum_comp (contrEquiv1 D₁ 1024 rfl rfl).symm]
  refine Finset.sum_congr rfl fun t _ => ?_
  congr 2
  · funext a
    apply Fin.ext
    match a with
    | ⟨0, _⟩ => exact lhs₁_0 _ _
    | ⟨1, _⟩ => exact (lhs₁_1 _ _).trans (contrEquiv1_symm_val D₁ 1024 rfl rfl t)
  · funext a
    apply Fin.ext
    match a with
    | ⟨0, _⟩ => exact (rhs₁_0 _ _).trans (contrEquiv1_symm_val D₁ 1024 rfl rfl t)
    | ⟨1, _⟩ => exact rhs₁_1 _ _

private theorem lhs₂_0 (j : S64x1000.Idx) (k : D₂.contr.Idx) : (D₂.lhsIdx j k 0 : ℕ) = j 0 := by
  simp [DotDims.lhsIdx, D₂, dot_S64x2048_S2048x1000_S64x1000_1_0_0_1_n_n]; rfl
private theorem lhs₂_1 (j : S64x1000.Idx) (k : D₂.contr.Idx) : (D₂.lhsIdx j k 1 : ℕ) = k ⟨0, by decide⟩ := by
  simp [DotDims.lhsIdx, D₂, dot_S64x2048_S2048x1000_S64x1000_1_0_0_1_n_n]; rfl
private theorem rhs₂_0 (j : S64x1000.Idx) (k : D₂.contr.Idx) : (D₂.rhsIdx j k 0 : ℕ) = k ⟨0, by decide⟩ := by
  simp [DotDims.rhsIdx, D₂, dot_S64x2048_S2048x1000_S64x1000_1_0_0_1_n_n]; rfl
private theorem rhs₂_1 (j : S64x1000.Idx) (k : D₂.contr.Idx) : (D₂.rhsIdx j k 1 : ℕ) = j 1 := by
  simp [DotDims.rhsIdx, D₂, dot_S64x2048_S2048x1000_S64x1000_1_0_0_1_n_n]; rfl

/-- The product of a 64 × 2048 and a 2048 × 1000 matrix at (b, n): the sum over the 2048 inner positions. -/
private theorem dot₂_apply (l : FVec Ideal S64x2048 .f32) (r : FVec Ideal S2048x1000 .f32) (b : Fin 64) (n : Fin 1000) :
    Host.dotGeneral (F := Ideal) D₂ none l r (ix2 b n) = ∑ t : Fin 2048, l (ix2 b t) * r (ix2 t n) := by
  show FloatOps.dotGeneral D₂ none .single l r (ix2 b n) = _
  rw [Ideal.dotGeneral_apply, ← Equiv.sum_comp (contrEquiv1 D₂ 2048 rfl rfl).symm]
  refine Finset.sum_congr rfl fun t _ => ?_
  congr 2
  · funext a
    apply Fin.ext
    match a with
    | ⟨0, _⟩ => exact lhs₂_0 _ _
    | ⟨1, _⟩ => exact (lhs₂_1 _ _).trans (contrEquiv1_symm_val D₂ 2048 rfl rfl t)
  · funext a
    apply Fin.ext
    match a with
    | ⟨0, _⟩ => exact (rhs₂_0 _ _).trans (contrEquiv1_symm_val D₂ 2048 rfl rfl t)
    | ⟨1, _⟩ => exact rhs₂_1 _ _

/-! ## The mean over in-neighbours, as the program takes it -/

private abbrev G := gather_S1000x1024_S40000x1_S40000x1024_1_0_n_n_0_1_11024
private abbrev SR := scatter_S1000x1024_S40000x1_S40000x1024_1_0_0_1
private abbrev SV := scatter_S1000_S40000x1_S40000_n_0_0_1

/-- The single-precision word of one denotes the number one. -/
private theorem one_word : Ideal.ofBits .f32 0x3F800000#32 = 1 := IdealRules.sign_bit.ideal_onePat .f32

/-- The source words, each moved up by 1000 when negative, as a column. -/
private def wrappedCol (s : IVec S40000 32) : IVec S40000x1 32 :=
  broadcastInDim S40000x1 ![0] bcast_S40000_S40000x1_0
    (select (cmpi .slt s (broadcastInDim S40000 ![] bcast_S_S40000 (constantI S_ 32 0#32)))
      (addi s (broadcastInDim S40000 ![] bcast_S_S40000 (constantI S_ 32 1000#32))) s)

/-- The rows of x at the wrapped source words, one per edge. -/
private def gathered (x : FVec Ideal S1000x1024 .f32) (s : IVec S40000 32) : FVec Ideal S40000x1024 .f32 :=
  Host.gather G x (wrappedCol s)

/-- The gathered rows added up per destination word, from zero. -/
private def summed (x : FVec Ideal S1000x1024 .f32) (s d : IVec S40000 32) : FVec Ideal S1000x1024 .f32 :=
  Host.scatterAdd (F := Ideal) SR (broadcastInDim S1000x1024 ![] bcast_S_S1000x1024 (constant (F := Ideal) S_ .f32 0x00000000#32))
    (broadcastInDim S40000x1 ![0] bcast_S40000_S40000x1_0 d) (gathered x s)

/-- The number of edges per destination word: ones added up from zero. -/
private def degree (d : IVec S40000 32) : FVec Ideal S1000 .f32 :=
  Host.scatterAdd (F := Ideal) SV (broadcastInDim S1000 ![] bcast_S_S1000 (constant (F := Ideal) S_ .f32 0x00000000#32))
    (broadcastInDim S40000x1 ![0] bcast_S40000_S40000x1_0 d)
    (broadcastInDim S40000 ![] bcast_S_S40000 (constant (F := Ideal) S_ .f32 0x3F800000#32))

/-- The sums divided, row by row, by the larger of the row's edge count and one. -/
private def meanP (x : FVec Ideal S1000x1024 .f32) (s d : IVec S40000 32) : FVec Ideal S1000x1024 .f32 :=
  Host.divf (summed x s d)
    (broadcastInDim S1000x1024 ![0, 1] bcast_S1000x1_S1000x1024_0_1
      (broadcastInDim S1000x1 ![0] bcast_S1000_S1000x1_0
        (maximumf (degree d) (broadcastInDim S1000 ![] bcast_S_S1000 (constant (F := Ideal) S_ .f32 0x3F800000#32)))))

/-- The entrywise quotient read at an index. -/
private theorem hostDivf_apply {s : Shape} {φ : FTy} (a b : FVec Ideal s φ) (i : s.Idx) :
    Host.divf a b i = Ideal.div (a i) (b i) := rfl

/-- Edge e's wrapped source word. -/
private theorem wrappedCol_apply (s : IVec S40000 32) (e : Fin 40000) :
    wrappedCol s (ix2 e 0) = Cert.Spec.wrapW (s (ix1 e)) := by
  unfold wrappedCol
  rw [bcast_col_apply]
  rfl

/-- Edge e's gathered row is x's row at the wrapped source word, clamped. -/
private theorem gathered_apply (x : FVec Ideal S1000x1024 .f32) (s : IVec S40000 32) (e : Fin 40000) (j : Fin 1024) :
    gathered x s (ix2 e j) = x (ix2 (Cert.Spec.clampIx (Cert.Spec.wrapW (s (ix1 e)))) j) := by
  have hA : (⟨min (wrappedCol s (ix2 e 0)).toInt.toNat (1000 - 1), by omega⟩ : Fin 1000)
      = Cert.Spec.clampIx (Cert.Spec.wrapW (s (ix1 e))) :=
    Fin.ext (by show min _ _ = min _ _; rw [wrappedCol_apply])
  unfold gathered
  rw [Cert.LibRows.gather_rows (by decide) G rfl rfl rfl rfl rfl rfl, hA]

/-- Row n of the sums: the gathered rows of the edges whose destination word names n. -/
private theorem summed_apply (x : FVec Ideal S1000x1024 .f32) (s d : IVec S40000 32) (n : Fin 1000) (c : Fin 1024) :
    summed x s d (ix2 n c)
      = ∑ e ∈ Finset.univ.filter (fun e : Fin 40000 => Cert.Spec.landIx 1000 (d (ix1 e)) = some n),
          x (ix2 (Cert.Spec.clampIx (Cert.Spec.wrapW (s (ix1 e)))) c) := by
  have hz : (broadcastInDim S1000x1024 ![] bcast_S_S1000x1024 (constant (F := Ideal) S_ .f32 0x00000000#32)) (ix2 n c) = (0 : EReal) :=
    Ideal.ofBits_zero_f32
  unfold summed
  rw [Cert.LibRows.scatterAdd_rows' SR rfl rfl rfl rfl, hz, zero_add]
  exact Finset.sum_congr (Finset.filter_congr fun e _ => by rw [bcast_col_apply]) fun e _ => gathered_apply x s e c

/-- Entry n of the edge counts. -/
private theorem degree_apply (d : IVec S40000 32) (n : Fin 1000) :
    degree d (ix1 n)
      = ∑ _e ∈ Finset.univ.filter (fun e : Fin 40000 => Cert.Spec.landIx 1000 (d (ix1 e)) = some n), (1 : EReal) := by
  have hz : (broadcastInDim S1000 ![] bcast_S_S1000 (constant (F := Ideal) S_ .f32 0x00000000#32)) (ix1 n) = (0 : EReal) :=
    Ideal.ofBits_zero_f32
  unfold degree
  rw [Cert.LibRows.scatterAdd_vec' SV rfl rfl rfl rfl, hz, zero_add]
  exact Finset.sum_congr (Finset.filter_congr fun e _ => by rw [bcast_col_apply]) fun e _ => one_word

/-- The program's mean at (n, c) is the mean edge by edge. -/
private theorem meanP_apply (ei : Cert.Spec.Edges) (x : Cert.Spec.Mat 1000 1024) (s d : IVec S40000 32)
    (hs : s = fun i => ei (ix2 0 (i 0))) (hd : d = fun i => ei (ix2 1 (i 0))) (n : Fin 1000) (c : Fin 1024) :
    meanP x s d (ix2 n c) = Cert.Spec.meanEdgesAt ei x n c := by
  have h1 : (broadcastInDim S1000 ![] bcast_S_S1000 (constant (F := Ideal) S_ .f32 0x3F800000#32)) (ix1 n) = (1 : EReal) := one_word
  unfold meanP
  rw [hostDivf_apply, bcast_cols_apply, bcast_col_apply, summed_apply, maximumf_apply, degree_apply, h1]
  subst hs hd
  rfl

/-! ## The second layer and the scores -/

/-- The product with a transpose, at (i, j). -/
private theorem mmT_apply {n k m : Nat} (a : Cert.Spec.Mat n k) (b : Cert.Spec.Mat m k) (i : Fin n) (j : Fin m) :
    Cert.Spec.mmT a b (ix2 i j) = ∑ t : Fin k, a (ix2 i t) * b (ix2 j t) := rfl

/-- A layer at (i, j). -/
private theorem layer_apply {n d h : Nat} (msg x : Cert.Spec.Mat n d) (Wl : Cert.Spec.Mat d h) (b : Cert.Spec.Row h)
    (Wr : Cert.Spec.Mat d h) (i : Fin n) (j : Fin h) :
    Cert.Spec.layer msg x Wl b Wr (ix2 i j)
      = (∑ t : Fin d, msg (ix2 i t) * Wl (ix2 t j) + b (ix1 j)) + ∑ t : Fin d, x (ix2 i t) * Wr (ix2 t j) := rfl

/-- The mean edge by edge at (i, j). -/
private theorem meanByEdges_apply {d : Nat} (ei : Cert.Spec.Edges) (x : Cert.Spec.Mat 1000 d) (i : Fin 1000) (j : Fin d) :
    Cert.Spec.meanByEdges ei x (ix2 i j) = Cert.Spec.meanEdgesAt ei x i j := rfl

/-- The stretch's composed term, over its entry contents, is the scores of the second layer. -/
private theorem core (ei : Cert.Spec.Edges) (p : FVec Ideal S64x2048 .f32) (x : FVec Ideal S1000x1024 .f32) (s d : IVec S40000 32)
    (Wl : FVec Ideal S1024x2048 .f32) (b : FVec Ideal S2048 .f32) (Wr : FVec Ideal S1024x2048 .f32)
    (hs : s = fun i => ei (ix2 0 (i 0))) (hd : d = fun i => ei (ix2 1 (i 0))) :
    Host.dotGeneral (F := Ideal) D₂ none p
        (transpose S2048x1000 [1, 0]
          (addf
            (addf (Host.dotGeneral (F := Ideal) D₁ none (meanP x s d) Wl)
              (broadcastInDim S1000x2048 ![0, 1] bcast_S1x2048_S1000x2048_0_1
                (broadcastInDim S1x2048 ![1] bcast_S2048_S1x2048_1 b)))
            (Host.dotGeneral (F := Ideal) D₁ none x Wr))
          transposes_S1000x2048_S2048x1000_1_0)
      = Cert.Spec.mmT p (Cert.Spec.layer (Cert.Spec.meanByEdges ei x) x Wl b Wr) := by
  funext j
  obtain ⟨i, n, rfl⟩ : ∃ (i : Fin 64) (n : Fin 1000), j = ix2 i n := ⟨j 0, j 1, eq_ix2 j⟩
  rw [dot₂_apply, mmT_apply]
  refine Finset.sum_congr rfl fun t _ => ?_
  rw [transpose_ix2_apply, addf_apply, addf_apply, dot₁_apply, dot₁_apply, bcast_rows_apply, bcast_row_apply, layer_apply]
  simp only [meanP_apply ei x s d hs hd, meanByEdges_apply]

/-- The scores, from the stretch's entry contents: the channel maxima p, the first layer's rectified output h1,
    and the source and destination words as rows of an edge array ei. -/
theorem out_value (W : Valuation τ sig (Elt Ideal)) (ei : Cert.Spec.Edges) (h1 : Cert.Spec.Mat 1000 1024) (p : Cert.Spec.Mat 64 2048)
    (hp : (W (Proc.devRef .tc main_v0) : S64x2048.Idx → EReal) = p)
    (hh : (W (Proc.devRef .tc main_v31) : S1000x1024.Idx → EReal) = h1)
    (hs : (W (Proc.devRef .tc main_v3) : S40000.Idx → BitVec 32) = fun i => ei (ix2 0 (i 0)))
    (hd : (W (Proc.devRef .tc main_v5) : S40000.Idx → BitVec 32) = fun i => ei (ix2 1 (i 0))) :
    (after (ops2 (F := Ideal)) W (Proc.devRef .tc main_v58) : S64x1000.Idx → EReal)
      = Cert.Spec.mmT p (Cert.Spec.layer (Cert.Spec.meanByEdges ei h1) h1 (W (Proc.devRef .tc main_arg6)) (W (Proc.devRef .tc main_arg7)) (W (Proc.devRef .tc main_arg8))) := by
  subst hp hh
  simp only [ops2]
  after_results_simp
  exact core ei _ _ _ _ _ _ _ hs hd

end Cert.ReferenceIdeal.RefStage

end
-- ==== Proof.RefValue.lean ====
/-
  The reference program's result, as a function of its arguments.

  The three stretches run one after the other. The first leaves the channel maxima, the node matrix and the two
  rows of edge words; the second reads the node matrix and the words and leaves the first layer's rectified
  output; the third reads the maxima, that output and the same words and leaves the scores. No stretch writes an
  argument, and the later stretches do not write what the earlier ones left for them, so each reads what was
  left. Put together, the result is the edge-by-edge program's scores of the arguments.
-/
import proofs.«428741_j30288109371889_1_alg».proof.Proof.RefRun
import proofs.«428741_j30288109371889_1_alg».proof.Proof.RefStage0
import proofs.«428741_j30288109371889_1_alg».proof.Proof.RefStage1
import proofs.«428741_j30288109371889_1_alg».proof.Proof.RefStage2
import proofs.«428741_j30288109371889_1_alg».proof.Proof.Spec

set_option maxRecDepth 16384

noncomputable section

namespace Cert.ReferenceIdeal.RefValue

open Cert.ReferenceIdeal Cert.ReferenceIdeal.Gen Cert.ReferenceIdeal.RefRun Cert.ReferenceIdeal.RefStage
open Idealize.ShloMosaic Idealize.ShloMosaic.TcCoe Idealize.SL.Sem Idealize.ShloMosaic.ValueIdx Idealize.ShloMosaic.StableHlo

/-- A buffer that no operation of a stretch writes keeps its contents through the stretch. -/
local macro "ref_keeps " ops:ident : tactic =>
  `(tactic| exact after_of_forall_not_mem _ _ (List.forall_iff_forall_mem.mp (by
      simp only [$ops:ident, TRef.nullary, TRef.unary, TRef.binary, TRef.ternary, List.Forall, nullary_writes, unary_writes, binary_writes, ternary_writes,
        quaternary_writes, reshape_writes, binaryIndexed_writes, Finset.mem_singleton]
      repeat' apply And.intro
      all_goals exact devRef_ne_of_ne (by decide))))

variable (W : Valuation τ sig (Elt Ideal))

/-- The contents after the first stretch, and after the first two. -/
abbrev A0 : Valuation τ sig (Elt Ideal) := after (ops0 (F := Ideal)) W
abbrev A1 : Valuation τ sig (Elt Ideal) := after (ops1 (F := Ideal)) (A0 W)

/-- The whole line's contents are the third stretch's from the second's from the first's. -/
theorem after_ops : after (ops (F := Ideal)) W = after (ops2 (F := Ideal)) (A1 W) := by
  rw [ops_split, after_append, after_append]

/-- The reference's result is the edge-by-edge program's scores of the arguments. -/
theorem value :
    (after (ops (F := Ideal)) W (Proc.devRef .tc main_v58) : S64x1000.Idx → EReal)
      = Cert.Spec.GR (W (Proc.devRef .tc main_arg0)) (W (Proc.devRef .tc main_arg1)) (W (Proc.devRef .tc main_arg2))
          (W (Proc.devRef .tc main_arg3)) (W (Proc.devRef .tc main_arg4)) (W (Proc.devRef .tc main_arg5))
          (W (Proc.devRef .tc main_arg6)) (W (Proc.devRef .tc main_arg7)) (W (Proc.devRef .tc main_arg8)) := by
  rw [after_ops]
  -- what the first stretch leaves, and that the second keeps the maxima and the words
  have s3 : (A0 W (Proc.devRef .tc main_v3) : S40000.Idx → BitVec 32) = fun i => (W (Proc.devRef .tc main_arg2) : S2x40000.Idx → BitVec 32) (ix2 0 (i 0)) := v3_value W
  have s5 : (A0 W (Proc.devRef .tc main_v5) : S40000.Idx → BitVec 32) = fun i => (W (Proc.devRef .tc main_arg2) : S2x40000.Idx → BitVec 32) (ix2 1 (i 0)) := v5_value W
  have k0 : A1 W (Proc.devRef .tc main_v0) = A0 W (Proc.devRef .tc main_v0) := by ref_keeps ops1
  have k3 : A1 W (Proc.devRef .tc main_v3) = A0 W (Proc.devRef .tc main_v3) := by ref_keeps ops1
  have k5 : A1 W (Proc.devRef .tc main_v5) = A0 W (Proc.devRef .tc main_v5) := by ref_keeps ops1
  -- the arguments as the second and third stretches find them
  have a3 : A0 W (Proc.devRef .tc main_arg3) = W (Proc.devRef .tc main_arg3) := by ref_keeps ops0
  have a4 : A0 W (Proc.devRef .tc main_arg4) = W (Proc.devRef .tc main_arg4) := by ref_keeps ops0
  have a5 : A0 W (Proc.devRef .tc main_arg5) = W (Proc.devRef .tc main_arg5) := by ref_keeps ops0
  have a6 : A1 W (Proc.devRef .tc main_arg6) = W (Proc.devRef .tc main_arg6) :=
    (by ref_keeps ops1 : A1 W (Proc.devRef .tc main_arg6) = A0 W (Proc.devRef .tc main_arg6)).trans (by ref_keeps ops0)
  have a7 : A1 W (Proc.devRef .tc main_arg7) = W (Proc.devRef .tc main_arg7) :=
    (by ref_keeps ops1 : A1 W (Proc.devRef .tc main_arg7) = A0 W (Proc.devRef .tc main_arg7)).trans (by ref_keeps ops0)
  have a8 : A1 W (Proc.devRef .tc main_arg8) = W (Proc.devRef .tc main_arg8) :=
    (by ref_keeps ops1 : A1 W (Proc.devRef .tc main_arg8) = A0 W (Proc.devRef .tc main_arg8)).trans (by ref_keeps ops0)
  have hh := h1_value (A0 W) (W (Proc.devRef .tc main_arg2)) _ (v1_value W) s3 s5
  rw [a3, a4, a5] at hh
  have ho := out_value (A1 W) (W (Proc.devRef .tc main_arg2)) _ _ (k0.trans (v0_value W)) hh (k3.trans s3) (k5.trans s5)
  rw [a6, a7, a8] at ho
  exact ho

/-- No operation writes an argument: each ends as it was. -/
theorem kept_arg0 : after (ops (F := Ideal)) W (Proc.devRef .tc main_arg0) = W (Proc.devRef .tc main_arg0) := by ref_keeps ops
theorem kept_arg1 : after (ops (F := Ideal)) W (Proc.devRef .tc main_arg1) = W (Proc.devRef .tc main_arg1) := by ref_keeps ops
theorem kept_arg2 : after (ops (F := Ideal)) W (Proc.devRef .tc main_arg2) = W (Proc.devRef .tc main_arg2) := by ref_keeps ops
theorem kept_arg3 : after (ops (F := Ideal)) W (Proc.devRef .tc main_arg3) = W (Proc.devRef .tc main_arg3) := by ref_keeps ops
theorem kept_arg4 : after (ops (F := Ideal)) W (Proc.devRef .tc main_arg4) = W (Proc.devRef .tc main_arg4) := by ref_keeps ops
theorem kept_arg5 : after (ops (F := Ideal)) W (Proc.devRef .tc main_arg5) = W (Proc.devRef .tc main_arg5) := by ref_keeps ops
theorem kept_arg6 : after (ops (F := Ideal)) W (Proc.devRef .tc main_arg6) = W (Proc.devRef .tc main_arg6) := by ref_keeps ops
theorem kept_arg7 : after (ops (F := Ideal)) W (Proc.devRef .tc main_arg7) = W (Proc.devRef .tc main_arg7) := by ref_keeps ops
theorem kept_arg8 : after (ops (F := Ideal)) W (Proc.devRef .tc main_arg8) = W (Proc.devRef .tc main_arg8) := by ref_keeps ops

end Cert.ReferenceIdeal.RefValue

end
-- ==== Proof.BridgeMean.lean ====
/-
  The two ways of taking the mean over in-neighbours agree on real matrices.

  When every index word names a node (0 ≤ word < 1000), moving a negative word up by 1000 changes nothing,
  dropping and clamping never happen, and an edge e simply goes from node s e to node t e. The table of pair
  counts then has, in row n, the number of edges from each k to n; its row total is n's in-degree, which is
  also what the edge-by-edge count finds. For a matrix x of REAL entries,

      Σ k, (count n k / m n) · x k c  =  (Σ k, count n k · x k c) / m n  =  (Σ over edges e into n, x (s e) c) / m n,

  the first step because a real factor 1 / m n moves out of a finite sum of reals (it would not, past an
  infinity), the second by sorting the edges into n by their source.
-/
import Idealize.ShloMosaic.PureOps.Ideal
import Idealize.ShloMosaic.PureOps.Ideal.Laws
import Idealize.ShloMosaic.Lib.ValueIdx
import proofs.«428741_j30288109371889_1_alg».proof.Proof.Spec

noncomputable section

open scoped BigOperators

namespace Cert.Bridge

open Idealize.ShloMosaic Idealize.ShloMosaic.ValueIdx Cert.Spec

/-! ## Sums of real numbers inside the extended reals -/

/-- The embedding of the reals carries a finite sum to the sum of the embedded terms. -/
private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of ones over a finite set is the number of its elements. -/
private theorem sum_ones {ι : Type} (s : Finset ι) :
    (∑ _i ∈ s, (1 : EReal)) = ((s.card : ℝ) : EReal) := by
  have h : (∑ _i ∈ s, (1 : EReal)) = ∑ _i ∈ s, ((1 : ℝ) : EReal) := by simp
  rw [h, ← coe_sum]; simp

/-- The larger of a real number and 1, taken in the extended reals, is the real maximum. -/
private theorem max_coe_one (a : ℝ) : max ((a : ℝ) : EReal) 1 = ((max a 1 : ℝ) : EReal) := by
  rw [← EReal.coe_one]
  exact (EReal.coe_strictMono.monotone.map_max).symm

/-! ## Index words that name a node -/

/-- A word that is not negative is not moved. -/
private theorem wrapW_eq (w : BitVec 32) (h : 0 ≤ w.toInt) : wrapW w = w := by
  have hs : BitVec.slt w 0#32 = false := by
    simp only [BitVec.slt, decide_eq_false_iff_not, not_lt]
    simpa using h
  unfold wrapW Scalar.select IntOp.cmpi
  simp [hs]

/-- A word in [0, 1000) names, for writing, the row it is clamped to for reading. -/
private theorem landIx_eq (w : BitVec 32) (h : 0 ≤ w.toInt ∧ w.toInt < 1000) :
    landIx 1000 w = some (clampIx w) := by
  unfold landIx clampIx
  rw [dif_pos (by exact_mod_cast h)]
  congr 1
  apply Fin.ext
  simp only
  omega

/-! ## The mean at one node and one column -/

private theorem mean_at {d : Nat} (ei : Edges) (hei : InRange ei) (x : Mat 1000 d) (hx : IsReal x)
    (n : Fin 1000) (c : Fin d) :
    (∑ t : Fin 1000, adjAt ei n t * x (ix2 t c)) = meanEdgesAt ei x n c := by
  classical
  choose r hr using hx
  have hs : ∀ e, 0 ≤ (srcW ei e).toInt ∧ (srcW ei e).toInt < 1000 := fun e => hei 0 e
  have ht : ∀ e, 0 ≤ (dstW ei e).toInt ∧ (dstW ei e).toInt < 1000 := fun e => hei 1 e
  -- edge e goes from node S e to node T e
  set S : Fin 40000 → Fin 1000 := fun e => clampIx (srcW ei e) with hS
  set T : Fin 40000 → Fin 1000 := fun e => clampIx (dstW ei e) with hT
  -- the edges into n
  set F : Finset (Fin 40000) := Finset.univ.filter (fun e => T e = n) with hF
  have hFl : Finset.univ.filter (fun e : Fin 40000 => landIx 1000 (dstW ei e) = some n) = F := by
    apply Finset.filter_congr
    intro e _
    rw [landIx_eq _ (ht e)]
    simp [hT]
  -- the pair count from k to n is the number of edges into n that come from k
  have hpc : ∀ k, pairCount ei n k = ((((F.filter (fun e => S e = k)).card : ℕ) : ℝ) : EReal) := by
    intro k
    unfold pairCount
    rw [← sum_ones, hF, Finset.filter_filter]
    apply Finset.sum_congr _ (fun _ _ => rfl)
    apply Finset.filter_congr
    intro e _
    rw [wrapW_eq _ (ht e).1, wrapW_eq _ (hs e).1, landIx_eq _ (ht e), landIx_eq _ (hs e)]
    simp [hS, hT]
  -- the row total is the number of edges into n
  have htot : (∑ k' : Fin 1000, pairCount ei n k') = ((F.card : ℝ) : EReal) := by
    have hc : F.card = ∑ k : Fin 1000, (F.filter (fun e => S e = k)).card :=
      Finset.card_eq_sum_card_fiberwise (fun _ _ => Finset.mem_coe.mpr (Finset.mem_univ _))
    simp_rw [hpc]
    rw [← coe_sum, ← Nat.cast_sum, ← hc]
  -- the divisor, a real number that is at least 1
  set M : ℝ := max (F.card : ℝ) 1 with hM
  have hM0 : M ≠ 0 := by
    have : (1 : ℝ) ≤ M := le_max_right _ _
    intro h0; rw [h0] at this; linarith
  -- sorting the edges into n by their source
  have hreal : (∑ k : Fin 1000, ((F.filter (fun e => S e = k)).card : ℝ) * (1 / M) * r (ix2 k c))
      = (∑ e ∈ F, r (ix2 (S e) c)) * (1 / M) := by
    rw [← Finset.sum_fiberwise' F S (fun k => r (ix2 k c)), Finset.sum_mul]
    apply Finset.sum_congr rfl
    intro k _
    rw [Finset.sum_const, nsmul_eq_mul]; ring
  -- the table side
  have hL : (∑ t : Fin 1000, adjAt ei n t * x (ix2 t c))
      = ((∑ k : Fin 1000, ((F.filter (fun e => S e = k)).card : ℝ) * (1 / M) * r (ix2 k c) : ℝ) : EReal) := by
    rw [coe_sum]
    apply Finset.sum_congr rfl
    intro k _
    unfold adjAt
    rw [htot, max_coe_one, ← hM, Ideal.div_coe hM0, hpc k, hr, ← EReal.coe_mul, ← EReal.coe_mul]
  -- the edge-by-edge side
  have hR : meanEdgesAt ei x n c = (((∑ e ∈ F, r (ix2 (S e) c)) * (1 / M) : ℝ) : EReal) := by
    have hsum : (∑ e ∈ F, x (ix2 (clampIx (wrapW (srcW ei e))) c))
        = ((∑ e ∈ F, r (ix2 (S e) c) : ℝ) : EReal) := by
      rw [coe_sum]
      apply Finset.sum_congr rfl
      intro e _
      rw [wrapW_eq _ (hs e).1, hr]
    unfold meanEdgesAt
    rw [hFl, sum_ones, max_coe_one, ← hM, Ideal.div_coe hM0, hsum, EReal.coe_mul]
  rw [hL, hR, hreal]

/-- With every index word naming a node, the mean through the table of pair counts is the mean taken edge by
    edge, on any matrix of real entries. -/
theorem mean_eq {d : Nat} (ei : Edges) (hei : InRange ei) (x : Mat 1000 d) (hx : IsReal x) :
    meanByTable ei x = meanByEdges ei x := by
  funext j
  obtain ⟨n, c, rfl⟩ : ∃ (n : Fin 1000) (c : Fin d), j = ix2 n c := ⟨j 0, j 1, eq_ix2 j⟩
  exact mean_at ei hei x hx n c

end Cert.Bridge

end
-- ==== Proof.BridgeReal.lean ====
/-
  Real entries stay real through one layer and the rectifier.

  A finite sum of products of reals is real; the in-degree of a node, taken as at least 1, is a real that is
  not zero, so the quotient of a real by it is real; a real plus a real is real; and the rectifier returns
  either its argument or its argument times a real constant.
-/
import Idealize.ShloMosaic.PureOps.Ideal
import Idealize.ShloMosaic.PureOps.Ideal.Laws
import Idealize.ShloMosaic.Lib.ValueIdx
import proofs.«428741_j30288109371889_1_alg».proof.Proof.Spec

noncomputable section

open scoped BigOperators

namespace Cert.Bridge

open Idealize.ShloMosaic Idealize.ShloMosaic.ValueIdx Cert.Spec

/-- An extended real that is a real number. -/
private def Fin' (a : EReal) : Prop := ∃ r : ℝ, a = (r : EReal)

/-- The sum of two reals is real. -/
private theorem fin_add {a b : EReal} (ha : Fin' a) (hb : Fin' b) : Fin' (a + b) := by
  obtain ⟨r, rfl⟩ := ha
  obtain ⟨s, rfl⟩ := hb
  exact ⟨r + s, (EReal.coe_add r s).symm⟩

/-- The product of two reals is real. -/
private theorem fin_mul {a b : EReal} (ha : Fin' a) (hb : Fin' b) : Fin' (a * b) := by
  obtain ⟨r, rfl⟩ := ha
  obtain ⟨s, rfl⟩ := hb
  exact ⟨r * s, (EReal.coe_mul r s).symm⟩

/-- A finite sum of reals is real. -/
private theorem fin_sum {ι : Type} (s : Finset ι) (f : ι → EReal) (h : ∀ i ∈ s, Fin' (f i)) :
    Fin' (∑ i ∈ s, f i) := by
  classical
  induction s using Finset.induction_on with
  | empty => exact ⟨0, by simp⟩
  | insert a s ha ih =>
    rw [Finset.sum_insert ha]
    exact fin_add (h a (Finset.mem_insert_self a s)) (ih fun i hi => h i (Finset.mem_insert_of_mem hi))

/-- A real divided by a count taken as at least 1 is real: the count is a real, so is its maximum with 1,
    and that maximum is at least 1, hence not zero. -/
private theorem fin_div_count {ι : Type} (s : Finset ι) {a : EReal} (ha : Fin' a) :
    Fin' (Ideal.div a (max (∑ _e ∈ s, (1 : EReal)) 1)) := by
  obtain ⟨m, hm⟩ : Fin' (∑ _e ∈ s, (1 : EReal)) := fin_sum s _ fun _ _ => ⟨1, EReal.coe_one.symm⟩
  have hmax : max (∑ _e ∈ s, (1 : EReal)) 1 = ((max m 1 : ℝ) : EReal) := by
    rw [hm, ← EReal.coe_one]
    rcases le_total m 1 with h | h
    · rw [max_eq_right h, max_eq_right (EReal.coe_le_coe_iff.mpr h)]
    · rw [max_eq_left h, max_eq_left (EReal.coe_le_coe_iff.mpr h)]
  have hne : (max m 1 : ℝ) ≠ 0 := by
    have : (1 : ℝ) ≤ max m 1 := le_max_right m 1
    linarith
  rw [hmax, Ideal.div_coe hne]
  exact fin_mul ha ⟨_, rfl⟩

/-- The slope of the rectifier is a real. -/
private theorem fin_slope : Fin' Spec.slope := by
  unfold Fin' Spec.slope
  simp only [Ideal.ofBits, Ideal.ieee]
  split_ifs <;> first | exact ⟨_, rfl⟩ | simp_all

/-- The product of two matrices of reals has real entries. -/
private theorem mm_real {n k m : Nat} (a : Mat n k) (b : Mat k m) (ha : IsReal a) (hb : IsReal b) :
    IsReal (mm a b) := fun j =>
  fin_sum _ _ fun t _ => fin_mul (ha _) (hb _)

/-- The mean taken edge by edge has real entries when the features do, whatever the edges. -/
private theorem meanByEdges_real {d : Nat} (ei : Edges) (x : Mat 1000 d) (hx : IsReal x) :
    IsReal (meanByEdges ei x) := fun j => by
  show Fin' (meanEdgesAt ei x (j 0) (j 1))
  unfold meanEdgesAt
  apply fin_div_count
  apply fin_sum
  intro e _
  exact hx _

/-- One layer on real messages, features, weights and bias has real entries. -/
private theorem layer_real {n d h : Nat} (msg x : Mat n d) (Wl : Mat d h) (b : Row h) (Wr : Mat d h)
    (hmsg : IsReal msg) (hx : IsReal x) (hWl : IsReal Wl) (hb : IsReal b) (hWr : IsReal Wr) :
    IsReal (layer msg x Wl b Wr) := fun j =>
  fin_add (fin_add (mm_real msg Wl hmsg hWl j) (hb _)) (mm_real x Wr hx hWr j)

/-- The rectifier keeps real entries real: it returns the entry or the entry times the slope. -/
private theorem leaky_real {n m : Nat} (a : Mat n m) (ha : IsReal a) : IsReal (leaky a) := fun j => by
  show Fin' (if 0 ≤ a j then a j else a j * Spec.slope)
  split_ifs
  · exact ha j
  · exact fin_mul (ha j) fin_slope

/-- The first layer's output, rectified, has real entries when its inputs do (the mean taken edge by edge). -/
theorem hidden_real (ei : Edges) (inp : Inp) (Wl1 : Mat 300 1024) (b1 : Row 1024) (Wr1 : Mat 300 1024)
    (hx : IsReal inp) (hWl1 : IsReal Wl1) (hb1 : IsReal b1) (hWr1 : IsReal Wr1) :
    IsReal (leaky (layer (meanByEdges ei (nodes inp)) (nodes inp) Wl1 b1 Wr1)) := by
  have hn : IsReal (nodes inp) := fun j => hx _
  exact leaky_real _ (layer_real _ _ _ _ _ (meanByEdges_real ei _ hn) hn hWl1 hb1 hWr1)

/-- The node features as a matrix are real when the given features are. -/
theorem nodes_real (inp : Inp) (hx : IsReal inp) : IsReal (nodes inp) := fun j => hx _

end Cert.Bridge

end
-- ==== Proof.Bridge.lean ====
/-
  The two programs compute the same scores.

  They differ only in how the mean over in-neighbours is taken, once for each layer. The first layer takes it
  of the node features, which are real because the inputs are finite; the second of the first layer's
  rectified output, which is real because real entries stay real through a layer and the rectifier. On real
  matrices the two means agree when every index word names a node.
-/
import proofs.«428741_j30288109371889_1_alg».proof.Proof.BridgeMean
import proofs.«428741_j30288109371889_1_alg».proof.Proof.BridgeReal

noncomputable section

namespace Cert.Bridge

open Idealize.ShloMosaic Idealize.ShloMosaic.ValueIdx Cert.Spec

/-- The two programs compute the same scores when every index word names a node and the node features and
    the first layer's weights and bias are finite. -/
theorem GK_eq_GR (feat : Feat) (inp : Inp) (ei : Edges) (Wl1 : Mat 300 1024) (b1 : Row 1024) (Wr1 : Mat 300 1024)
    (Wl2 : Mat 1024 2048) (b2 : Row 2048) (Wr2 : Mat 1024 2048)
    (hei : InRange ei) (hx : IsReal inp) (hWl1 : IsReal Wl1) (hb1 : IsReal b1) (hWr1 : IsReal Wr1) :
    GK feat inp ei Wl1 b1 Wr1 Wl2 b2 Wr2 = GR feat inp ei Wl1 b1 Wr1 Wl2 b2 Wr2 := by
  unfold GK GR scores
  simp only
  rw [mean_eq ei hei (nodes inp) (nodes_real inp hx),
      mean_eq ei hei _ (hidden_real ei inp Wl1 b1 Wr1 hx hWl1 hb1 hWr1)]

end Cert.Bridge

end
-- ==== Proof.PreDecode.lean ====
/-
  What the precondition says, decoded.

  The precondition is one bit: the conjunction, over the eight real arrays, of "every entry's absolute value is
  below +∞", and of "every edge word is at least 0" and "every edge word is below 1000" (signed comparisons).
  When the bit is set, each conjunct holds at every index: an extended real whose absolute value is below +∞
  is a real number, and an edge word w has 0 ≤ w.toInt < 1000.
-/
import proofs.«428741_j30288109371889_1_alg».proof.Pre_finite_inputs
import proofs.«428741_j30288109371889_1_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate
import proofs.«428741_j30288109371889_1_alg».proof.Proof.Spec

noncomputable section

namespace Cert.PreDecode

open Idealize.ShloMosaic Idealize.ShloMosaic.ValueIdx Cert.Spec Cert.Pre_finite_inputs

variable [Cert.Pre_finite_inputs.Facts]

/-- The scalar shape has one index. -/
private instance subsingleton_scalar_idx : Subsingleton S_.Idx := ⟨fun _ _ => funext fun d => d.elim0⟩

/-- The single-precision word 0x7F800000 denotes +∞. -/
private theorem inf_word : Ideal.ofBits .f32 0x7F800000#32 = (⊤ : EReal) := by simp [Ideal.ofBits, Ideal.ieee]

/-- An extended real x with max x (-x) < +∞ is a real number: +∞ has max ⊤ (-⊤) = ⊤ and -∞ has max ⊥ (-⊥) = ⊤. -/
private theorem real_of_abs_lt_top (x : EReal) (h : max x (-x) < ⊤) : ∃ r : ℝ, x = (r : EReal) := by
  induction x using EReal.rec with
  | bot => simp at h
  | coe r => exact ⟨r, rfl⟩
  | top => simp at h

/-- The bit of the ordered comparison |x| < +∞, when set, says x is a real number. -/
private theorem real_of_cmp (x : EReal)
    (h : Ideal.cmp .olt (max x (-x)) (Ideal.ofBits .f32 0x7F800000#32) = 1#1) : ∃ r : ℝ, x = (r : EReal) := by
  rw [inf_word] at h
  simp only [Ideal.cmp, StableHlo.Predicate.ofBool_eq_one_iff, decide_eq_true_eq] at h
  exact real_of_abs_lt_top x h

/-- The conjunction of two bits at the scalar shape's index is set exactly when both are. -/
private theorem andi_ix0 (x y : IVec S_ 1) : andi x y ix0 = 1#1 ↔ x ix0 = 1#1 ∧ y ix0 = 1#1 := IntOp.andi_eq_one

/-- "All entries have absolute value below +∞", when its bit is set, says every entry is a real number. -/
private theorem isReal_of_all {s : Shape} {axes : List (Fin s.rank)} (a : FVec Ideal s .f32)
    (hb : S_.BroadcastsInDim s (![] : Fin 0 → Fin s.rank)) (hr : s.ReducesTo axes S_) (h0 : 0 < S_.numel)
    (h : Host.reduce IntOp.andi (cmpf .olt (Host.absf a) (broadcastInDim s ![] hb (constant S_ .f32 0x7F800000#32)))
        (constantI S_ 1 1#1) hr h0 ix0 = 1#1) : IsReal (s := s) a := by
  intro i
  have hi := Host.reduce_andi_all _ _ hr h0 ix0 h i
  rw [cmpf_apply, StableHlo.Predicate.bcast_scalar hb h0] at hi
  exact real_of_cmp (a i) hi

/-- The zero word and the word 1000 as signed integers. -/
private theorem toInt_zero32 : (0#32 : BitVec 32).toInt = 0 := by decide
private theorem toInt_1000 : (1000#32 : BitVec 32).toInt = 1000 := by decide

/-- The bit of the signed comparison w ≥ 0, when set, says 0 ≤ w.toInt. -/
private theorem nonneg_of_sge (w : BitVec 32) (h : IntOp.cmpi .sge w 0#32 = 1#1) : 0 ≤ w.toInt := by
  simp only [IntOp.cmpi, BitVec.sle, StableHlo.Predicate.ofBool_eq_one_iff, decide_eq_true_eq, toInt_zero32] at h
  exact h

/-- The bit of the signed comparison w < 1000, when set, says w.toInt < 1000. -/
private theorem lt_of_slt (w : BitVec 32) (h : IntOp.cmpi .slt w 1000#32 = 1#1) : w.toInt < 1000 := by
  simp only [IntOp.cmpi, BitVec.slt, StableHlo.Predicate.ofBool_eq_one_iff, decide_eq_true_eq, toInt_1000] at h
  exact h

/-- "All words compare p against the constant c", when its bit is set, says each word does. -/
private theorem cmpi_of_all {s : Shape} {axes : List (Fin s.rank)} (p : CmpIPredicate) (c : BitVec 32) (a : IVec s 32)
    (hb : S_.BroadcastsInDim s (![] : Fin 0 → Fin s.rank)) (hr : s.ReducesTo axes S_) (h0 : 0 < S_.numel)
    (h : Host.reduce IntOp.andi (cmpi p a (broadcastInDim s ![] hb (constantI S_ 32 c)))
        (constantI S_ 1 1#1) hr h0 ix0 = 1#1) (i : s.Idx) : IntOp.cmpi p (a i) c = 1#1 := by
  have hi := Host.reduce_andi_all _ _ hr h0 ix0 h i
  rw [show cmpi p a (broadcastInDim s ![] hb (constantI S_ 32 c)) i
        = IntOp.cmpi p (a i) (broadcastInDim s ![] hb (constantI S_ 32 c) i) from rfl,
    StableHlo.Predicate.bcast_scalar hb h0] at hi
  exact hi

/-- When the precondition's bit is set, the node features and the first layer's weights and bias have real
    entries and every edge word names a node. -/
theorem decode (a0 : FVec Ideal S64x2048x14x14 .f32) (a1 : FVec Ideal S1x1000x300 .f32) (a2 : IVec S2x40000 32)
    (a3 : FVec Ideal S300x1024 .f32) (a4 : FVec Ideal S1024 .f32) (a5 : FVec Ideal S300x1024 .f32)
    (a6 : FVec Ideal S1024x2048 .f32) (a7 : FVec Ideal S2048 .f32) (a8 : FVec Ideal S1024x2048 .f32)
    (h : Cert.Pre_finite_inputs.fn (F := Ideal) a0 a1 a2 a3 a4 a5 a6 a7 a8 = fun _ => 1#1) :
    IsReal (s := S1x1000x300) a1 ∧ InRange a2 ∧ IsReal (s := S300x1024) a3 ∧ IsReal (s := S1024) a4 ∧ IsReal (s := S300x1024) a5 := by
  have h0 := congrFun h ix0
  dsimp only [fn, fn_part1, fn_part2] at h0
  -- the bit is a conjunction of ten; split it from the outside in
  obtain ⟨h0, hlt⟩ := (andi_ix0 _ _).1 h0
  obtain ⟨h0, hge⟩ := (andi_ix0 _ _).1 h0
  obtain ⟨h0, _⟩ := (andi_ix0 _ _).1 h0
  obtain ⟨h0, _⟩ := (andi_ix0 _ _).1 h0
  obtain ⟨h0, _⟩ := (andi_ix0 _ _).1 h0
  obtain ⟨h0, h5⟩ := (andi_ix0 _ _).1 h0
  obtain ⟨h0, h4⟩ := (andi_ix0 _ _).1 h0
  obtain ⟨h0, h3⟩ := (andi_ix0 _ _).1 h0
  obtain ⟨_, h1⟩ := (andi_ix0 _ _).1 h0
  refine ⟨isReal_of_all a1 _ _ _ h1, ?_, isReal_of_all a3 _ _ _ h3, isReal_of_all a4 _ _ _ h4, isReal_of_all a5 _ _ _ h5⟩
  intro r e
  exact ⟨nonneg_of_sge _ (cmpi_of_all .sge 0#32 a2 _ _ _ hge (ix2 r e)),
    lt_of_slt _ (cmpi_of_all .slt 1000#32 a2 _ _ _ hlt (ix2 r e))⟩

end Cert.PreDecode

end
-- ==== Proof.lean ====
/-
  The two programs compute the same class scores.

  Both take 64 images' channel maxima over a 14 × 14 window, run two layers of mean aggregation over a graph of
  1000 nodes and 40000 edges (the first followed by a leaky rectifier), and score every image against every
  node. One program takes a node's mean over its in-neighbours through a 1000 × 1000 table of edge counts whose
  rows are divided by their totals, the other gathers and adds up edge by edge and divides by the in-degree.
  Under the precondition — every real input finite, every edge word a node id in [0, 1000) — the two means are
  the same real numbers (a real factor moves out of a finite sum of reals, and the edges into a node sorted by
  their source are counted by the table), so the results are equal entry by entry.

  The two kernel programs' runs (termination, no fault, arguments unchanged) are the generated ones; the run of
  the program with its result named follows the generated one with the result buffer added to its post. The
  reference is a straight line of host operations; its run is written by hand. The idealization rewrote no
  operation, so nothing is owed for it.
-/
import proofs.«428741_j30288109371889_1_alg».proof.Defs
import proofs.«428741_j30288109371889_1_alg».proof.Proof.Gen.Kernel
import proofs.«428741_j30288109371889_1_alg».proof.Proof.Gen.Kernel.Skeleton
import proofs.«428741_j30288109371889_1_alg».proof.Proof.Gen.Kernel.Launch
import proofs.«428741_j30288109371889_1_alg».proof.Proof.Gen.Kernel.Points
import proofs.«428741_j30288109371889_1_alg».proof.Proof.Gen.Kernel.Frame
import proofs.«428741_j30288109371889_1_alg».proof.Proof.Gen.KernelIdeal
import proofs.«428741_j30288109371889_1_alg».proof.Proof.Gen.KernelIdeal.Skeleton
import proofs.«428741_j30288109371889_1_alg».proof.Proof.Gen.KernelIdeal.Launch
import proofs.«428741_j30288109371889_1_alg».proof.Proof.Gen.KernelIdeal.Points
import proofs.«428741_j30288109371889_1_alg».proof.Proof.Gen.KernelIdeal.Frame
import proofs.«428741_j30288109371889_1_alg».proof.Proof.Gen.ReferenceIdeal
import proofs.«428741_j30288109371889_1_alg».proof.Proof.Gen.Pre_finite_inputs
import proofs.«428741_j30288109371889_1_alg».proof.Proof.KernelRun
import proofs.«428741_j30288109371889_1_alg».proof.Proof.KernelValue
import proofs.«428741_j30288109371889_1_alg».proof.Proof.RefRun
import proofs.«428741_j30288109371889_1_alg».proof.Proof.RefValue
import proofs.«428741_j30288109371889_1_alg».proof.Proof.Bridge
import proofs.«428741_j30288109371889_1_alg».proof.Proof.PreDecode
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

/-- The word-level kernel program runs and leaves its arguments unchanged. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference runs to completion and no operation of it writes an argument. -/
theorem frame_ri : Cert.frame_ReferenceIdeal := fun m ρ _ =>
  (θ_run Cert.ReferenceIdeal.defs _ _).mono (fun r h c =>
    ⟨(h c Cert.ReferenceIdeal.main_arg0).trans (Cert.ReferenceIdeal.RefValue.kept_arg0 _),
     (h c Cert.ReferenceIdeal.main_arg1).trans (Cert.ReferenceIdeal.RefValue.kept_arg1 _),
     (h c Cert.ReferenceIdeal.main_arg2).trans (Cert.ReferenceIdeal.RefValue.kept_arg2 _),
     (h c Cert.ReferenceIdeal.main_arg3).trans (Cert.ReferenceIdeal.RefValue.kept_arg3 _),
     (h c Cert.ReferenceIdeal.main_arg4).trans (Cert.ReferenceIdeal.RefValue.kept_arg4 _),
     (h c Cert.ReferenceIdeal.main_arg5).trans (Cert.ReferenceIdeal.RefValue.kept_arg5 _),
     (h c Cert.ReferenceIdeal.main_arg6).trans (Cert.ReferenceIdeal.RefValue.kept_arg6 _),
     (h c Cert.ReferenceIdeal.main_arg7).trans (Cert.ReferenceIdeal.RefValue.kept_arg7 _),
     (h c Cert.ReferenceIdeal.main_arg8).trans (Cert.ReferenceIdeal.RefValue.kept_arg8 _)⟩)
    (Cert.ReferenceIdeal.RefRun.run (F := Ideal) m ρ)

/-- The idealization rewrote no operation. -/
theorem preserves : Cert.preserves_Kernel_KernelIdeal := trivial

/-- From memories agreeing on the arguments both programs end with the table program's scores of the arguments:
    the kernel program by its run read back, the reference by its run read back and the equality of the two
    ways of taking the mean under the precondition. -/
theorem algebraic : Cert.algebraic_KernelIdeal_ReferenceIdeal := by
  intro m ρ m' ρ' hpre hagree
  refine ⟨fun c => Cert.Spec.GK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.KValue.value m ρ c), (h c).2⟩)
      (Cert.KernelIdeal.RunValue.run (F := Ideal) m ρ)
  · refine (θ_run Cert.ReferenceIdeal.defs _ _).mono (fun r h c => ⟨?_,
      (h c Cert.ReferenceIdeal.main_arg0).trans (Cert.ReferenceIdeal.RefValue.kept_arg0 _),
      (h c Cert.ReferenceIdeal.main_arg1).trans (Cert.ReferenceIdeal.RefValue.kept_arg1 _),
      (h c Cert.ReferenceIdeal.main_arg2).trans (Cert.ReferenceIdeal.RefValue.kept_arg2 _),
      (h c Cert.ReferenceIdeal.main_arg3).trans (Cert.ReferenceIdeal.RefValue.kept_arg3 _),
      (h c Cert.ReferenceIdeal.main_arg4).trans (Cert.ReferenceIdeal.RefValue.kept_arg4 _),
      (h c Cert.ReferenceIdeal.main_arg5).trans (Cert.ReferenceIdeal.RefValue.kept_arg5 _),
      (h c Cert.ReferenceIdeal.main_arg6).trans (Cert.ReferenceIdeal.RefValue.kept_arg6 _),
      (h c Cert.ReferenceIdeal.main_arg7).trans (Cert.ReferenceIdeal.RefValue.kept_arg7 _),
      (h c Cert.ReferenceIdeal.main_arg8).trans (Cert.ReferenceIdeal.RefValue.kept_arg8 _)⟩)
      (Cert.ReferenceIdeal.RefRun.run (F := Ideal) m' ρ')
    refine (h c Cert.ReferenceIdeal.main_v58).trans ?_
    refine (Cert.ReferenceIdeal.RefValue.value (launchContents m' c)).trans ?_
    obtain ⟨a0, a1, a2, a3, a4, a5, a6, a7, a8⟩ := hagree c
    show Cert.Spec.GR (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) = _
    rw [a0, a1, a2, a3, a4, a5, a6, a7, a8]
    obtain ⟨hx, hei, h3, h4, h5⟩ := Cert.PreDecode.decode _ _ _ _ _ _ _ _ _ (hpre c)
    exact (Cert.Bridge.GK_eq_GR _ _ _ _ _ _ _ _ _ hei hx h3 h4 h5).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
